-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x128 : Shape := ⟨2, ![8192, 128]⟩
abbrev S8192x8192 : Shape := ⟨2, ![8192, 8192]⟩
abbrev S4096x4096 : Shape := ⟨2, ![4096, 4096]⟩
abbrev S4096x8192 : Shape := ⟨2, ![4096, 8192]⟩
abbrev S512x512 : Shape := ⟨2, ![512, 512]⟩
abbrev S1x128 : Shape := ⟨2, ![1, 128]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S512x512 : S_.BroadcastsInDim S512x512 (![] : Fin 0 → Fin S512x512.rank)
  reducesTo_S512x512_S_d0_1 : S512x512.ReducesTo [0, 1] S_
  bcast_S_S1x128 : S_.BroadcastsInDim S1x128 (![] : Fin 0 → Fin S1x128.rank)
  reducesTo_S1x128_S_d0_1 : S1x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S4096x8192 .f32) (main_arg5 : FVec F S512x512 .f32) (main_arg6 : FVec F S1x128 .f32) (main_arg7 : FVec F S512 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S8192x128 .f32) (main_arg2 : FVec F S8192x8192 .f32) (main_arg3 : FVec F S4096x4096 .f32) (main_arg4 : FVec F S4096x8192 .f32) (main_arg5 : FVec F S512x512 .f32) (main_arg6 : FVec F S1x128 .f32) (main_arg7 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x512 : Shape := ⟨2, ![4096, 512]⟩
abbrev S8192x128 : Shape := ⟨2, ![8192, 128]⟩
abbrev S8192x8192 : Shape := ⟨2, ![8192, 8192]⟩
abbrev S4096x4096 : Shape := ⟨2, ![4096, 4096]⟩
abbrev S4096x8192 : Shape := ⟨2, ![4096, 8192]⟩
abbrev S512x512 : Shape := ⟨2, ![512, 512]⟩
abbrev S1x128 : Shape := ⟨2, ![1, 128]⟩
abbrev S512 : Shape := ⟨1, ![512]⟩
abbrev S128x1 : Shape := ⟨2, ![128, 1]⟩
abbrev S8192x1 : Shape := ⟨2, ![8192, 1]⟩
abbrev S1x8192 : Shape := ⟨2, ![1, 8192]⟩
abbrev S1024x1024 : Shape := ⟨2, ![1024, 1024]⟩
abbrev S1x1024 : Shape := ⟨2, ![1, 1024]⟩
abbrev S1x512 : Shape := ⟨2, ![1, 512]⟩
abbrev S512x1024 : Shape := ⟨2, ![512, 1024]⟩
abbrev S1024x512 : Shape := ⟨2, ![1024, 512]⟩

abbrev nBuf : Space → Nat
  | .hbm => 14
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S8192x128, .f32⟩
  | .hbm, ⟨2, _⟩ => ⟨S8192x8192, .f32⟩
  | .hbm, ⟨3, _⟩ => ⟨S4096x4096, .f32⟩
  | .hbm, ⟨4, _⟩ => ⟨S4096x8192, .f32⟩
  | .hbm, ⟨5, _⟩ => ⟨S512x512, .f32⟩
  | .hbm, ⟨6, _⟩ => ⟨S1x128, .f32⟩
  | .hbm, ⟨7, _⟩ => ⟨S512, .f32⟩
  | .hbm, ⟨8, _⟩ => ⟨S128x1, .f32⟩
  | .hbm, ⟨9, _⟩ => ⟨S8192x1, .f32⟩
  | .hbm, ⟨10, _⟩ => ⟨S1x8192, .f32⟩
  | .hbm, ⟨11, _⟩ => ⟨S4096x4096, .bf16⟩
  | .hbm, ⟨12, _⟩ => ⟨S1x512, .f32⟩
  | .hbm, ⟨13, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .f32⟩
  | .local _ .vmem, ⟨14, _⟩ => ⟨S1024x512, .f32⟩
  | .local _ .vmem, ⟨15, _⟩ => ⟨S512x512, .f32⟩
  | .local _ .vmem, ⟨16, _⟩ => ⟨S1x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S1x128_S128x1_1_0 : S1x128.Transposes [1, 0] S128x1
  shapeCasts_S8192x1_S1x8192 : S8192x1.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x1024_d0_w32 : S1024x1024.Iotas .tc 32 [0]
  iota_S1024x1024_d1_w32 : S1024x1024.Iotas .tc 32 [1]
  packedbf16_S1024x1024_S1024x1024_0_0 : (Rect.unit (s := S1024x1024) ![0, 0] S1024x1024.size inb_S1024x1024_S1024x1024_0_0).PackedRows (EltTy.packing .bf16)
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S8192x128_S128x1_S8192x1_1_0_0_1_n_n_wf : DotDims.WF S8192x128 S128x1 S8192x1 [1] [0] [0] [1] [] []
  dot_S1024x1024_S1024x1024_S1024x1024_1_1_0_0_n_n_wf : DotDims.WF S1024x1024 S1024x1024 S1024x1024 [1] [1] [0] [0] [] []
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x8192.size a
  hwx0_1 : ∀ i : grid0.Coords, EltTy.bits .f32 = 32 ∨ (Rect.block (s := S4096x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .f32 = 32 ∨ (Rect.block (s := S4096x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x512.size a
  hwx1_4 : ∀ i : grid1.Coords, EltTy.bits .f32 = 32 ∨ (Rect.block (s := S4096x512) S512x512.size (cc1_transform_4 i) (hinb1_4 i)).WholeWords (EltTy.packing .f32)

variable [Facts₀]

def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x128 : Shape := ⟨2, ![8192, 128]⟩
abbrev S8192x8192 : Shape := ⟨2, ![8192, 8192]⟩
abbrev S4096x4096 : Shape := ⟨2, ![4096, 4096]⟩
abbrev S4096x8192 : Shape := ⟨2, ![4096, 8192]⟩
abbrev S512x512 : Shape := ⟨2, ![512, 512]⟩
abbrev S1x128 : Shape := ⟨2, ![1, 128]⟩
abbrev S512 : Shape := ⟨1, ![512]⟩
abbrev S128x1 : Shape := ⟨2, ![128, 1]⟩
abbrev S8192x1 : Shape := ⟨2, ![8192, 1]⟩
abbrev S8192 : Shape := ⟨1, ![8192]⟩
abbrev S1x8192 : Shape := ⟨2, ![1, 8192]⟩
abbrev S8192x4096 : Shape := ⟨2, ![8192, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1x512 : Shape := ⟨2, ![1, 512]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x128, .f32⟩
  | .hbm, ⟨2, _⟩ => ⟨S8192x8192, .f32⟩
  | .hbm, ⟨3, _⟩ => ⟨S4096x4096, .f32⟩
  | .hbm, ⟨4, _⟩ => ⟨S4096x8192, .f32⟩
  | .hbm, ⟨5, _⟩ => ⟨S512x512, .f32⟩
  | .hbm, ⟨6, _⟩ => ⟨S1x128, .f32⟩
  | .hbm, ⟨7, _⟩ => ⟨S512, .f32⟩
  | .hbm, ⟨8, _⟩ => ⟨S128x1, .f32⟩
  | .hbm, ⟨9, _⟩ => ⟨S8192x1, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S8192x4096, .f32⟩
  | .hbm, ⟨15, _⟩ => ⟨S4096x4096, .f32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1, .i32⟩
  | .hbm, ⟨33, _⟩ => ⟨S4096x2, .i32⟩
  | .hbm, ⟨34, _⟩ => ⟨S_, .f32⟩
  | .hbm, ⟨35, _⟩ => ⟨S4096, .f32⟩
  | .hbm, ⟨36, _⟩ => ⟨S4096x4096, .f32⟩
  | .hbm, ⟨37, _⟩ => ⟨S4096x4096, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  transposes_S1x128_S128x1_1_0 : S1x128.Transposes [1, 0] S128x1
  shapeCasts_S8192x1_S8192 : S8192x1.ShapeCasts S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S4096x8192_S8192x4096_1_0 : S4096x8192.Transposes [1, 0] S8192x4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S4096x512 : S_.BroadcastsInDim S4096x512 (![] : Fin 0 → Fin S4096x512.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S8192x128_S128x1_S8192x1_1_0_0_1_n_n_wf : DotDims.WF S8192x128 S128x1 S8192x1 [1] [0] [0] [1] [] []
  dot_S4096x8192_S8192x4096_S4096x4096_1_0_0_1_n_n_wf : DotDims.WF S4096x8192 S8192x4096 S4096x4096 [1] [0] [0] [1] [] []
  scatter_S4096x4096_S4096x2_S4096_n_01_01_1_wf : ScatterDims.WF S4096x4096 S4096x2 S4096 [] [0, 1] [0, 1] 1
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.K.Dat0.lean ====
/-
  The first kernel region (the combined adjacency `adj_v · (½ · M1 + ½)`, `M1 = T · diag(e_scale) · Tᵀ` with its diagonal
  set to one), as data.

  Its grid is 4 × 4 output tiles of [1024, 1024], times 8 tiles of the contracted edge axis, the edge tile innermost.
  At a point the body scales the row tile's [1024, 1024] block of `T` by the edge tile's [1, 1024] scales, multiplies
  it with the column tile's block of `T` (contracting the edge axis) and adds the product into a [1024, 1024] accumulator
  it keeps in scratch memory between points, starting from zero at an output tile's first edge tile; at the last edge
  tile it sets the accumulator's diagonal entries to one (where the global row equals the global column), combines it
  with the adjacency block and stores the output tile. Both `T` windows read the SAME array, so each holds half of its
  share. This module names those contents point by point, as the second region's does.
-/
import proofs.«121841_j73856257622121_1_alg».proof.Proof.Gen.Kernel.Launch
import proofs.«121841_j73856257622121_1_alg».proof.Proof.Gen.Kernel.Skeleton
import proofs.«121841_j73856257622121_1_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks a point reads, each at its literal type: `T`'s row-tile block, `T`'s column-tile block, the edge
    scales' block and the adjacency's block. -/
abbrev ti0 (c : Dev nD) (t : Fin cfg0.N) : Vec F S1024x1024 .f32 := iblk0 V c 0 t
abbrev tj0 (c : Dev nD) (t : Fin cfg0.N) : Vec F S1024x1024 .f32 := iblk0 V c 1 t
abbrev es0 (c : Dev nD) (t : Fin cfg0.N) : Vec F S1x1024 .f32 := iblk0 V c 2 t
abbrev aj0 (c : Dev nD) (t : Fin cfg0.N) : Vec F S1024x1024 .f32 := iblk0 V c 3 t

/-- THE ACCUMULATOR after the body at position `n`: at an output tile's first edge tile the scaled block product over
    zero, elsewhere over what the point before left. -/
def acc0 (c : Dev nD) : (n : ℕ) → n < cfg0.N → Vec F S1024x1024 .f32
  | 0, hn => k0_pay2 (ti0 V c ⟨0, hn⟩) (tj0 V c ⟨0, hn⟩) (es0 V c ⟨0, hn⟩) (k0_pay1 (F := F))
  | n + 1, hn =>
    if (n + 1) % 8 = 0 then k0_pay2 (ti0 V c ⟨n + 1, hn⟩) (tj0 V c ⟨n + 1, hn⟩) (es0 V c ⟨n + 1, hn⟩) (k0_pay1 (F := F))
    else k0_pay2 (ti0 V c ⟨n + 1, hn⟩) (tj0 V c ⟨n + 1, hn⟩) (es0 V c ⟨n + 1, hn⟩) (acc0 c n (Nat.lt_of_succ_lt hn))

/-- The accumulator at an output tile's first edge tile. -/
theorem acc0_first (c : Dev nD) (t : Fin cfg0.N) (h : t.val % 8 = 0) :
    acc0 V c t.val t.isLt = k0_pay2 (ti0 V c t) (tj0 V c t) (es0 V c t) (k0_pay1 (F := F)) := by
  obtain ⟨n, hn⟩ := t
  cases n with
  | zero => rfl
  | succ n => exact if_pos h

/-- The accumulator at any other point, over what the point before left. -/
theorem acc0_next (c : Dev nD) (t : Fin cfg0.N) (h : ¬ t.val % 8 = 0) :
    acc0 V c t.val t.isLt = k0_pay2 (ti0 V c t) (tj0 V c t) (es0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-- The output tile stored at the last edge tile: the finished accumulator, its diagonal set to one, combined with the
    adjacency block. -/
def out0 (c : Dev nD) (t : Fin cfg0.N) : Vec F S1024x1024 .bf16 :=
  k0_pay3 (grid0.coords t) (acc0 V c t.val t.isLt) (aj0 V c t)

/-- The scratch accumulator as a memref. -/
abbrev scM0 : Memref sig .tc .vmem S1024x1024 .f32 := Memref.whole cc0_scratch0

/-- The region invariant before position `n`: before the first point every scratch buffer at anything; afterwards
    the accumulator at what the point before left, the core's other scoped buffers at anything, and the generator
    register at some state. -/
def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The proof data of the first region on core `c`: the arrays as the region finds them; after the body each input's
    buffer at its block and the output's at `out0`; the invariant `PhiS0`; nothing owed; the two windows on `T` each at
    half of its share, every other window at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem Phi0_succ (c : Dev nD) (t : Fin cfg0.N) :
    (dat0 V c).Φ t.succ = PhiS0 V c (t.val + 1) t.isLt := rfl

end Cert.Kernel.Hand

end
-- ==== Proof.K.Body0.lean ====
/-
  The first kernel region's body, point by point: the combined adjacency `adj_v · (½ · M1 + ½)`,
  `M1 = T · diag(e_scale) · Tᵀ` with its diagonal set to one.

  The grid is 4 × 4 output tiles times 8 tiles of the contracted edge axis, the edge tile innermost, so a point's
  position modulo 8 is its edge tile. The body has three control cases:

  * the FIRST edge tile of an output tile (position ≡ 0 mod 8): the accumulator is reset to zero, whatever it held, and
    the scaled block product is added into it; nothing is stored into the output tile;
  * a MIDDLE edge tile: the scaled block product is added into what the point before left;
  * the LAST edge tile (position ≡ 7 mod 8): the product is added, and the finished accumulator, its diagonal set to
    one and combined with the adjacency block, is stored as the output tile.

  The first and the last case never meet (0 ≠ 7 mod 8). In each case what the accumulator (and, in the last, the
  output buffer) holds afterwards is the named payload of the blocks the point reads — every store covers its whole
  buffer through the rectangle at zero offsets, so the buffer reads back as the store's payload, and every load reads a
  whole buffer — which is exactly the recursion `acc0` and the tile `out0` of the proof data. The output window is idle
  at every point but the last of an output tile, where it is written back; the adjacency block is fetched only at the
  first edge tile and stays in place through the other seven.
-/
import proofs.«121841_j73856257622121_1_alg».proof.Proof.K.Dat0
import Idealize.ShloMosaic.Lib.Tactic
import Idealize.ShloMosaic.Lib.Ring
import Idealize.ShloMosaic.Lib.Pipeline.FrameBody
import Idealize.ShloMosaic.Lib.Pipeline.Frame
import Idealize.ShloMosaic.Lib.Pipeline.Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid -/

/-- The body's first conditional, as it computes it from the edge-tile coordinate: "the edge tile is 0". -/
abbrev isFirst (i : grid0.Coords) : Prop :=
  (Scalar.cmpi .ne (Scalar.extui (Scalar.cmpi .eq (BitVec.ofNat 32 (i 2).val) 0#32)) 0#32) = 1#1

/-- It holds at the positions ≡ 0 (mod 8): decided over the 128 points. -/
theorem isFirst_iff : ∀ t : Fin cfg0.N, isFirst (grid0.coords t) ↔ t.val % 8 = 0 :=
  (by decide +kernel : ∀ t : Fin grid0.N, isFirst (grid0.coords t) ↔ t.val % 8 = 0)

/-- The body's second conditional: "the edge tile is 7". -/
abbrev isLast (i : grid0.Coords) : Prop := k0_cond2 i = 1#1

/-- It holds at the positions ≡ 7 (mod 8): decided over the 128 points. -/
theorem isLast_iff : ∀ t : Fin cfg0.N, isLast (grid0.coords t) ↔ t.val % 8 = 7 :=
  (by decide +kernel : ∀ t : Fin grid0.N, isLast (grid0.coords t) ↔ t.val % 8 = 7)

/-- The four input windows are never idle; the output window is idle exactly off the last edge tile, where it is
    not written back either. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬ t.val % 8 = 7 → cfg0.idle 4 (grid0.coords t) = true := by decide +kernel
theorem live0_4 : ∀ t : Fin cfg0.N, t.val % 8 = 7 → cfg0.idle 4 (grid0.coords t) = false := by decide +kernel
theorem noFlush0_4 (t : Fin cfg0.N) (h : ¬ t.val % 8 = 7) : (cfg0.win 4).flush t = false := by
  cases hf : (cfg0.win 4).flush t
  · rfl
  · exact absurd ((flush0_4 t).mp hf) h

/-! ## What the body finds in each input window's buffer -/

/-- Each input's current buffer holds its block at every point, fetched there or not: an input not fetched at a
    point has the block index it had at the point before, and the body leaves every input's block in place (the
    adjacency block through the eight edge tiles of an output tile). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The invariant's scratch split out -/

/-- The launch's invariant with the accumulator split out of the core's other scoped buffers and owned as a memref
    at some contents. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]; try rfl

/-! ## The body's three runs -/

/-- The whole-buffer rectangle's offsets are zero. -/
theorem off0 : (![0, 0] : Fin 2 → ℕ) = fun _ => 0 := funext fun a => by fin_cases a <;> rfl

set_option maxHeartbeats 1000000 in
/-- FIRST EDGE TILE. On whole buffers — the two `T` blocks and the scales at contents `x0`, `x1`, `x2`, the
    accumulator at anything — the body runs to the three inputs as they were and the accumulator at the scaled block
    product over zero: the reset store covers the accumulator, the load after it reads the zeros back, and the
    second store covers it again with the sum. The adjacency and output buffers are not touched. -/
theorem run_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (hc0 : isFirst i) (hc1 : ¬isLast i)
    (x0 x1 : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg8 fullShare (k0_pay2 x0 x1 x2 (k0_pay1 (F := F)))) -∗ K ⟨⟩))
      ⊢ wp frame (wpE (defs₀ (F := F)) Variants.none c none) E (cc0__combined_a_kernel i arg3 harg3 arg4 harg4 arg5 harg5 arg6 harg6 arg7 harg7 arg8 harg8) K := by
  simp only [cc0__combined_a_kernel_eq_skeleton]; unfold cc0__combined_a_kernel_skel
  unfold owns
  iintro ⟨⟨%f0, %hf0, H0⟩, ⟨%f1, %hf1, H1⟩, ⟨%f2, %hf2, H2⟩, ⟨%ds, %fs, -, HS⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero off0 inb_S1024x1024_S1024x1024_0_0 y⟩),
    View.canon_cons_unit_zero (S := S1024x1024) off0]
  simp only [View.readAt_eq_ld, View.ld_unit_zero (S := S1024x1024) off0, View.ld_unit_zero (S := S1x1024) off0,
    View.readCov_unit_zero (S := S1024x1024) _ off0]

set_option maxHeartbeats 1000000 in
/-- A MIDDLE EDGE TILE. The accumulator at `xs`, what the point before left: the body runs to the inputs as they were
    and the accumulator at the scaled block product over `xs` (one covering store of the sum). The adjacency and
    output buffers are not touched. -/
theorem run_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (hc0 : ¬isFirst i) (hc1 : ¬isLast i)
    (x0 x1 : Vec F S1024x1024 .f32) (x2 : Vec F S1x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg8 fullShare (k0_pay2 x0 x1 x2 xs)) -∗ K ⟨⟩))
      ⊢ wp frame (wpE (defs₀ (F := F)) Variants.none c none) E (cc0__combined_a_kernel i arg3 harg3 arg4 harg4 arg5 harg5 arg6 harg6 arg7 harg7 arg8 harg8) K := by
  simp only [cc0__combined_a_kernel_eq_skeleton]; unfold cc0__combined_a_kernel_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero off0 inb_S1024x1024_S1024x1024_0_0 y⟩),
    View.canon_unit_zero (S := S1024x1024) off0]
  simp only [View.readAt_eq_ld, View.ld_unit_zero (S := S1024x1024) off0, View.ld_unit_zero (S := S1x1024) off0]

set_option maxHeartbeats 1000000 in
/-- THE LAST EDGE TILE. The accumulator at `xs`, the adjacency block at `x3`, the output buffer at anything: the body
    runs to the inputs as they were, the accumulator at the scaled block product over `xs`, and the output buffer at
    that finished accumulator with its diagonal set to one, combined with the adjacency block (the load of the
    accumulator after its covering store reads the sum back; the output's one store covers its buffer). -/
theorem run_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (hc0 : ¬isFirst i) (hc1 : isLast i)
    (x0 x1 : Vec F S1024x1024 .f32) (x2 : Vec F S1x1024 .f32) (x3 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (k0_pay3 i (k0_pay2 x0 x1 x2 xs) x3)
            ∗ owns (c : Thread nD τ) arg8 fullShare (k0_pay2 x0 x1 x2 xs)) -∗ K ⟨⟩))
      ⊢ wp frame (wpE (defs₀ (F := F)) Variants.none c none) E (cc0__combined_a_kernel i arg3 harg3 arg4 harg4 arg5 harg5 arg6 harg6 arg7 harg7 arg8 harg8) K := by
  simp only [cc0__combined_a_kernel_eq_skeleton]; unfold cc0__combined_a_kernel_skel
  unfold owns
  iintro ⟨⟨%f0, %hf0, H0⟩, ⟨%f1, %hf1, H1⟩, ⟨%f2, %hf2, H2⟩, ⟨%f3, %hf3, H3⟩, ⟨%dout, %fo, -, HO⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_words
    rw [View.read_writes_eq_canon _ _ _ (fun y => ⟨_, List.mem_cons_self, View.mem_set_unit_zero off0 inb_S1024x1024_S1024x1024_0_0 y⟩),
      View.canon_unit_zero (S := S1024x1024) off0]
    simp only [View.readAt_eq_ld, View.ld_unit_zero (S := S1024x1024) off0, View.ld_unit_zero (S := S1x1024) off0,
      View.readCov_unit_zero (S := S1024x1024) _ off0]
  iexists _; isplitr
  swap; · iexact HS
  ipureintro
  sl_unfold_words
  rw [View.read_writes_eq_canon _ _ _ (fun y => ⟨_, List.mem_cons_self, View.mem_set_unit_zero off0 inb_S1024x1024_S1024x1024_0_0 y⟩),
    View.canon_unit_zero (S := S1024x1024) off0]
  simp only [View.readAt_eq_ld, View.ld_unit_zero (S := S1024x1024) off0, View.ld_unit_zero (S := S1x1024) off0]

/-! ## The body obligation, at a generic point -/

/-- What the body is called with at point `t`: the invariant, the core's debts, and each window's current buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point. The inputs' buffers hold their blocks; the position modulo 8 says which case the point is
    in, and that case's run applies: at a first edge tile the invariant hands over the accumulator at anything (at
    the very first point) or at the previous output tile's finished sum, which the reset overwrites; elsewhere at what
    the point before left. Afterwards the accumulator holds `acc0` at this position (its defining recursion, case by
    case), the output buffer is handed back untouched where the window is idle and holds `out0` at a last edge tile;
    the other scoped buffers, the generator register and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ, PhiS0_succ, Phi0_castSucc]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  rw [show (dat0 V c).leavesExact 3 t = owns (c : Thread nD τ) (st0_3 t) fullShare ((dat0 V c).after 3 t) from by
    unfold Dat.leavesExact; rw [live0_3 t], after0_3]
  have hN : t.val < 128 := lt_of_lt_of_eq t.isLt (show cfg0.N = 128 from N_0)
  by_cases h0 : t.val % 8 = 0
  · have h1 : ¬ t.val % 8 = 7 := by omega
    rw [Dat.leavesExact_idle (dat0 V c) 4 t (idle0_4 t h1) (noFlush0_4 t h1)]
    rw [acc0_first V c t h0]
    by_cases hz : t.val = 0
    · rw [PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((isFirst_iff t).mpr h0) (fun h => h1 ((isLast_iff t).mp h))
        (ti0 V c t) (tj0 V c t) (es0 V c t) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS0_pos V c _ _ hz]
      iintro ⟨⟨HS, HR, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((isFirst_iff t).mpr h0) (fun h => h1 ((isLast_iff t).mp h))
        (ti0 V c t) (tj0 V c t) (es0 V c t) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS0_pos V c _ _ hz, acc0_next V c t h0]
    by_cases h1 : t.val % 8 = 7
    · rw [show (dat0 V c).leavesExact 4 t = owns (c : Thread nD τ) (st0_4 t) fullShare ((dat0 V c).after 4 t) from by
        unfold Dat.leavesExact; rw [live0_4 t h1], after0_4]
      unfold out0
      rw [acc0_next V c t h0]
      iintro ⟨⟨HS, HR, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ (fun h => h0 ((isFirst_iff t).mp h)) ((isLast_iff t).mpr h1)
        (ti0 V c t) (tj0 V c t) (es0 V c t) (aj0 V c t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idle0_4 t h1) (noFlush0_4 t h1)]
      iintro ⟨⟨HS, HR, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => h0 ((isFirst_iff t).mp h)) (fun h => h1 ((isLast_iff t).mp h))
        (ti0 V c t) (tj0 V c t) (es0 V c t) (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 128 := N_0; omega)

end Cert.Kernel.Hand

end
-- ==== Proof.K.Dat1.lean ====
/-
  The second kernel region (the row-band matrix product `combined_A @ H_v`, then `· weight + bias`), as data.

  Its grid is 8 row bands × 4 column blocks, the column block innermost. At a point the body adds the product of the
  band's [512, 1024] block of the combined adjacency with the matching [1024, 512] block of the node features into a
  [512, 512] accumulator it keeps in scratch memory between points, starting the accumulator from zero at a band's first
  column block; at the band's last column block it multiplies the accumulator by the weight matrix, adds the bias row
  and stores the band's [512, 512] output block. This module names those contents point by point: the blocks a point
  reads, the accumulator after each point (by recursion on the point), the output block stored where a band ends, the
  invariant that carries the accumulator from point to point, and the pipeline's proof data built from them.
-/
import proofs.«121841_j73856257622121_1_alg».proof.Proof.Gen.Kernel.Launch
import proofs.«121841_j73856257622121_1_alg».proof.Proof.Gen.Kernel.Skeleton
import proofs.«121841_j73856257622121_1_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks a point reads, each at its literal type: the combined adjacency's, the node features', the weight
    matrix (one block, the whole matrix) and the bias row. -/
abbrev ca1 (c : Dev nD) (t : Fin cfg1.N) : Vec F S512x1024 .bf16 := iblk1 V c 0 t
abbrev hv1 (c : Dev nD) (t : Fin cfg1.N) : Vec F S1024x512 .f32 := iblk1 V c 1 t
abbrev wt1 (c : Dev nD) (t : Fin cfg1.N) : Vec F S512x512 .f32 := iblk1 V c 2 t
abbrev bs1 (c : Dev nD) (t : Fin cfg1.N) : Vec F S1x512 .f32 := iblk1 V c 3 t

/-- THE ACCUMULATOR after the body at position `n`: at a band's first column block the block product over zero,
    elsewhere over what the point before left. -/
def acc1 (c : Dev nD) : (n : ℕ) → n < cfg1.N → Vec F S512x512 .f32
  | 0, hn => k1_pay2 (ca1 V c ⟨0, hn⟩) (hv1 V c ⟨0, hn⟩) (k1_pay1 (F := F))
  | n + 1, hn =>
    if (n + 1) % 4 = 0 then k1_pay2 (ca1 V c ⟨n + 1, hn⟩) (hv1 V c ⟨n + 1, hn⟩) (k1_pay1 (F := F))
    else k1_pay2 (ca1 V c ⟨n + 1, hn⟩) (hv1 V c ⟨n + 1, hn⟩) (acc1 c n (Nat.lt_of_succ_lt hn))

/-- The accumulator at a band's first column block. -/
theorem acc1_first (c : Dev nD) (t : Fin cfg1.N) (h : t.val % 4 = 0) :
    acc1 V c t.val t.isLt = k1_pay2 (ca1 V c t) (hv1 V c t) (k1_pay1 (F := F)) := by
  obtain ⟨n, hn⟩ := t
  cases n with
  | zero => rfl
  | succ n => exact if_pos h

/-- The accumulator at any other point, over what the point before left. -/
theorem acc1_next (c : Dev nD) (t : Fin cfg1.N) (h : ¬ t.val % 4 = 0) :
    acc1 V c t.val t.isLt = k1_pay2 (ca1 V c t) (hv1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-- The output block stored at a band's last column block: the finished accumulator times the weight, plus the bias. -/
def out1 (c : Dev nD) (t : Fin cfg1.N) : Vec F S512x512 .f32 :=
  k1_pay3 (acc1 V c t.val t.isLt) (wt1 V c t) (bs1 V c t)

/-- The scratch accumulator as a memref. -/
abbrev scM1 : Memref sig .tc .vmem S512x512 .f32 := Memref.whole cc1_scratch0

/-- The region invariant before position `n`: before the first point every scratch buffer at anything; afterwards
    the accumulator at what the point before left, the core's other scoped buffers at anything, and the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The proof data of the second region on core `c`: the arrays as the region finds them; after the body each input's
    buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) :
    (dat1 V c).Φ t.succ = PhiS1 V c (t.val + 1) t.isLt := rfl

end Cert.Kernel.Hand

end
-- ==== Proof.K.Body1.lean ====
/-
  The second kernel region's body, point by point: what the body finds in each window's staging buffer, which of its
  two conditionals a point takes, and what it leaves — in the scratch accumulator and, where a row band ends, in the
  output block.

  The column block is the inner grid axis, so a point's position modulo 4 is its column block. At column block 0 the
  body first stores zeros over the accumulator; at every point it adds the product of the adjacency block with the
  (rounded) feature block into it; at column block 3 it then multiplies the accumulator by the weight, adds the bias
  row and stores the band's output block. Hence three control cases (the first and the last column block never
  coincide), each run once over arbitrary whole memrefs, and the body obligation by cases on the point.
-/
import proofs.«121841_j73856257622121_1_alg».proof.Proof.K.Dat1
import Idealize.ShloMosaic.Lib.Tactic
import Idealize.ShloMosaic.Lib.Ring
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the input windows -/

/-- An input window's current staging buffer holds the window's block at every point, fetched there or not: where
    the pipeline does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's two conditions, in closed form -/

/-- The first conditional's condition (is this the band's first column block?), as the body computes it from the
    grid coordinates. -/
abbrev isFirst1 (i : grid1.Coords) : Prop :=
  (Scalar.cmpi .ne (Scalar.extui (Scalar.cmpi .eq (BitVec.ofNat 32 (i 1).val) 0#32)) 0#32) = 1#1

/-- It holds exactly at the points whose position is 0 modulo 4: decided over the 32 points. -/
theorem isFirst1_iff : ∀ t : Fin cfg1.N, isFirst1 (grid1.coords t) ↔ t.val % 4 = 0 :=
  (by decide +kernel : ∀ t : Fin grid1.N, isFirst1 (grid1.coords t) ↔ t.val % 4 = 0)

/-- The second conditional's condition (is this the band's last column block?). -/
abbrev isLast1 (i : grid1.Coords) : Prop := k1_cond2 i = 1#1

/-- It holds exactly at the points whose position is 3 modulo 4. -/
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are live -/

/-- The four inputs are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- Off a band's last column block the body stores nothing into the output window: the window is idle there, -/
theorem idleAt1_4 : ∀ t : Fin cfg1.N, ¬isLast1 (grid1.coords t) → cfg1.idle 4 (grid1.coords t) = true := by
  decide +kernel
/-- and the pipeline does not write its block back. -/
theorem noFlush1_4 : ∀ t : Fin cfg1.N, ¬isLast1 (grid1.coords t) → (cfg1.win 4).flush t = false := by
  decide +kernel
/-- At a band's last column block the output window is live. -/
theorem liveAt1_4 : ∀ t : Fin cfg1.N, isLast1 (grid1.coords t) → cfg1.idle 4 (grid1.coords t) = false := by
  decide +kernel

/-! ## The region invariant opened at the accumulator -/

/-- The core's scoped buffers that are no staging buffer of this call, split at the accumulator's buffer: that buffer
    whole at some contents, every other one unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region, with the accumulator's buffer split off the core's other scoped buffers and
    owned as a memref at some contents. -/
theorem PhiA1_eq (c : Dev nD) :
    (Pipeline.ΦA spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]
          ∗ (∃ r, prngReg c r)) := by
  unfold Pipeline.ΦA
  rw [scopedRest1_split]
  simp only [scM1, owns_whole]
  have h₁ : (iprop(iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) ∗ ∃ r, prngReg c r) : sProp 𝕄)
      ⊢ (iprop((∃ d : Buf (Elt F) ((c : Thread nD τ).loc cc1_scratch0), ((c : Thread nD τ).loc cc1_scratch0) ↦{fullShare} d)
          ∗ Pipeline.scopedRestBut (Ix := Unit) (Name := ℕ) (U := UR sig nD τ) (Lvl := ℕ) (Val := Elt F) spec1 c [cc1_scratch0]
          ∗ (∃ r, prngReg c r)) : sProp 𝕄) := by
    iintro ⟨⟨HS, HR⟩, Hg⟩
    isplitl [HS]; · iexact HS
    isplitl [HR]; · iexact HR
    iexact Hg
  have h₂ : (iprop((∃ d : Buf (Elt F) ((c : Thread nD τ).loc cc1_scratch0), ((c : Thread nD τ).loc cc1_scratch0) ↦{fullShare} d)
          ∗ Pipeline.scopedRestBut (Ix := Unit) (Name := ℕ) (U := UR sig nD τ) (Lvl := ℕ) (Val := Elt F) spec1 c [cc1_scratch0]
          ∗ (∃ r, prngReg c r)) : sProp 𝕄)
      ⊢ (iprop(iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) ∗ ∃ r, prngReg c r) : sProp 𝕄) := by
    iintro ⟨HS, HR, Hg⟩
    isplitl [HS HR]
    · isplitl [HS]; · iexact HS
      iexact HR
    iexact Hg
  exact BI.equiv_iff.mp ⟨h₁, h₂⟩

/-! ## The body's three runs

Every access of the body is of a whole buffer, through the rectangle at zero offsets: a load reads the buffer's
contents, and a store, whatever was stored before it, leaves its payload. So each run ends with the accumulator (and,
in the last case, the output's buffer) at a named payload of the contents the inputs were handed at. -/

/-- The zero offsets of a whole-buffer access, however spelt. -/
theorem off1_zero : (![0, 0] : Fin 2 → Nat) = fun _ => 0 := funext fun a => by fin_cases a <;> rfl

/-- A whole-buffer store, last, covers the accumulator's (the output's) shape whatever was stored before it. -/
theorem cover1_acc (p0 : Vec F S512x512 .f32) (L : List (View.Piece (Elt F) S512x512 .f32)) (y : S512x512.Idx) :
    ∃ pc ∈ ((⟨Rect.unit (s := S512x512) ![0, 0] S512x512.size inb_S512x512_S512x512_0_0, p0⟩ : View.Piece (Elt F) S512x512 .f32) :: L),
      y ∈ pc.1.set :=
  ⟨_, List.mem_cons_self, View.mem_set_unit_zero (S := S512x512) off1_zero inb_S512x512_S512x512_0_0 y⟩

set_option maxHeartbeats 1000000 in
/-- A BAND'S FIRST COLUMN BLOCK. On whole memrefs — the adjacency and feature blocks at contents `x0`, `x1`, the
    accumulator at anything — the body runs to the two blocks as they were and the accumulator at their product added
    to zero: the zero store covers the accumulator, the load after it reads the zeros back, and the sum's store
    covers it again. The weight's, the bias's and the output's buffers are not touched. -/
theorem run1_first (c : Dev nD) (i : grid1.Coords)
    (arg2 : Memref sig .tc .vmem S512x1024 .bf16) (harg2 : arg2.IsWhole) (arg3 : Memref sig .tc .vmem S1024x512 .f32) (harg3 : arg3.IsWhole)
    (arg4 : Memref sig .tc .vmem S512x512 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : isFirst1 i) (hc1 : ¬isLast1 i)
    (x0 : Vec F S512x1024 .bf16) (x1 : Vec F S1024x512 .f32) (E : Set ℕ) (K : PUnit → sProp 𝕄) :
    iprop(owns (c : Thread nD τ) arg2 fullShare x0 ∗ owns (c : Thread nD τ) arg3 fullShare x1
        ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 x0 x1 (k1_pay1 (F := F)))) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover1_acc _ _), View.canon_cons_unit_zero (S := S512x512) off1_zero]
  simp only [View.readAt_eq_ld, View.ld_unit_zero (S := S512x1024) off1_zero, View.ld_unit_zero (S := S1024x512) off1_zero,
    View.readCov_unit_zero (S := S512x512) _ off1_zero]

set_option maxHeartbeats 1000000 in
/-- A MIDDLE COLUMN BLOCK. The accumulator at `xs`, what the point before left: the body runs to the two blocks as
    they were and the accumulator at their product added to `xs` (one covering store of the sum). -/
theorem run1_mid (c : Dev nD) (i : grid1.Coords)
    (arg2 : Memref sig .tc .vmem S512x1024 .bf16) (harg2 : arg2.IsWhole) (arg3 : Memref sig .tc .vmem S1024x512 .f32) (harg3 : arg3.IsWhole)
    (arg4 : Memref sig .tc .vmem S512x512 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬isFirst1 i) (hc1 : ¬isLast1 i)
    (x0 : Vec F S512x1024 .bf16) (x1 : Vec F S1024x512 .f32) (xs : Vec F S512x512 .f32) (E : Set ℕ) (K : PUnit → sProp 𝕄) :
    iprop(owns (c : Thread nD τ) arg2 fullShare x0 ∗ owns (c : Thread nD τ) arg3 fullShare x1
        ∗ owns (c : Thread nD τ) arg7 fullShare xs
        ∗ (iprop(owns (c : Thread nD τ) arg2 fullShare x0 ∗ owns (c : Thread nD τ) arg3 fullShare x1
            ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover1_acc _ _), View.canon_unit_zero (S := S512x512) off1_zero]
  simp only [View.readAt_eq_ld, View.ld_unit_zero (S := S512x1024) off1_zero, View.ld_unit_zero (S := S1024x512) off1_zero,
    View.ld_unit_zero (S := S512x512) off1_zero]

set_option maxHeartbeats 1000000 in
/-- A BAND'S LAST COLUMN BLOCK. The accumulator at `xs`, the weight and the bias row at `x2`, `x3`, the output's buffer
    at anything: the body runs to the inputs as they were, the accumulator at the blocks' product added to `xs`, and
    the output's buffer at that finished accumulator times the weight plus the bias (the load of the accumulator after
    its covering store reads the sum back; the output's one store covers its buffer). -/
theorem run1_last (c : Dev nD) (i : grid1.Coords)
    (arg2 : Memref sig .tc .vmem S512x1024 .bf16) (harg2 : arg2.IsWhole) (arg3 : Memref sig .tc .vmem S1024x512 .f32) (harg3 : arg3.IsWhole)
    (arg4 : Memref sig .tc .vmem S512x512 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬isFirst1 i) (hc1 : isLast1 i)
    (x0 : Vec F S512x1024 .bf16) (x1 : Vec F S1024x512 .f32) (x2 : Vec F S512x512 .f32) (x3 : Vec F S1x512 .f32)
    (xs : Vec F S512x512 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%dout, %fo, -, HO⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_words
    rw [View.read_writes_eq_canon _ _ _ (cover1_acc _ _), View.canon_unit_zero (S := S512x512) off1_zero]
    simp only [View.readAt_eq_ld, View.ld_unit_zero (S := S512x1024) off1_zero, View.ld_unit_zero (S := S1024x512) off1_zero,
      View.ld_unit_zero (S := S512x512) off1_zero, View.ld_unit_zero (S := S1x512) off1_zero,
      View.readCov_unit_zero (S := S512x512) _ off1_zero]
  iexists _; isplitr
  swap; · iexact HS
  ipureintro
  sl_unfold_words
  rw [View.read_writes_eq_canon _ _ _ (cover1_acc _ _), View.canon_unit_zero (S := S512x512) off1_zero]
  simp only [View.readAt_eq_ld, View.ld_unit_zero (S := S512x1024) off1_zero, View.ld_unit_zero (S := S1024x512) off1_zero,
    View.ld_unit_zero (S := S512x512) off1_zero]

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks; the position modulo 4 says which of the three cases
    the point is in, and that case's run applies. At a band's first column block the invariant hands over the
    accumulator at anything (at the very first point) or at the band before's finished sum, which the zero store
    overwrites; elsewhere at what the point before left. Afterwards the accumulator holds `acc1` at this position — its
    defining recursion, case by case —; the output's buffer is handed back untouched where the window is idle and holds
    `out1` at a band's last column block; the core's other scoped buffers, the generator register and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, PhiS1_succ, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h1 : ¬ t.val % 4 = 3 := by omega
    rw [Dat.leavesExact_idle (dat1 V c) 4 t (idleAt1_4 t (fun h => h1 ((isLast1_iff t).mp h))) (noFlush1_4 t (fun h => h1 ((isLast1_iff t).mp h)))]
    rw [acc1_first V c t h0]
    by_cases hz : t.val = 0
    · rw [PhiS1_zero V c _ _ hz, PhiA1_eq]
      iintro ⟨⟨HS, HR, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((isFirst1_iff t).mpr h0) (fun h => h1 ((isLast1_iff t).mp h))
        (ca1 V c t) (hv1 V c t) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS1_pos V c _ _ hz]
      iintro ⟨⟨HS, HR, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((isFirst1_iff t).mpr h0) (fun h => h1 ((isLast1_iff t).mp h))
        (ca1 V c t) (hv1 V c t) Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS1_pos V c _ _ hz, acc1_next V c t h0]
    by_cases h1 : t.val % 4 = 3
    · rw [show (dat1 V c).leavesExact 4 t = owns (c : Thread nD τ) (st1_4 t) fullShare ((dat1 V c).after 4 t) from by
        unfold Dat.leavesExact; rw [liveAt1_4 t ((isLast1_iff t).mpr h1)], after1_4]
      unfold out1
      rw [acc1_next V c t h0]
      iintro ⟨⟨HS, HR, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ (fun h => h0 ((isFirst1_iff t).mp h)) ((isLast1_iff t).mpr h1)
        (ca1 V c t) (hv1 V c t) (wt1 V c t) (bs1 V c t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((isLast1_iff t).mp h))) (noFlush1_4 t (fun h => h1 ((isLast1_iff t).mp h)))]
      iintro ⟨⟨HS, HR, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((isFirst1_iff t).mp h)) (fun h => h1 ((isLast1_iff t).mp h))
        (ca1 V c t) (hv1 V c t) (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS]; · iexists _; iexact HS
  isplitl [HR]; · iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 32 := N_1; omega)

end Cert.Kernel.Hand

end
-- ==== Proof.K.Run.lean ====
/-
  The launch of the two-region program: the buffer contents at each boundary of @main, every pipeline's proof data at
  its region's entry contents, each region as a segment over the thread state "every unscoped buffer at the boundary's
  contents, the generator register at some state, nothing owed", and the run: every weakly fair execution terminates
  with every unscoped buffer at the last boundary's contents.
-/
import proofs.«121841_j73856257622121_1_alg».proof.Proof.Gen.Kernel.Launch
import proofs.«121841_j73856257622121_1_alg».proof.Proof.Gen.Kernel.Skeleton
import proofs.«121841_j73856257622121_1_alg».proof.Proof.Gen.Kernel.Points
import proofs.«121841_j73856257622121_1_alg».proof.Proof.K.Body0
import proofs.«121841_j73856257622121_1_alg».proof.Proof.K.Body1
import Idealize.ShloMosaic.Lib.Pipeline.RegionsLoop
import Idealize.ShloMosaic.Lib.Pipeline.FrameSuffix
import Idealize.ShloMosaic.Lib.Tactic
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => m (c, b)
/-- After the first host stretch (the edge scales computed and laid out as a row): the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its output array at what the pipeline's write-backs leave, every other buffer as entered. -/
def W2 (c : Dev nD) : Valuation τ sig (Elt F) :=
  Function.update (W1 m c) main_v3 ((dat0 (V1 m) c).arrAt 4 cfg0.N)
abbrev V2 : (c : Dev nD) → (b : Ref sig .tc) → Buf (Elt F) ((c : Thread nD τ).loc b) := fun c b => W2 m c b
/-- After the second host stretch (the bias laid out as a row): the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its output array at what the write-backs leave, every other buffer as entered. -/
def W4 (c : Dev nD) : Valuation τ sig (Elt F) :=
  Function.update (W3 m c) main_v5 ((dat1 (V3 m) c).arrAt 4 cfg1.N)
abbrev V4 : (c : Dev nD) → (b : Ref sig .tc) → Buf (Elt F) ((c : Thread nD τ).loc b) := fun c b => W4 m c b

theorem W2_out (c : Dev nD) : W2 m c main_v3 = (dat0 (V1 m) c).arrAt 4 cfg0.N := by
  unfold W2; exact Function.update_self ..
theorem W2_of_ne (c : Dev nD) (b : Ref sig .tc) (hb : b ≠ main_v3) : W2 m c b = W1 m c b := by
  unfold W2; exact Function.update_of_ne (StableHlo.devRef_ne_of_ne hb) ..
theorem W4_out (c : Dev nD) : W4 m c main_v5 = (dat1 (V3 m) c).arrAt 4 cfg1.N := by
  unfold W4; exact Function.update_self ..
theorem W4_of_ne (c : Dev nD) (b : Ref sig .tc) (hb : b ≠ main_v5) : W4 m c b = W3 m c b := by
  unfold W4; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The first region's arrays: two windows on one array -/

/-- ENTRY: the core's unscoped buffers at `V` are the first region's arrays at their entry contents — `T`'s buffer
    split into the two halves of its share, one per window — and the unscoped rest. -/
theorem arrays0_of_unscopedBufs (V : (c : Dev nD) → (b : Ref sig .tc) → Buf (Elt F) ((c : Thread nD τ).loc b)) (c : Dev nD) :
    (unscopedBufs c (V c) : sProp 𝕄) ⊢ iprop((dat0 V c).arrays ((dat0 V c).arrAt · 0) ∗ Pipeline.unscopedRest (Ix := Unit) (Name := ℕ) (U := UR sig nD τ) (Lvl := ℕ) spec0 c (V c)) := by
  classical
  have hA : Finset.univ.image (Pipeline.arrRef spec0) ⊆ Finset.univ.filter fun b : Ref sig .tc => ¬ b.isScoped := by decide
  unfold unscopedBufs Pipeline.unscopedRest
  rw [bigSep_sdiff_split hA]
  refine sep_mono ?_ .rfl
  rw [bigSep_eq_bigSepL_of_eq [main_arg4, main_v2, main_arg3, main_v3] (by decide) (by decide)]
  unfold Dat.arrays
  rw [bigSep_W0]
  rw [show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  rw [(arr_whole0 0).set_eq_univ, (arr_whole0 2).set_eq_univ, (arr_whole0 3).set_eq_univ, (arr_whole0 4).set_eq_univ]
  show (iprop((((c : Thread nD τ).loc main_arg4) ↦{fullShare} V c main_arg4) ∗ (((c : Thread nD τ).loc main_v2) ↦{fullShare} V c main_v2)
      ∗ (((c : Thread nD τ).loc main_arg3) ↦{fullShare} V c main_arg3) ∗ (((c : Thread nD τ).loc main_v3) ↦{fullShare} V c main_v3)) : sProp 𝕄) ⊢ _
  iintro ⟨H4, H2, H3, Hv3⟩
  ihave H4' := (pointsTo_share (PosShare.mem_left_op_right fullShare)).1 $$ H4
  icases H4' with ⟨Hl, Hr⟩
  isplitl [Hl]; · iexact Hl
  isplitl [Hr]; · iexact Hr
  isplitl [H2]; · iexact H2
  isplitl [H3]; · iexact H3
  iexact Hv3

/-- EXIT: the first region's arrays at contents `F` and the unscoped rest at `V` are the core's unscoped buffers at any
    valuation that has the arrays at `F` and agrees with `V` off them: the two halves of `T`'s share rejoin. -/
theorem unscopedBufs_of_arrays0 (V : (c : Dev nD) → (b : Ref sig .tc) → Buf (Elt F) ((c : Thread nD τ).loc b)) (c : Dev nD)
    (V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V c b) :
    iprop((dat0 V c).arrays Fa ∗ Pipeline.unscopedRest (Ix := Unit) (Name := ℕ) (U := UR sig nD τ) (Lvl := ℕ) spec0 c (V c)) ⊢ (unscopedBufs c V' : sProp 𝕄) := by
  classical
  have hA : Finset.univ.image (Pipeline.arrRef spec0) ⊆ Finset.univ.filter fun b : Ref sig .tc => ¬ b.isScoped := by decide
  unfold unscopedBufs Pipeline.unscopedRest
  rw [bigSep_sdiff_split hA]
  refine BIClass.sep_mono ?_ (Entails.of_eq (bigSep_congr fun b hb => by rw [hrest b (Finset.mem_sdiff.mp hb).2]))
  rw [bigSep_eq_bigSepL_of_eq [main_arg4, main_v2, main_arg3, main_v3] (by decide) (by decide)]
  unfold Dat.arrays
  rw [bigSep_W0]
  rw [show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  rw [(arr_whole0 0).set_eq_univ, (arr_whole0 2).set_eq_univ, (arr_whole0 3).set_eq_univ, (arr_whole0 4).set_eq_univ,
    hF 0, hF 1, hF 2, hF 3, hF 4]
  show _ ⊢ (iprop((((c : Thread nD τ).loc main_arg4) ↦{fullShare} V' main_arg4) ∗ (((c : Thread nD τ).loc main_v2) ↦{fullShare} V' main_v2)
      ∗ (((c : Thread nD τ).loc main_arg3) ↦{fullShare} V' main_arg3) ∗ (((c : Thread nD τ).loc main_v3) ↦{fullShare} V' main_v3)) : sProp 𝕄)
  iintro ⟨Hl, Hr, H2, H3, Hv3⟩
  ihave H4 := (pointsTo_share (PosShare.mem_left_op_right fullShare)).2 $$ [Hl Hr]
  · isplitl [Hl] <;> iassumption
  isplitl [H4]; · iexact H4
  isplitl [H2]; · iexact H2
  isplitl [H3]; · iexact H3
  iexact Hv3

/-! ## What each region's exit holds -/

theorem hF0 (c : Dev nD) : ∀ w : Fin cfg0.W, (dat0 (V1 m) c).arrAt w cfg0.N = V2 m c (Pipeline.arrRef spec0 w) := by
  intro w
  fin_cases w
  · exact ((dat0 (V1 m) c).arrAt_in _ rfl _).trans ((A_eq0 (V1 m) c _).trans (W2_of_ne m c _ (by decide)).symm)
  · exact ((dat0 (V1 m) c).arrAt_in _ rfl _).trans ((A_eq0 (V1 m) c _).trans (W2_of_ne m c _ (by decide)).symm)
  · exact ((dat0 (V1 m) c).arrAt_in _ rfl _).trans ((A_eq0 (V1 m) c _).trans (W2_of_ne m c _ (by decide)).symm)
  · exact ((dat0 (V1 m) c).arrAt_in _ rfl _).trans ((A_eq0 (V1 m) c _).trans (W2_of_ne m c _ (by decide)).symm)
  · exact (W2_out m c).symm

theorem hrest0 (c : Dev nD) : ∀ b, b ∉ Finset.univ.image (Pipeline.arrRef spec0) → V2 m c b = V1 m c b :=
  fun b hb => W2_of_ne m c b fun e => hb (e ▸ (by decide : main_v3 ∈ Finset.univ.image (Pipeline.arrRef spec0)))

theorem hF1 (c : Dev nD) : ∀ w : Fin cfg1.W, (dat1 (V3 m) c).arrAt w cfg1.N = V4 m c (Pipeline.arrRef spec1 w) := by
  intro w
  fin_cases w
  · exact ((dat1 (V3 m) c).arrAt_in _ rfl _).trans ((A_eq1 (V3 m) c _).trans (W4_of_ne m c _ (by decide)).symm)
  · exact ((dat1 (V3 m) c).arrAt_in _ rfl _).trans ((A_eq1 (V3 m) c _).trans (W4_of_ne m c _ (by decide)).symm)
  · exact ((dat1 (V3 m) c).arrAt_in _ rfl _).trans ((A_eq1 (V3 m) c _).trans (W4_of_ne m c _ (by decide)).symm)
  · exact ((dat1 (V3 m) c).arrAt_in _ rfl _).trans ((A_eq1 (V3 m) c _).trans (W4_of_ne m c _ (by decide)).symm)
  · exact (W4_out m c).symm

theorem hrest1 (c : Dev nD) : ∀ b, b ∉ Finset.univ.image (Pipeline.arrRef spec1) → V4 m c b = V3 m c b :=
  fun b hb => W4_of_ne m c b fun e => hb (e ▸ (by decide : main_v5 ∈ Finset.univ.image (Pipeline.arrRef spec1)))

/-! ## The host stretches and the regions as segments -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor

/-- The last thread state without the `owes`: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE FIRST REGION over the thread state: entered from every unscoped buffer at `W1`, left at `W2`. Its arrays split
    out of the unscoped buffers (`T`'s buffer into two half shares) and put back at the exit contents; the generator
    register into the invariant and out; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0)
        ∗ Pipeline.unscopedRest (Ix := Unit) (Name := ℕ) (U := UR sig nD τ) (Lvl := ℕ) spec0 c (V1 m c)) :=
      arrays0_of_unscopedBufs (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
        ∗ Pipeline.unscopedRest (Ix := Unit) (Name := ℕ) (U := UR sig nD τ) (Lvl := ℕ) spec0 c (V1 m c)) ⊢ (unscopedBufs c (V2 m c) : sProp 𝕄) :=
      unscopedBufs_of_arrays0 (V1 m) c (V2 m c) ((dat0 (V1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.K.Frame.lean ====
/-
  The frame of the two-region program from its run: no host operation writes an argument array and neither region's
  output array is one, so at the last boundary every argument holds its launch contents.
-/
import proofs.«121841_j73856257622121_1_alg».proof.Proof.Gen.Kernel.Launch
import proofs.«121841_j73856257622121_1_alg».proof.Proof.Gen.Kernel.Skeleton
import proofs.«121841_j73856257622121_1_alg».proof.Proof.Gen.Kernel.Points
import proofs.«121841_j73856257622121_1_alg».proof.Proof.K.Run
import proofs.«121841_j73856257622121_1_alg».proof.Proof.Gen.Kernel.Regions
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the first host stretch does not write it leaves as launched. -/
theorem W1_of (c : Dev nD) (r : Ref sig .tc) (h : r ∉ hostOps0_W) : W1 m c r = W0 m c r :=
  StableHlo.after_of_writes_sub hostOps0 _ hostOps0_writes h
/-- What the second host stretch does not write it leaves as the first region left it. -/
theorem W3_of (c : Dev nD) (r : Ref sig .tc) (h : r ∉ hostOps1_W) : W3 m c r = W2 m c r :=
  StableHlo.after_of_writes_sub hostOps1 _ hostOps1_writes h

/-- A buffer that no host stretch writes and that is no region's output reaches the end as launched. -/
theorem W4_kept (c : Dev nD) (r : Ref sig .tc) (h0 : r ∉ hostOps0_W) (h1 : r ≠ main_v3) (h2 : r ∉ hostOps1_W) (h3 : r ≠ main_v5) :
    W4 m c r = m ((c : Thread nD τ).loc r) :=
  (W4_of_ne m c r h3).trans <| (W3_of m c r h2).trans <| (W2_of_ne m c r h1).trans <| (W1_of m c r h0).trans rfl

/-- THE FRAME, at any instance: every weakly fair execution terminates, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_all m ρ)

end Cert.Kernel.Hand

end
-- ==== Proof.KI.Dat0.lean ====
/-
  The first kernel region (the combined adjacency `adj_v · (½ · M1 + ½)`, `M1 = T · diag(e_scale) · Tᵀ` with its diagonal
  set to one), as data.

  Its grid is 4 × 4 output tiles of [1024, 1024], times 8 tiles of the contracted edge axis, the edge tile innermost.
  At a point the body scales the row tile's [1024, 1024] block of `T` by the edge tile's [1, 1024] scales, multiplies
  it with the column tile's block of `T` (contracting the edge axis) and adds the product into a [1024, 1024] accumulator
  it keeps in scratch memory between points, starting from zero at an output tile's first edge tile; at the last edge
  tile it sets the accumulator's diagonal entries to one (where the global row equals the global column), combines it
  with the adjacency block and stores the output tile. Both `T` windows read the SAME array, so each holds half of its
  share. This module names those contents point by point, as the second region's does.
-/
import proofs.«121841_j73856257622121_1_alg».proof.Proof.Gen.KernelIdeal.Launch
import proofs.«121841_j73856257622121_1_alg».proof.Proof.Gen.KernelIdeal.Skeleton
import proofs.«121841_j73856257622121_1_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks a point reads, each at its literal type: `T`'s row-tile block, `T`'s column-tile block, the edge
    scales' block and the adjacency's block. -/
abbrev ti0 (c : Dev nD) (t : Fin cfg0.N) : Vec F S1024x1024 .f32 := iblk0 V c 0 t
abbrev tj0 (c : Dev nD) (t : Fin cfg0.N) : Vec F S1024x1024 .f32 := iblk0 V c 1 t
abbrev es0 (c : Dev nD) (t : Fin cfg0.N) : Vec F S1x1024 .f32 := iblk0 V c 2 t
abbrev aj0 (c : Dev nD) (t : Fin cfg0.N) : Vec F S1024x1024 .f32 := iblk0 V c 3 t

/-- THE ACCUMULATOR after the body at position `n`: at an output tile's first edge tile the scaled block product over
    zero, elsewhere over what the point before left. -/
def acc0 (c : Dev nD) : (n : ℕ) → n < cfg0.N → Vec F S1024x1024 .f32
  | 0, hn => k0_pay2 (ti0 V c ⟨0, hn⟩) (tj0 V c ⟨0, hn⟩) (es0 V c ⟨0, hn⟩) (k0_pay1 (F := F))
  | n + 1, hn =>
    if (n + 1) % 8 = 0 then k0_pay2 (ti0 V c ⟨n + 1, hn⟩) (tj0 V c ⟨n + 1, hn⟩) (es0 V c ⟨n + 1, hn⟩) (k0_pay1 (F := F))
    else k0_pay2 (ti0 V c ⟨n + 1, hn⟩) (tj0 V c ⟨n + 1, hn⟩) (es0 V c ⟨n + 1, hn⟩) (acc0 c n (Nat.lt_of_succ_lt hn))

/-- The accumulator at an output tile's first edge tile. -/
theorem acc0_first (c : Dev nD) (t : Fin cfg0.N) (h : t.val % 8 = 0) :
    acc0 V c t.val t.isLt = k0_pay2 (ti0 V c t) (tj0 V c t) (es0 V c t) (k0_pay1 (F := F)) := by
  obtain ⟨n, hn⟩ := t
  cases n with
  | zero => rfl
  | succ n => exact if_pos h

/-- The accumulator at any other point, over what the point before left. -/
theorem acc0_next (c : Dev nD) (t : Fin cfg0.N) (h : ¬ t.val % 8 = 0) :
    acc0 V c t.val t.isLt = k0_pay2 (ti0 V c t) (tj0 V c t) (es0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-- The output tile stored at the last edge tile: the finished accumulator, its diagonal set to one, combined with the
    adjacency block. -/
def out0 (c : Dev nD) (t : Fin cfg0.N) : Vec F S1024x1024 .bf16 :=
  k0_pay3 (grid0.coords t) (acc0 V c t.val t.isLt) (aj0 V c t)

/-- The scratch accumulator as a memref. -/
abbrev scM0 : Memref sig .tc .vmem S1024x1024 .f32 := Memref.whole cc0_scratch0

/-- The region invariant before position `n`: before the first point every scratch buffer at anything; afterwards
    the accumulator at what the point before left, the core's other scoped buffers at anything, and the generator
    register at some state. -/
def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The proof data of the first region on core `c`: the arrays as the region finds them; after the body each input's
    buffer at its block and the output's at `out0`; the invariant `PhiS0`; nothing owed; the two windows on `T` each at
    half of its share, every other window at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem Phi0_succ (c : Dev nD) (t : Fin cfg0.N) :
    (dat0 V c).Φ t.succ = PhiS0 V c (t.val + 1) t.isLt := rfl

end Cert.KernelIdeal.Hand

end
-- ==== Proof.KI.Body0.lean ====
/-
  The first kernel region's body, point by point: the combined adjacency `adj_v · (½ · M1 + ½)`,
  `M1 = T · diag(e_scale) · Tᵀ` with its diagonal set to one.

  The grid is 4 × 4 output tiles times 8 tiles of the contracted edge axis, the edge tile innermost, so a point's
  position modulo 8 is its edge tile. The body has three control cases:

  * the FIRST edge tile of an output tile (position ≡ 0 mod 8): the accumulator is reset to zero, whatever it held, and
    the scaled block product is added into it; nothing is stored into the output tile;
  * a MIDDLE edge tile: the scaled block product is added into what the point before left;
  * the LAST edge tile (position ≡ 7 mod 8): the product is added, and the finished accumulator, its diagonal set to
    one and combined with the adjacency block, is stored as the output tile.

  The first and the last case never meet (0 ≠ 7 mod 8). In each case what the accumulator (and, in the last, the
  output buffer) holds afterwards is the named payload of the blocks the point reads — every store covers its whole
  buffer through the rectangle at zero offsets, so the buffer reads back as the store's payload, and every load reads a
  whole buffer — which is exactly the recursion `acc0` and the tile `out0` of the proof data. The output window is idle
  at every point but the last of an output tile, where it is written back; the adjacency block is fetched only at the
  first edge tile and stays in place through the other seven.
-/
import proofs.«121841_j73856257622121_1_alg».proof.Proof.KI.Dat0
import Idealize.ShloMosaic.Lib.Tactic
import Idealize.ShloMosaic.Lib.Ring
import Idealize.ShloMosaic.Lib.Pipeline.FrameBody
import Idealize.ShloMosaic.Lib.Pipeline.Frame
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form over the grid -/

/-- The body's first conditional, as it computes it from the edge-tile coordinate: "the edge tile is 0". -/
abbrev isFirst (i : grid0.Coords) : Prop :=
  (Scalar.cmpi .ne (Scalar.extui (Scalar.cmpi .eq (BitVec.ofNat 32 (i 2).val) 0#32)) 0#32) = 1#1

/-- It holds at the positions ≡ 0 (mod 8): decided over the 128 points. -/
theorem isFirst_iff : ∀ t : Fin cfg0.N, isFirst (grid0.coords t) ↔ t.val % 8 = 0 :=
  (by decide +kernel : ∀ t : Fin grid0.N, isFirst (grid0.coords t) ↔ t.val % 8 = 0)

/-- The body's second conditional: "the edge tile is 7". -/
abbrev isLast (i : grid0.Coords) : Prop := k0_cond2 i = 1#1

/-- It holds at the positions ≡ 7 (mod 8): decided over the 128 points. -/
theorem isLast_iff : ∀ t : Fin cfg0.N, isLast (grid0.coords t) ↔ t.val % 8 = 7 :=
  (by decide +kernel : ∀ t : Fin grid0.N, isLast (grid0.coords t) ↔ t.val % 8 = 7)

/-- The four input windows are never idle; the output window is idle exactly off the last edge tile, where it is
    not written back either. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬ t.val % 8 = 7 → cfg0.idle 4 (grid0.coords t) = true := by decide +kernel
theorem live0_4 : ∀ t : Fin cfg0.N, t.val % 8 = 7 → cfg0.idle 4 (grid0.coords t) = false := by decide +kernel
theorem noFlush0_4 (t : Fin cfg0.N) (h : ¬ t.val % 8 = 7) : (cfg0.win 4).flush t = false := by
  cases hf : (cfg0.win 4).flush t
  · rfl
  · exact absurd ((flush0_4 t).mp hf) h

/-! ## What the body finds in each input window's buffer -/

/-- Each input's current buffer holds its block at every point, fetched there or not: an input not fetched at a
    point has the block index it had at the point before, and the body leaves every input's block in place (the
    adjacency block through the eight edge tiles of an output tile). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The invariant's scratch split out -/

/-- The launch's invariant with the accumulator split out of the core's other scoped buffers and owned as a memref
    at some contents. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]; try rfl

/-! ## The body's three runs -/

/-- The whole-buffer rectangle's offsets are zero. -/
theorem off0 : (![0, 0] : Fin 2 → ℕ) = fun _ => 0 := funext fun a => by fin_cases a <;> rfl

set_option maxHeartbeats 1000000 in
/-- FIRST EDGE TILE. On whole buffers — the two `T` blocks and the scales at contents `x0`, `x1`, `x2`, the
    accumulator at anything — the body runs to the three inputs as they were and the accumulator at the scaled block
    product over zero: the reset store covers the accumulator, the load after it reads the zeros back, and the
    second store covers it again with the sum. The adjacency and output buffers are not touched. -/
theorem run_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (hc0 : isFirst i) (hc1 : ¬isLast i)
    (x0 x1 : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg8 fullShare (k0_pay2 x0 x1 x2 (k0_pay1 (F := F)))) -∗ K ⟨⟩))
      ⊢ wp frame (wpE (defs₀ (F := F)) Variants.none c none) E (cc0__combined_a_kernel i arg3 harg3 arg4 harg4 arg5 harg5 arg6 harg6 arg7 harg7 arg8 harg8) K := by
  simp only [cc0__combined_a_kernel_eq_skeleton]; unfold cc0__combined_a_kernel_skel
  unfold owns
  iintro ⟨⟨%f0, %hf0, H0⟩, ⟨%f1, %hf1, H1⟩, ⟨%f2, %hf2, H2⟩, ⟨%ds, %fs, -, HS⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero off0 inb_S1024x1024_S1024x1024_0_0 y⟩),
    View.canon_cons_unit_zero (S := S1024x1024) off0]
  simp only [View.readAt_eq_ld, View.ld_unit_zero (S := S1024x1024) off0, View.ld_unit_zero (S := S1x1024) off0,
    View.readCov_unit_zero (S := S1024x1024) _ off0]

set_option maxHeartbeats 1000000 in
/-- A MIDDLE EDGE TILE. The accumulator at `xs`, what the point before left: the body runs to the inputs as they were
    and the accumulator at the scaled block product over `xs` (one covering store of the sum). The adjacency and
    output buffers are not touched. -/
theorem run_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (hc0 : ¬isFirst i) (hc1 : ¬isLast i)
    (x0 x1 : Vec F S1024x1024 .f32) (x2 : Vec F S1x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg8 fullShare (k0_pay2 x0 x1 x2 xs)) -∗ K ⟨⟩))
      ⊢ wp frame (wpE (defs₀ (F := F)) Variants.none c none) E (cc0__combined_a_kernel i arg3 harg3 arg4 harg4 arg5 harg5 arg6 harg6 arg7 harg7 arg8 harg8) K := by
  simp only [cc0__combined_a_kernel_eq_skeleton]; unfold cc0__combined_a_kernel_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero off0 inb_S1024x1024_S1024x1024_0_0 y⟩),
    View.canon_unit_zero (S := S1024x1024) off0]
  simp only [View.readAt_eq_ld, View.ld_unit_zero (S := S1024x1024) off0, View.ld_unit_zero (S := S1x1024) off0]

set_option maxHeartbeats 1000000 in
/-- THE LAST EDGE TILE. The accumulator at `xs`, the adjacency block at `x3`, the output buffer at anything: the body
    runs to the inputs as they were, the accumulator at the scaled block product over `xs`, and the output buffer at
    that finished accumulator with its diagonal set to one, combined with the adjacency block (the load of the
    accumulator after its covering store reads the sum back; the output's one store covers its buffer). -/
theorem run_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (hc0 : ¬isFirst i) (hc1 : isLast i)
    (x0 x1 : Vec F S1024x1024 .f32) (x2 : Vec F S1x1024 .f32) (x3 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (k0_pay3 i (k0_pay2 x0 x1 x2 xs) x3)
            ∗ owns (c : Thread nD τ) arg8 fullShare (k0_pay2 x0 x1 x2 xs)) -∗ K ⟨⟩))
      ⊢ wp frame (wpE (defs₀ (F := F)) Variants.none c none) E (cc0__combined_a_kernel i arg3 harg3 arg4 harg4 arg5 harg5 arg6 harg6 arg7 harg7 arg8 harg8) K := by
  simp only [cc0__combined_a_kernel_eq_skeleton]; unfold cc0__combined_a_kernel_skel
  unfold owns
  iintro ⟨⟨%f0, %hf0, H0⟩, ⟨%f1, %hf1, H1⟩, ⟨%f2, %hf2, H2⟩, ⟨%f3, %hf3, H3⟩, ⟨%dout, %fo, -, HO⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_words
    rw [View.read_writes_eq_canon _ _ _ (fun y => ⟨_, List.mem_cons_self, View.mem_set_unit_zero off0 inb_S1024x1024_S1024x1024_0_0 y⟩),
      View.canon_unit_zero (S := S1024x1024) off0]
    simp only [View.readAt_eq_ld, View.ld_unit_zero (S := S1024x1024) off0, View.ld_unit_zero (S := S1x1024) off0,
      View.readCov_unit_zero (S := S1024x1024) _ off0]
  iexists _; isplitr
  swap; · iexact HS
  ipureintro
  sl_unfold_words
  rw [View.read_writes_eq_canon _ _ _ (fun y => ⟨_, List.mem_cons_self, View.mem_set_unit_zero off0 inb_S1024x1024_S1024x1024_0_0 y⟩),
    View.canon_unit_zero (S := S1024x1024) off0]
  simp only [View.readAt_eq_ld, View.ld_unit_zero (S := S1024x1024) off0, View.ld_unit_zero (S := S1x1024) off0]

/-! ## The body obligation, at a generic point -/

/-- What the body is called with at point `t`: the invariant, the core's debts, and each window's current buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point. The inputs' buffers hold their blocks; the position modulo 8 says which case the point is
    in, and that case's run applies: at a first edge tile the invariant hands over the accumulator at anything (at
    the very first point) or at the previous output tile's finished sum, which the reset overwrites; elsewhere at what
    the point before left. Afterwards the accumulator holds `acc0` at this position (its defining recursion, case by
    case), the output buffer is handed back untouched where the window is idle and holds `out0` at a last edge tile;
    the other scoped buffers, the generator register and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ, PhiS0_succ, Phi0_castSucc]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  rw [show (dat0 V c).leavesExact 3 t = owns (c : Thread nD τ) (st0_3 t) fullShare ((dat0 V c).after 3 t) from by
    unfold Dat.leavesExact; rw [live0_3 t], after0_3]
  have hN : t.val < 128 := lt_of_lt_of_eq t.isLt (show cfg0.N = 128 from N_0)
  by_cases h0 : t.val % 8 = 0
  · have h1 : ¬ t.val % 8 = 7 := by omega
    rw [Dat.leavesExact_idle (dat0 V c) 4 t (idle0_4 t h1) (noFlush0_4 t h1)]
    rw [acc0_first V c t h0]
    by_cases hz : t.val = 0
    · rw [PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((isFirst_iff t).mpr h0) (fun h => h1 ((isLast_iff t).mp h))
        (ti0 V c t) (tj0 V c t) (es0 V c t) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS0_pos V c _ _ hz]
      iintro ⟨⟨HS, HR, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((isFirst_iff t).mpr h0) (fun h => h1 ((isLast_iff t).mp h))
        (ti0 V c t) (tj0 V c t) (es0 V c t) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS0_pos V c _ _ hz, acc0_next V c t h0]
    by_cases h1 : t.val % 8 = 7
    · rw [show (dat0 V c).leavesExact 4 t = owns (c : Thread nD τ) (st0_4 t) fullShare ((dat0 V c).after 4 t) from by
        unfold Dat.leavesExact; rw [live0_4 t h1], after0_4]
      unfold out0
      rw [acc0_next V c t h0]
      iintro ⟨⟨HS, HR, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ (fun h => h0 ((isFirst_iff t).mp h)) ((isLast_iff t).mpr h1)
        (ti0 V c t) (tj0 V c t) (es0 V c t) (aj0 V c t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idle0_4 t h1) (noFlush0_4 t h1)]
      iintro ⟨⟨HS, HR, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => h0 ((isFirst_iff t).mp h)) (fun h => h1 ((isLast_iff t).mp h))
        (ti0 V c t) (tj0 V c t) (es0 V c t) (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 128 := N_0; omega)

end Cert.KernelIdeal.Hand

end
-- ==== Proof.KI.Dat1.lean ====
/-
  The second kernel region (the row-band matrix product `combined_A @ H_v`, then `· weight + bias`), as data.

  Its grid is 8 row bands × 4 column blocks, the column block innermost. At a point the body adds the product of the
  band's [512, 1024] block of the combined adjacency with the matching [1024, 512] block of the node features into a
  [512, 512] accumulator it keeps in scratch memory between points, starting the accumulator from zero at a band's first
  column block; at the band's last column block it multiplies the accumulator by the weight matrix, adds the bias row
  and stores the band's [512, 512] output block. This module names those contents point by point: the blocks a point
  reads, the accumulator after each point (by recursion on the point), the output block stored where a band ends, the
  invariant that carries the accumulator from point to point, and the pipeline's proof data built from them.
-/
import proofs.«121841_j73856257622121_1_alg».proof.Proof.Gen.KernelIdeal.Launch
import proofs.«121841_j73856257622121_1_alg».proof.Proof.Gen.KernelIdeal.Skeleton
import proofs.«121841_j73856257622121_1_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks a point reads, each at its literal type: the combined adjacency's, the node features', the weight
    matrix (one block, the whole matrix) and the bias row. -/
abbrev ca1 (c : Dev nD) (t : Fin cfg1.N) : Vec F S512x1024 .bf16 := iblk1 V c 0 t
abbrev hv1 (c : Dev nD) (t : Fin cfg1.N) : Vec F S1024x512 .f32 := iblk1 V c 1 t
abbrev wt1 (c : Dev nD) (t : Fin cfg1.N) : Vec F S512x512 .f32 := iblk1 V c 2 t
abbrev bs1 (c : Dev nD) (t : Fin cfg1.N) : Vec F S1x512 .f32 := iblk1 V c 3 t

/-- THE ACCUMULATOR after the body at position `n`: at a band's first column block the block product over zero,
    elsewhere over what the point before left. -/
def acc1 (c : Dev nD) : (n : ℕ) → n < cfg1.N → Vec F S512x512 .f32
  | 0, hn => k1_pay2 (ca1 V c ⟨0, hn⟩) (hv1 V c ⟨0, hn⟩) (k1_pay1 (F := F))
  | n + 1, hn =>
    if (n + 1) % 4 = 0 then k1_pay2 (ca1 V c ⟨n + 1, hn⟩) (hv1 V c ⟨n + 1, hn⟩) (k1_pay1 (F := F))
    else k1_pay2 (ca1 V c ⟨n + 1, hn⟩) (hv1 V c ⟨n + 1, hn⟩) (acc1 c n (Nat.lt_of_succ_lt hn))

/-- The accumulator at a band's first column block. -/
theorem acc1_first (c : Dev nD) (t : Fin cfg1.N) (h : t.val % 4 = 0) :
    acc1 V c t.val t.isLt = k1_pay2 (ca1 V c t) (hv1 V c t) (k1_pay1 (F := F)) := by
  obtain ⟨n, hn⟩ := t
  cases n with
  | zero => rfl
  | succ n => exact if_pos h

/-- The accumulator at any other point, over what the point before left. -/
theorem acc1_next (c : Dev nD) (t : Fin cfg1.N) (h : ¬ t.val % 4 = 0) :
    acc1 V c t.val t.isLt = k1_pay2 (ca1 V c t) (hv1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-- The output block stored at a band's last column block: the finished accumulator times the weight, plus the bias. -/
def out1 (c : Dev nD) (t : Fin cfg1.N) : Vec F S512x512 .f32 :=
  k1_pay3 (acc1 V c t.val t.isLt) (wt1 V c t) (bs1 V c t)

/-- The scratch accumulator as a memref. -/
abbrev scM1 : Memref sig .tc .vmem S512x512 .f32 := Memref.whole cc1_scratch0

/-- The region invariant before position `n`: before the first point every scratch buffer at anything; afterwards
    the accumulator at what the point before left, the core's other scoped buffers at anything, and the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The proof data of the second region on core `c`: the arrays as the region finds them; after the body each input's
    buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) :
    (dat1 V c).Φ t.succ = PhiS1 V c (t.val + 1) t.isLt := rfl

end Cert.KernelIdeal.Hand

end
-- ==== Proof.KI.Body1.lean ====
/-
  The second kernel region's body, point by point: what the body finds in each window's staging buffer, which of its
  two conditionals a point takes, and what it leaves — in the scratch accumulator and, where a row band ends, in the
  output block.

  The column block is the inner grid axis, so a point's position modulo 4 is its column block. At column block 0 the
  body first stores zeros over the accumulator; at every point it adds the product of the adjacency block with the
  (rounded) feature block into it; at column block 3 it then multiplies the accumulator by the weight, adds the bias
  row and stores the band's output block. Hence three control cases (the first and the last column block never
  coincide), each run once over arbitrary whole memrefs, and the body obligation by cases on the point.
-/
import proofs.«121841_j73856257622121_1_alg».proof.Proof.KI.Dat1
import Idealize.ShloMosaic.Lib.Tactic
import Idealize.ShloMosaic.Lib.Ring
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the input windows -/

/-- An input window's current staging buffer holds the window's block at every point, fetched there or not: where
    the pipeline does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's two conditions, in closed form -/

/-- The first conditional's condition (is this the band's first column block?), as the body computes it from the
    grid coordinates. -/
abbrev isFirst1 (i : grid1.Coords) : Prop :=
  (Scalar.cmpi .ne (Scalar.extui (Scalar.cmpi .eq (BitVec.ofNat 32 (i 1).val) 0#32)) 0#32) = 1#1

/-- It holds exactly at the points whose position is 0 modulo 4: decided over the 32 points. -/
theorem isFirst1_iff : ∀ t : Fin cfg1.N, isFirst1 (grid1.coords t) ↔ t.val % 4 = 0 :=
  (by decide +kernel : ∀ t : Fin grid1.N, isFirst1 (grid1.coords t) ↔ t.val % 4 = 0)

/-- The second conditional's condition (is this the band's last column block?). -/
abbrev isLast1 (i : grid1.Coords) : Prop := k1_cond2 i = 1#1

/-- It holds exactly at the points whose position is 3 modulo 4. -/
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are live -/

/-- The four inputs are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- Off a band's last column block the body stores nothing into the output window: the window is idle there, -/
theorem idleAt1_4 : ∀ t : Fin cfg1.N, ¬isLast1 (grid1.coords t) → cfg1.idle 4 (grid1.coords t) = true := by
  decide +kernel
/-- and the pipeline does not write its block back. -/
theorem noFlush1_4 : ∀ t : Fin cfg1.N, ¬isLast1 (grid1.coords t) → (cfg1.win 4).flush t = false := by
  decide +kernel
/-- At a band's last column block the output window is live. -/
theorem liveAt1_4 : ∀ t : Fin cfg1.N, isLast1 (grid1.coords t) → cfg1.idle 4 (grid1.coords t) = false := by
  decide +kernel

/-! ## The region invariant opened at the accumulator -/

/-- The core's scoped buffers that are no staging buffer of this call, split at the accumulator's buffer: that buffer
    whole at some contents, every other one unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region, with the accumulator's buffer split off the core's other scoped buffers and
    owned as a memref at some contents. -/
theorem PhiA1_eq (c : Dev nD) :
    (Pipeline.ΦA spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]
          ∗ (∃ r, prngReg c r)) := by
  unfold Pipeline.ΦA
  rw [scopedRest1_split]
  simp only [scM1, owns_whole]
  have h₁ : (iprop(iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) ∗ ∃ r, prngReg c r) : sProp 𝕄)
      ⊢ (iprop((∃ d : Buf (Elt F) ((c : Thread nD τ).loc cc1_scratch0), ((c : Thread nD τ).loc cc1_scratch0) ↦{fullShare} d)
          ∗ Pipeline.scopedRestBut (Ix := Unit) (Name := ℕ) (U := UR sig nD τ) (Lvl := ℕ) (Val := Elt F) spec1 c [cc1_scratch0]
          ∗ (∃ r, prngReg c r)) : sProp 𝕄) := by
    iintro ⟨⟨HS, HR⟩, Hg⟩
    isplitl [HS]; · iexact HS
    isplitl [HR]; · iexact HR
    iexact Hg
  have h₂ : (iprop((∃ d : Buf (Elt F) ((c : Thread nD τ).loc cc1_scratch0), ((c : Thread nD τ).loc cc1_scratch0) ↦{fullShare} d)
          ∗ Pipeline.scopedRestBut (Ix := Unit) (Name := ℕ) (U := UR sig nD τ) (Lvl := ℕ) (Val := Elt F) spec1 c [cc1_scratch0]
          ∗ (∃ r, prngReg c r)) : sProp 𝕄)
      ⊢ (iprop(iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) ∗ ∃ r, prngReg c r) : sProp 𝕄) := by
    iintro ⟨HS, HR, Hg⟩
    isplitl [HS HR]
    · isplitl [HS]; · iexact HS
      iexact HR
    iexact Hg
  exact BI.equiv_iff.mp ⟨h₁, h₂⟩

/-! ## The body's three runs

Every access of the body is of a whole buffer, through the rectangle at zero offsets: a load reads the buffer's
contents, and a store, whatever was stored before it, leaves its payload. So each run ends with the accumulator (and,
in the last case, the output's buffer) at a named payload of the contents the inputs were handed at. -/

/-- The zero offsets of a whole-buffer access, however spelt. -/
theorem off1_zero : (![0, 0] : Fin 2 → Nat) = fun _ => 0 := funext fun a => by fin_cases a <;> rfl

/-- A whole-buffer store, last, covers the accumulator's (the output's) shape whatever was stored before it. -/
theorem cover1_acc (p0 : Vec F S512x512 .f32) (L : List (View.Piece (Elt F) S512x512 .f32)) (y : S512x512.Idx) :
    ∃ pc ∈ ((⟨Rect.unit (s := S512x512) ![0, 0] S512x512.size inb_S512x512_S512x512_0_0, p0⟩ : View.Piece (Elt F) S512x512 .f32) :: L),
      y ∈ pc.1.set :=
  ⟨_, List.mem_cons_self, View.mem_set_unit_zero (S := S512x512) off1_zero inb_S512x512_S512x512_0_0 y⟩

set_option maxHeartbeats 1000000 in
/-- A BAND'S FIRST COLUMN BLOCK. On whole memrefs — the adjacency and feature blocks at contents `x0`, `x1`, the
    accumulator at anything — the body runs to the two blocks as they were and the accumulator at their product added
    to zero: the zero store covers the accumulator, the load after it reads the zeros back, and the sum's store
    covers it again. The weight's, the bias's and the output's buffers are not touched. -/
theorem run1_first (c : Dev nD) (i : grid1.Coords)
    (arg2 : Memref sig .tc .vmem S512x1024 .bf16) (harg2 : arg2.IsWhole) (arg3 : Memref sig .tc .vmem S1024x512 .f32) (harg3 : arg3.IsWhole)
    (arg4 : Memref sig .tc .vmem S512x512 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : isFirst1 i) (hc1 : ¬isLast1 i)
    (x0 : Vec F S512x1024 .bf16) (x1 : Vec F S1024x512 .f32) (E : Set ℕ) (K : PUnit → sProp 𝕄) :
    iprop(owns (c : Thread nD τ) arg2 fullShare x0 ∗ owns (c : Thread nD τ) arg3 fullShare x1
        ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 x0 x1 (k1_pay1 (F := F)))) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover1_acc _ _), View.canon_cons_unit_zero (S := S512x512) off1_zero]
  simp only [View.readAt_eq_ld, View.ld_unit_zero (S := S512x1024) off1_zero, View.ld_unit_zero (S := S1024x512) off1_zero,
    View.readCov_unit_zero (S := S512x512) _ off1_zero]

set_option maxHeartbeats 1000000 in
/-- A MIDDLE COLUMN BLOCK. The accumulator at `xs`, what the point before left: the body runs to the two blocks as
    they were and the accumulator at their product added to `xs` (one covering store of the sum). -/
theorem run1_mid (c : Dev nD) (i : grid1.Coords)
    (arg2 : Memref sig .tc .vmem S512x1024 .bf16) (harg2 : arg2.IsWhole) (arg3 : Memref sig .tc .vmem S1024x512 .f32) (harg3 : arg3.IsWhole)
    (arg4 : Memref sig .tc .vmem S512x512 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬isFirst1 i) (hc1 : ¬isLast1 i)
    (x0 : Vec F S512x1024 .bf16) (x1 : Vec F S1024x512 .f32) (xs : Vec F S512x512 .f32) (E : Set ℕ) (K : PUnit → sProp 𝕄) :
    iprop(owns (c : Thread nD τ) arg2 fullShare x0 ∗ owns (c : Thread nD τ) arg3 fullShare x1
        ∗ owns (c : Thread nD τ) arg7 fullShare xs
        ∗ (iprop(owns (c : Thread nD τ) arg2 fullShare x0 ∗ owns (c : Thread nD τ) arg3 fullShare x1
            ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover1_acc _ _), View.canon_unit_zero (S := S512x512) off1_zero]
  simp only [View.readAt_eq_ld, View.ld_unit_zero (S := S512x1024) off1_zero, View.ld_unit_zero (S := S1024x512) off1_zero,
    View.ld_unit_zero (S := S512x512) off1_zero]

set_option maxHeartbeats 1000000 in
/-- A BAND'S LAST COLUMN BLOCK. The accumulator at `xs`, the weight and the bias row at `x2`, `x3`, the output's buffer
    at anything: the body runs to the inputs as they were, the accumulator at the blocks' product added to `xs`, and
    the output's buffer at that finished accumulator times the weight plus the bias (the load of the accumulator after
    its covering store reads the sum back; the output's one store covers its buffer). -/
theorem run1_last (c : Dev nD) (i : grid1.Coords)
    (arg2 : Memref sig .tc .vmem S512x1024 .bf16) (harg2 : arg2.IsWhole) (arg3 : Memref sig .tc .vmem S1024x512 .f32) (harg3 : arg3.IsWhole)
    (arg4 : Memref sig .tc .vmem S512x512 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬isFirst1 i) (hc1 : isLast1 i)
    (x0 : Vec F S512x1024 .bf16) (x1 : Vec F S1024x512 .f32) (x2 : Vec F S512x512 .f32) (x3 : Vec F S1x512 .f32)
    (xs : Vec F S512x512 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1__gcn_matmul_kernel i arg2 harg2 arg3 harg3 arg4 harg4 arg5 harg5 arg6 harg6 arg7 harg7) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%f3, %hf3, H3⟩, ⟨%dout, %fo, -, HO⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_words
    rw [View.read_writes_eq_canon _ _ _ (cover1_acc _ _), View.canon_unit_zero (S := S512x512) off1_zero]
    simp only [View.readAt_eq_ld, View.ld_unit_zero (S := S512x1024) off1_zero, View.ld_unit_zero (S := S1024x512) off1_zero,
      View.ld_unit_zero (S := S512x512) off1_zero, View.ld_unit_zero (S := S1x512) off1_zero,
      View.readCov_unit_zero (S := S512x512) _ off1_zero]
  iexists _; isplitr
  swap; · iexact HS
  ipureintro
  sl_unfold_words
  rw [View.read_writes_eq_canon _ _ _ (cover1_acc _ _), View.canon_unit_zero (S := S512x512) off1_zero]
  simp only [View.readAt_eq_ld, View.ld_unit_zero (S := S512x1024) off1_zero, View.ld_unit_zero (S := S1024x512) off1_zero,
    View.ld_unit_zero (S := S512x512) off1_zero]

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks; the position modulo 4 says which of the three cases
    the point is in, and that case's run applies. At a band's first column block the invariant hands over the
    accumulator at anything (at the very first point) or at the band before's finished sum, which the zero store
    overwrites; elsewhere at what the point before left. Afterwards the accumulator holds `acc1` at this position — its
    defining recursion, case by case —; the output's buffer is handed back untouched where the window is idle and holds
    `out1` at a band's last column block; the core's other scoped buffers, the generator register and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, PhiS1_succ, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h1 : ¬ t.val % 4 = 3 := by omega
    rw [Dat.leavesExact_idle (dat1 V c) 4 t (idleAt1_4 t (fun h => h1 ((isLast1_iff t).mp h))) (noFlush1_4 t (fun h => h1 ((isLast1_iff t).mp h)))]
    rw [acc1_first V c t h0]
    by_cases hz : t.val = 0
    · rw [PhiS1_zero V c _ _ hz, PhiA1_eq]
      iintro ⟨⟨HS, HR, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((isFirst1_iff t).mpr h0) (fun h => h1 ((isLast1_iff t).mp h))
        (ca1 V c t) (hv1 V c t) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS1_pos V c _ _ hz]
      iintro ⟨⟨HS, HR, Hg⟩, Ho, ⟨%d0, H0⟩, ⟨%d1, H1⟩, ⟨%d2, H2⟩, ⟨%d3, H3⟩, ⟨%d4, H4⟩⟩
      iapply (run1_first c (grid1.coords t) _ _ _ _ _ _ _ _ _ _ _ _ ((isFirst1_iff t).mpr h0) (fun h => h1 ((isLast1_iff t).mp h))
        (ca1 V c t) (hv1 V c t) Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS1_pos V c _ _ hz, acc1_next V c t h0]
    by_cases h1 : t.val % 4 = 3
    · rw [show (dat1 V c).leavesExact 4 t = owns (c : Thread nD τ) (st1_4 t) fullShare ((dat1 V c).after 4 t) from by
        unfold Dat.leavesExact; rw [liveAt1_4 t ((isLast1_iff t).mpr h1)], after1_4]
      unfold out1
      rw [acc1_next V c t h0]
      iintro ⟨⟨HS, HR, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ (fun h => h0 ((isFirst1_iff t).mp h)) ((isLast1_iff t).mpr h1)
        (ca1 V c t) (hv1 V c t) (wt1 V c t) (bs1 V c t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((isLast1_iff t).mp h))) (noFlush1_4 t (fun h => h1 ((isLast1_iff t).mp h)))]
      iintro ⟨⟨HS, HR, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((isFirst1_iff t).mp h)) (fun h => h1 ((isLast1_iff t).mp h))
        (ca1 V c t) (hv1 V c t) (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS]; · iexists _; iexact HS
  isplitl [HR]; · iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 32 := N_1; omega)

end Cert.KernelIdeal.Hand

end
-- ==== Proof.KI.Run.lean ====
/-
  The launch of the two-region program: the buffer contents at each boundary of @main, every pipeline's proof data at
  its region's entry contents, each region as a segment over the thread state "every unscoped buffer at the boundary's
  contents, the generator register at some state, nothing owed", and the run: every weakly fair execution terminates
  with every unscoped buffer at the last boundary's contents.
-/
import proofs.«121841_j73856257622121_1_alg».proof.Proof.Gen.KernelIdeal.Launch
import proofs.«121841_j73856257622121_1_alg».proof.Proof.Gen.KernelIdeal.Skeleton
import proofs.«121841_j73856257622121_1_alg».proof.Proof.Gen.KernelIdeal.Points
import proofs.«121841_j73856257622121_1_alg».proof.Proof.KI.Body0
import proofs.«121841_j73856257622121_1_alg».proof.Proof.KI.Body1
import Idealize.ShloMosaic.Lib.Pipeline.RegionsLoop
import Idealize.ShloMosaic.Lib.Pipeline.FrameSuffix
import Idealize.ShloMosaic.Lib.Tactic
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => m (c, b)
/-- After the first host stretch (the edge scales computed and laid out as a row): the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its output array at what the pipeline's write-backs leave, every other buffer as entered. -/
def W2 (c : Dev nD) : Valuation τ sig (Elt F) :=
  Function.update (W1 m c) main_v3 ((dat0 (V1 m) c).arrAt 4 cfg0.N)
abbrev V2 : (c : Dev nD) → (b : Ref sig .tc) → Buf (Elt F) ((c : Thread nD τ).loc b) := fun c b => W2 m c b
/-- After the second host stretch (the bias laid out as a row): the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its output array at what the write-backs leave, every other buffer as entered. -/
def W4 (c : Dev nD) : Valuation τ sig (Elt F) :=
  Function.update (W3 m c) main_v5 ((dat1 (V3 m) c).arrAt 4 cfg1.N)
abbrev V4 : (c : Dev nD) → (b : Ref sig .tc) → Buf (Elt F) ((c : Thread nD τ).loc b) := fun c b => W4 m c b

theorem W2_out (c : Dev nD) : W2 m c main_v3 = (dat0 (V1 m) c).arrAt 4 cfg0.N := by
  unfold W2; exact Function.update_self ..
theorem W2_of_ne (c : Dev nD) (b : Ref sig .tc) (hb : b ≠ main_v3) : W2 m c b = W1 m c b := by
  unfold W2; exact Function.update_of_ne (StableHlo.devRef_ne_of_ne hb) ..
theorem W4_out (c : Dev nD) : W4 m c main_v5 = (dat1 (V3 m) c).arrAt 4 cfg1.N := by
  unfold W4; exact Function.update_self ..
theorem W4_of_ne (c : Dev nD) (b : Ref sig .tc) (hb : b ≠ main_v5) : W4 m c b = W3 m c b := by
  unfold W4; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The first region's arrays: two windows on one array -/

/-- ENTRY: the core's unscoped buffers at `V` are the first region's arrays at their entry contents — `T`'s buffer
    split into the two halves of its share, one per window — and the unscoped rest. -/
theorem arrays0_of_unscopedBufs (V : (c : Dev nD) → (b : Ref sig .tc) → Buf (Elt F) ((c : Thread nD τ).loc b)) (c : Dev nD) :
    (unscopedBufs c (V c) : sProp 𝕄) ⊢ iprop((dat0 V c).arrays ((dat0 V c).arrAt · 0) ∗ Pipeline.unscopedRest (Ix := Unit) (Name := ℕ) (U := UR sig nD τ) (Lvl := ℕ) spec0 c (V c)) := by
  classical
  have hA : Finset.univ.image (Pipeline.arrRef spec0) ⊆ Finset.univ.filter fun b : Ref sig .tc => ¬ b.isScoped := by decide
  unfold unscopedBufs Pipeline.unscopedRest
  rw [bigSep_sdiff_split hA]
  refine sep_mono ?_ .rfl
  rw [bigSep_eq_bigSepL_of_eq [main_arg4, main_v2, main_arg3, main_v3] (by decide) (by decide)]
  unfold Dat.arrays
  rw [bigSep_W0]
  rw [show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  rw [(arr_whole0 0).set_eq_univ, (arr_whole0 2).set_eq_univ, (arr_whole0 3).set_eq_univ, (arr_whole0 4).set_eq_univ]
  show (iprop((((c : Thread nD τ).loc main_arg4) ↦{fullShare} V c main_arg4) ∗ (((c : Thread nD τ).loc main_v2) ↦{fullShare} V c main_v2)
      ∗ (((c : Thread nD τ).loc main_arg3) ↦{fullShare} V c main_arg3) ∗ (((c : Thread nD τ).loc main_v3) ↦{fullShare} V c main_v3)) : sProp 𝕄) ⊢ _
  iintro ⟨H4, H2, H3, Hv3⟩
  ihave H4' := (pointsTo_share (PosShare.mem_left_op_right fullShare)).1 $$ H4
  icases H4' with ⟨Hl, Hr⟩
  isplitl [Hl]; · iexact Hl
  isplitl [Hr]; · iexact Hr
  isplitl [H2]; · iexact H2
  isplitl [H3]; · iexact H3
  iexact Hv3

/-- EXIT: the first region's arrays at contents `F` and the unscoped rest at `V` are the core's unscoped buffers at any
    valuation that has the arrays at `F` and agrees with `V` off them: the two halves of `T`'s share rejoin. -/
theorem unscopedBufs_of_arrays0 (V : (c : Dev nD) → (b : Ref sig .tc) → Buf (Elt F) ((c : Thread nD τ).loc b)) (c : Dev nD)
    (V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V c b) :
    iprop((dat0 V c).arrays Fa ∗ Pipeline.unscopedRest (Ix := Unit) (Name := ℕ) (U := UR sig nD τ) (Lvl := ℕ) spec0 c (V c)) ⊢ (unscopedBufs c V' : sProp 𝕄) := by
  classical
  have hA : Finset.univ.image (Pipeline.arrRef spec0) ⊆ Finset.univ.filter fun b : Ref sig .tc => ¬ b.isScoped := by decide
  unfold unscopedBufs Pipeline.unscopedRest
  rw [bigSep_sdiff_split hA]
  refine BIClass.sep_mono ?_ (Entails.of_eq (bigSep_congr fun b hb => by rw [hrest b (Finset.mem_sdiff.mp hb).2]))
  rw [bigSep_eq_bigSepL_of_eq [main_arg4, main_v2, main_arg3, main_v3] (by decide) (by decide)]
  unfold Dat.arrays
  rw [bigSep_W0]
  rw [show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  rw [(arr_whole0 0).set_eq_univ, (arr_whole0 2).set_eq_univ, (arr_whole0 3).set_eq_univ, (arr_whole0 4).set_eq_univ,
    hF 0, hF 1, hF 2, hF 3, hF 4]
  show _ ⊢ (iprop((((c : Thread nD τ).loc main_arg4) ↦{fullShare} V' main_arg4) ∗ (((c : Thread nD τ).loc main_v2) ↦{fullShare} V' main_v2)
      ∗ (((c : Thread nD τ).loc main_arg3) ↦{fullShare} V' main_arg3) ∗ (((c : Thread nD τ).loc main_v3) ↦{fullShare} V' main_v3)) : sProp 𝕄)
  iintro ⟨Hl, Hr, H2, H3, Hv3⟩
  ihave H4 := (pointsTo_share (PosShare.mem_left_op_right fullShare)).2 $$ [Hl Hr]
  · isplitl [Hl] <;> iassumption
  isplitl [H4]; · iexact H4
  isplitl [H2]; · iexact H2
  isplitl [H3]; · iexact H3
  iexact Hv3

/-! ## What each region's exit holds -/

theorem hF0 (c : Dev nD) : ∀ w : Fin cfg0.W, (dat0 (V1 m) c).arrAt w cfg0.N = V2 m c (Pipeline.arrRef spec0 w) := by
  intro w
  fin_cases w
  · exact ((dat0 (V1 m) c).arrAt_in _ rfl _).trans ((A_eq0 (V1 m) c _).trans (W2_of_ne m c _ (by decide)).symm)
  · exact ((dat0 (V1 m) c).arrAt_in _ rfl _).trans ((A_eq0 (V1 m) c _).trans (W2_of_ne m c _ (by decide)).symm)
  · exact ((dat0 (V1 m) c).arrAt_in _ rfl _).trans ((A_eq0 (V1 m) c _).trans (W2_of_ne m c _ (by decide)).symm)
  · exact ((dat0 (V1 m) c).arrAt_in _ rfl _).trans ((A_eq0 (V1 m) c _).trans (W2_of_ne m c _ (by decide)).symm)
  · exact (W2_out m c).symm

theorem hrest0 (c : Dev nD) : ∀ b, b ∉ Finset.univ.image (Pipeline.arrRef spec0) → V2 m c b = V1 m c b :=
  fun b hb => W2_of_ne m c b fun e => hb (e ▸ (by decide : main_v3 ∈ Finset.univ.image (Pipeline.arrRef spec0)))

theorem hF1 (c : Dev nD) : ∀ w : Fin cfg1.W, (dat1 (V3 m) c).arrAt w cfg1.N = V4 m c (Pipeline.arrRef spec1 w) := by
  intro w
  fin_cases w
  · exact ((dat1 (V3 m) c).arrAt_in _ rfl _).trans ((A_eq1 (V3 m) c _).trans (W4_of_ne m c _ (by decide)).symm)
  · exact ((dat1 (V3 m) c).arrAt_in _ rfl _).trans ((A_eq1 (V3 m) c _).trans (W4_of_ne m c _ (by decide)).symm)
  · exact ((dat1 (V3 m) c).arrAt_in _ rfl _).trans ((A_eq1 (V3 m) c _).trans (W4_of_ne m c _ (by decide)).symm)
  · exact ((dat1 (V3 m) c).arrAt_in _ rfl _).trans ((A_eq1 (V3 m) c _).trans (W4_of_ne m c _ (by decide)).symm)
  · exact (W4_out m c).symm

theorem hrest1 (c : Dev nD) : ∀ b, b ∉ Finset.univ.image (Pipeline.arrRef spec1) → V4 m c b = V3 m c b :=
  fun b hb => W4_of_ne m c b fun e => hb (e ▸ (by decide : main_v5 ∈ Finset.univ.image (Pipeline.arrRef spec1)))

/-! ## The host stretches and the regions as segments -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor

/-- The last thread state without the `owes`: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE FIRST REGION over the thread state: entered from every unscoped buffer at `W1`, left at `W2`. Its arrays split
    out of the unscoped buffers (`T`'s buffer into two half shares) and put back at the exit contents; the generator
    register into the invariant and out; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0)
        ∗ Pipeline.unscopedRest (Ix := Unit) (Name := ℕ) (U := UR sig nD τ) (Lvl := ℕ) spec0 c (V1 m c)) :=
      arrays0_of_unscopedBufs (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
        ∗ Pipeline.unscopedRest (Ix := Unit) (Name := ℕ) (U := UR sig nD τ) (Lvl := ℕ) spec0 c (V1 m c)) ⊢ (unscopedBufs c (V2 m c) : sProp 𝕄) :=
      unscopedBufs_of_arrays0 (V1 m) c (V2 m c) ((dat0 (V1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.KI.Frame.lean ====
/-
  The frame of the two-region program from its run: no host operation writes an argument array and neither region's
  output array is one, so at the last boundary every argument holds its launch contents.
-/
import proofs.«121841_j73856257622121_1_alg».proof.Proof.Gen.KernelIdeal.Launch
import proofs.«121841_j73856257622121_1_alg».proof.Proof.Gen.KernelIdeal.Skeleton
import proofs.«121841_j73856257622121_1_alg».proof.Proof.Gen.KernelIdeal.Points
import proofs.«121841_j73856257622121_1_alg».proof.Proof.KI.Run
import proofs.«121841_j73856257622121_1_alg».proof.Proof.Gen.KernelIdeal.Regions
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the first host stretch does not write it leaves as launched. -/
theorem W1_of (c : Dev nD) (r : Ref sig .tc) (h : r ∉ hostOps0_W) : W1 m c r = W0 m c r :=
  StableHlo.after_of_writes_sub hostOps0 _ hostOps0_writes h
/-- What the second host stretch does not write it leaves as the first region left it. -/
theorem W3_of (c : Dev nD) (r : Ref sig .tc) (h : r ∉ hostOps1_W) : W3 m c r = W2 m c r :=
  StableHlo.after_of_writes_sub hostOps1 _ hostOps1_writes h

/-- A buffer that no host stretch writes and that is no region's output reaches the end as launched. -/
theorem W4_kept (c : Dev nD) (r : Ref sig .tc) (h0 : r ∉ hostOps0_W) (h1 : r ≠ main_v3) (h2 : r ∉ hostOps1_W) (h3 : r ≠ main_v5) :
    W4 m c r = m ((c : Thread nD τ).loc r) :=
  (W4_of_ne m c r h3).trans <| (W3_of m c r h2).trans <| (W2_of_ne m c r h1).trans <| (W1_of m c r h0).trans rfl

/-- THE FRAME, at any instance: every weakly fair execution terminates, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_all m ρ)

end Cert.KernelIdeal.Hand

end
-- ==== Proof.Spec.lean ====
/-
  The mathematics of the graph-convolution layer, index by index over the extended reals, written once so that the
  kernel's side and the reference's side can each be read against it.

  For node features `Hv` [4096, 512], edge features `He` [8192, 128], the node adjacency `adj` [4096, 4096], the
  incidence matrix `T` [4096, 8192], the weight `W` [512, 512], the edge projection `p` [1, 128] and the bias `b` [512]:
  * `esc e = Σ_d He[e, d] · p[0, d]` is the scale of edge `e`;
  * `m1 n n'` is `Σ_e (T[n, e] · esc e) · T[n', e]` off the diagonal and `one` on it;
  * the KERNEL folds the two propagation paths into one matrix first, `comb n n' = adj[n, n'] · (half · m1 n n' + half)`,
    and computes `gker n o = Σ_v (Σ_n' comb n n' · Hv[n', v]) · W[v, o] + b[o]`;
  * the REFERENCE keeps the paths apart,
    `gref n o = (Σ_v (Σ_n' (m1 n n' · adj[n, n']) · Hv[n', v]) · W[v, o]) · half
               + (Σ_v (Σ_n' adj[n, n'] · Hv[n', v]) · W[v, o]) · half + b[o]`.
  The two agree by linearity of the sums (distributivity), which on the extended reals needs every entry finite.
  `one` and `half` are the f32 words `1.0` and `0.5` read at the ideal instance; both programs spell the same words.
-/
import Idealize.ShloMosaic.PureOps.Ideal
import Idealize.ShloMosaic.Lib.ValueIdx

noncomputable section

open scoped BigOperators

namespace Cert.Spec

open Idealize.ShloMosaic Idealize.ShloMosaic.ValueIdx

/-- The shapes of the argument arrays, as literal shapes (the printed programs name the same literals). -/
abbrev SHv : Shape := ⟨2, ![4096, 512]⟩
abbrev SHe : Shape := ⟨2, ![8192, 128]⟩
abbrev SAdj : Shape := ⟨2, ![4096, 4096]⟩
abbrev ST : Shape := ⟨2, ![4096, 8192]⟩
abbrev SW : Shape := ⟨2, ![512, 512]⟩
abbrev SP : Shape := ⟨2, ![1, 128]⟩
abbrev SB : Shape := ⟨1, ![512]⟩

/-- The f32 word `1.0` at the ideal instance: what the diagonal of `m1` is set to. -/
def one : EReal := Ideal.ofBits .f32 0x3F800000#32
/-- The f32 word `0.5` at the ideal instance: the weight of each propagation path. -/
def half : EReal := Ideal.ofBits .f32 0x3F000000#32

/-- The scale of edge `e`: the edge's features against the projection. -/
def esc (He : FVec Ideal SHe .f32) (p : FVec Ideal SP .f32) (e : Fin 8192) : EReal :=
  ∑ d : Fin 128, He (ix2 e d) * p (ix2 (0 : Fin 1) d)

/-- `T · diag(esc) · Tᵀ` with its diagonal set to `one`. -/
def m1 (He : FVec Ideal SHe .f32) (T : FVec Ideal ST .f32) (p : FVec Ideal SP .f32) (n n' : Fin 4096) : EReal :=
  if n = n' then one else ∑ e : Fin 8192, (T (ix2 n e) * esc He p e) * T (ix2 n' e)

/-- The kernel's combined adjacency: both propagation paths folded into one matrix. -/
def comb (He : FVec Ideal SHe .f32) (adj : FVec Ideal SAdj .f32) (T : FVec Ideal ST .f32) (p : FVec Ideal SP .f32)
    (n n' : Fin 4096) : EReal :=
  adj (ix2 n n') * (half * m1 He T p n n' + half)

/-- The kernel's arrangement of the layer's output at node `n`, output feature `o`. -/
def gker (Hv : FVec Ideal SHv .f32) (He : FVec Ideal SHe .f32) (adj : FVec Ideal SAdj .f32) (T : FVec Ideal ST .f32)
    (W : FVec Ideal SW .f32) (p : FVec Ideal SP .f32) (b : FVec Ideal SB .f32) (n : Fin 4096) (o : Fin 512) : EReal :=
  (∑ v : Fin 512, (∑ n' : Fin 4096, comb He adj T p n n' * Hv (ix2 n' v)) * W (ix2 v o)) + b (ix1 o)

/-- The reference's arrangement: the two propagation paths computed apart and averaged. -/
def gref (Hv : FVec Ideal SHv .f32) (He : FVec Ideal SHe .f32) (adj : FVec Ideal SAdj .f32) (T : FVec Ideal ST .f32)
    (W : FVec Ideal SW .f32) (p : FVec Ideal SP .f32) (b : FVec Ideal SB .f32) (n : Fin 4096) (o : Fin 512) : EReal :=
  ((∑ v : Fin 512, (∑ n' : Fin 4096, (m1 He T p n n' * adj (ix2 n n')) * Hv (ix2 n' v)) * W (ix2 v o)) * half
    + (∑ v : Fin 512, (∑ n' : Fin 4096, adj (ix2 n n') * Hv (ix2 n' v)) * W (ix2 v o)) * half) + b (ix1 o)

/-- The kernel's result array, every index at once. -/
def Gker (Hv : FVec Ideal SHv .f32) (He : FVec Ideal SHe .f32) (adj : FVec Ideal SAdj .f32) (T : FVec Ideal ST .f32)
    (W : FVec Ideal SW .f32) (p : FVec Ideal SP .f32) (b : FVec Ideal SB .f32) : FVec Ideal SHv .f32 :=
  fun i => gker Hv He adj T W p b (i 0) (i 1)

/-- The reference's result array, every index at once. -/
def Gref (Hv : FVec Ideal SHv .f32) (He : FVec Ideal SHe .f32) (adj : FVec Ideal SAdj .f32) (T : FVec Ideal ST .f32)
    (W : FVec Ideal SW .f32) (p : FVec Ideal SP .f32) (b : FVec Ideal SB .f32) : FVec Ideal SHv .f32 :=
  fun i => gref Hv He adj T W p b (i 0) (i 1)

end Cert.Spec

end
-- ==== Proof.SpecRegions.lean ====
/-
  What each of the two kernel regions leaves in its output array, index by index over the extended reals, in terms of
  the arrays the region reads (whatever produced them):
  * the first region reads the incidence matrix `T` [4096, 8192], the row of edge scales `es` [1, 8192] and the
    adjacency `adj` [4096, 4096], and leaves the combined adjacency
    `r0 n n' = adj[n, n'] · (half · M + half)`, `M` being `one` on the diagonal and `Σ_e (T[n, e] · es[0, e]) · T[n', e]` off it;
  * the second region reads a combined adjacency `ca` [4096, 4096], the node features `hv` [4096, 512], the weight `w`
    [512, 512] and the bias row `br` [1, 512], and leaves `r1 n o = Σ_v (Σ_n' ca[n, n'] · hv[n', v]) · w[v, o] + br[0, o]`.
  The kernel accumulates both inner sums tile by tile over a grid axis; a finite sum on the extended reals may be
  regrouped freely (addition is commutative and associative there), so the flat sums here are what the tiles add up to.
  With `es[0, e] = esc e` and `br[0, o] = b[o]` the second of the first is the kernel's `gker`.
-/
import proofs.«121841_j73856257622121_1_alg».proof.Proof.Spec

noncomputable section

open scoped BigOperators

namespace Cert.Spec

open Idealize.ShloMosaic Idealize.ShloMosaic.ValueIdx

abbrev SEs : Shape := ⟨2, ![1, 8192]⟩
abbrev SBr : Shape := ⟨2, ![1, 512]⟩

/-- The first region's output at row `n`, column `n'`. -/
def r0 (T : FVec Ideal ST .f32) (es : FVec Ideal SEs .f32) (adj : FVec Ideal SAdj .f32) (n n' : Fin 4096) : EReal :=
  adj (ix2 n n') * (half * (if n = n' then one else ∑ e : Fin 8192, (T (ix2 n e) * es (ix2 (0 : Fin 1) e)) * T (ix2 n' e)) + half)

/-- The second region's output at node `n`, output feature `o`. -/
def r1 (ca : FVec Ideal SAdj .bf16) (hv : FVec Ideal SHv .f32) (w : FVec Ideal SW .f32) (br : FVec Ideal SBr .f32)
    (n : Fin 4096) (o : Fin 512) : EReal :=
  (∑ v : Fin 512, (∑ n' : Fin 4096, ca (ix2 n n') * hv (ix2 n' v)) * w (ix2 v o)) + br (ix2 (0 : Fin 1) o)

/-- The two regions composed are the kernel's arrangement, once the edge-scale row holds `esc` and the bias row the bias. -/
theorem r1_r0_eq_gker (Hv : FVec Ideal SHv .f32) (He : FVec Ideal SHe .f32) (adj : FVec Ideal SAdj .f32) (T : FVec Ideal ST .f32)
    (W : FVec Ideal SW .f32) (p : FVec Ideal SP .f32) (b : FVec Ideal SB .f32) (es : FVec Ideal SEs .f32) (br : FVec Ideal SBr .f32)
    (hes : ∀ e : Fin 8192, es (ix2 (0 : Fin 1) e) = esc He p e) (hbr : ∀ o : Fin 512, br (ix2 (0 : Fin 1) o) = b (ix1 o))
    (n : Fin 4096) (o : Fin 512) :
    r1 (fun j => r0 T es adj (j 0) (j 1)) Hv W br n o = gker Hv He adj T W p b n o := by
  unfold r1 r0 gker comb m1
  simp only [hes, hbr]

end Cert.Spec

end
-- ==== Proof.KI.Value0.lean ====
/-
  What the first kernel region leaves in its output array, index by index over the extended reals.

  The region's grid is 4 × 4 output tiles of [1024, 1024] times 8 tiles of the contracted edge axis, the edge tile
  innermost: point `t` is output tile (t / 32, t / 8 % 4) at edge tile `t % 8`. At a point the body adds, into an
  accumulator that starts from zero at an output tile's first edge tile, the product over the edge tile's 1024 edges of
  the row tile's block of `T` scaled by the edge scales with the column tile's block of `T`. So after the last edge
  tile the accumulator holds, at (p, q) of output tile (a, b), the sum over all 8 · 1024 edges `e` of
  `(T[1024 a + p, e] · es[0, e]) · T[1024 b + q, e]`: a double sum (tile, offset in tile) regrouped into the flat sum
  over the edge axis. There the body sets the entries whose global row equals their global column to one (the comparison
  is made on 32-bit words, exact below 4096), combines with the adjacency block and stores the output tile; the 16
  stored tiles cover the output array, each index lying in the tile of its row and column quotients by 1024.
-/
import proofs.«121841_j73856257622121_1_alg».proof.Proof.KI.Dat0
import proofs.«121841_j73856257622121_1_alg».proof.Proof.SpecRegions
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals
import Mathlib.Data.Fintype.BigOperators
import Mathlib.Logic.Equiv.Fin.Basic

set_option maxRecDepth 16384

noncomputable section

open scoped BigOperators

namespace Cert.KernelIdeal.ValueSide0

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat)

/-! ## The body's arithmetic read at an index -/

/-- The reset value of the accumulator is zero everywhere. -/
theorem pay1_apply (p q : Fin 1024) : k0_pay1 (F := Ideal) (ix2 p q) = 0 := by
  unfold k0_pay1
  simp only [shapeCast_self, broadcast_apply]
  exact Ideal.ofBits_zero_f32

/-- The contraction's left operand index on its free axis is the output row; -/
theorem lhs_dot0_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- on its contracted axis the contraction position; -/
theorem lhs_dot0_1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- the right operand's index on its free axis is the output column; -/
theorem rhs_dot0_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and on its contracted axis the contraction position. -/
theorem rhs_dot0_1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The block product into a zero accumulator, at (p, q): both operands are contracted along their second axis. -/
theorem matmul0_apply (L R : FVec Ideal S1024x1024 .bf16) (p q : Fin 1024) :
    matmul dot_S1024x1024_S1024x1024_S1024x1024_1_1_0_0_n_n none L R (constant (F := Ideal) S1024x1024 .f32 0x00000000#32) (ix2 p q)
      = ∑ e : Fin 1024, L (ix2 p e) * R (ix2 q e) := by
  simp only [matmul]
  rw [Ideal.matmul_constant_zero_apply, ← Equiv.sum_comp (contrEquiv1 dot_S1024x1024_S1024x1024_S1024x1024_1_1_0_0_n_n 1024 rfl rfl).symm]
  refine Finset.sum_congr rfl fun e _ => ?_
  have he := contrEquiv1_symm_val dot_S1024x1024_S1024x1024_S1024x1024_1_1_0_0_n_n 1024 rfl rfl e
  have el : dot_S1024x1024_S1024x1024_S1024x1024_1_1_0_0_n_n.lhsIdx (ix2 p q) ((contrEquiv1 dot_S1024x1024_S1024x1024_S1024x1024_1_1_0_0_n_n 1024 rfl rfl).symm e) = ix2 p e := funext fun a => Fin.ext (by
    match a with
    | ⟨0, _⟩ => exact lhs_dot0_0 _ _
    | ⟨1, _⟩ => exact (lhs_dot0_1 _ _).trans he)
  have er : dot_S1024x1024_S1024x1024_S1024x1024_1_1_0_0_n_n.rhsIdx (ix2 p q) ((contrEquiv1 dot_S1024x1024_S1024x1024_S1024x1024_1_1_0_0_n_n 1024 rfl rfl).symm e) = ix2 q e := funext fun a => Fin.ext (by
    match a with
    | ⟨0, _⟩ => exact rhs_dot0_0 _ _
    | ⟨1, _⟩ => exact (rhs_dot0_1 _ _).trans he)
  rw [el, er]

/-- One accumulation step at (p, q): what the accumulator held plus the edge tile's share of the sum. -/
theorem pay2_apply (x3 x5 : FVec Ideal S1024x1024 .f32) (x7 : FVec Ideal S1x1024 .f32) (x12 : FVec Ideal S1024x1024 .f32)
    (p q : Fin 1024) :
    k0_pay2 x3 x5 x7 x12 (ix2 p q) = x12 (ix2 p q) + ∑ e : Fin 1024, (x3 (ix2 p e) * x7 (ix2 (0 : Fin 1) e)) * x5 (ix2 q e) := by
  unfold k0_pay2
  simp only [shapeCast_self]
  rw [addf_apply, matmul0_apply]
  refine congrArg (x12 (ix2 p q) + ·) (Finset.sum_congr rfl fun e _ => ?_)
  rw [mulf_apply, broadcastTo_1b_ab_apply]
  rfl

/-- A tile's offset plus a position inside the tile, as 32-bit words: the word of the global position. -/
theorem tile_word (a p : Nat) :
    IntOp.addi (Scalar.muli (BitVec.ofNat 32 a) 1024#32) (BitVec.ofNat 32 p) = BitVec.ofNat 32 (a * 1024 + p) := by
  unfold IntOp.addi Scalar.muli IntOp.muli
  rw [BitVec.ofNat_add, BitVec.ofNat_mul]

/-- Below 4096 two global positions have equal words exactly when they are equal. -/
theorem diag_word (a b p q : Nat) (ha : a < 4) (hb : b < 4) (hp : p < 1024) (hq : q < 1024) :
    IntOp.cmpi .eq (IntOp.addi (Scalar.muli (BitVec.ofNat 32 a) 1024#32) (BitVec.ofNat 32 p))
        (IntOp.addi (Scalar.muli (BitVec.ofNat 32 b) 1024#32) (BitVec.ofNat 32 q))
      = if a * 1024 + p = b * 1024 + q then 1#1 else 0#1 := by
  rw [tile_word, tile_word]
  unfold IntOp.cmpi
  by_cases h : a * 1024 + p = b * 1024 + q
  · rw [if_pos h, h]; simp
  · rw [if_neg h]
    have hne : BitVec.ofNat 32 (a * 1024 + p) ≠ BitVec.ofNat 32 (b * 1024 + q) := fun e => h (by
      have := congrArg BitVec.toNat e
      rw [BitVec.toNat_ofNat, BitVec.toNat_ofNat] at this
      omega)
    rw [beq_eq_false_iff_ne.mpr hne]; rfl

/-- The output tile at (p, q): the accumulator with the entries whose global row equals their global column set to one,
    halved, plus a half, times the adjacency block. -/
theorem pay3_apply (i : grid0.Coords) (x30 x33 : FVec Ideal S1024x1024 .f32) (p q : Fin 1024) :
    (k0_pay3 (F := Ideal) i x30 x33 (ix2 p q) : EReal)
      = x33 (ix2 p q) * (half * (if (i 0).val * 1024 + p.val = (i 1).val * 1024 + q.val then one else x30 (ix2 p q)) + half) := by
  unfold k0_pay3
  simp only [truncf_apply, mulf_apply, addf_apply, select_apply, broadcast_apply]
  have hc : cmpi .eq (addi (broadcast S1024x1024 (Scalar.muli (BitVec.ofNat 32 (i 0).val) 1024#32)) (iota .tc S1024x1024 32 [0] iota_S1024x1024_d0_w32))
      (addi (broadcast S1024x1024 (Scalar.muli (BitVec.ofNat 32 (i 1).val) 1024#32)) (iota .tc S1024x1024 32 [1] iota_S1024x1024_d1_w32)) (ix2 p q)
      = if (i 0).val * 1024 + p.val = (i 1).val * 1024 + q.val then 1#1 else 0#1 := by
    show IntOp.cmpi .eq (IntOp.addi (Scalar.muli (BitVec.ofNat 32 (i 0).val) 1024#32) (iota .tc S1024x1024 32 [0] iota_S1024x1024_d0_w32 (ix2 p q)))
      (IntOp.addi (Scalar.muli (BitVec.ofNat 32 (i 1).val) 1024#32) (iota .tc S1024x1024 32 [1] iota_S1024x1024_d1_w32 (ix2 p q))) = _
    rw [iota_single_apply, iota_single_apply]
    exact diag_word _ _ _ _ (i 0).isLt (i 1).isLt p.isLt q.isLt
  rw [hc]
  by_cases h : (i 0).val * 1024 + p.val = (i 1).val * 1024 + q.val
  · rw [if_pos h, if_pos h, select_one]; rfl
  · rw [if_neg h, if_neg h, select_zero]; rfl

/-! ## The grid's points and the windows' blocks -/

/-- Point `t` is output tile (t / 32, t / 8 % 4) at edge tile `t % 8`: its first two coordinates, and every window's block
    indices there (the two `T` windows at (row tile, edge tile) and (column tile, edge tile), the edge scales at
    (0, edge tile), the adjacency and the output at (row tile, column tile)). -/
theorem pt_facts : ∀ t : Fin cfg0.N,
    (grid0.coords t 0).val = t.val / 32 ∧ (grid0.coords t 1).val = t.val / 8 % 4
    ∧ win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 32 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The grid has 128 points. -/
theorem N0 : cfg0.N = 128 := by decide

-- the TensorCore's buffer contents when the region is entered
variable (V : (c : Dev nD) → (b : Ref sig .tc) → Buf (Elt Ideal) ((c : Thread nD τ).loc b))

/-- The three arrays the region reads, at their literal types: the incidence matrix, the row of edge scales, the adjacency. -/
abbrev Tarr (c : Dev nD) : FVec Ideal ST .f32 := V c main_arg4
abbrev Earr (c : Dev nD) : FVec Ideal SEs .f32 := V c main_v2
abbrev Aarr (c : Dev nD) : FVec Ideal SAdj .f32 := V c main_arg3

/-- The row tile's block of `T` at (p, e) is `T` at row `1024 · (t / 32) + p`, edge `1024 · (t % 8) + e`. -/
theorem ti0_apply (c : Dev nD) (t : Fin cfg0.N) (p e : Fin 1024) (n : Fin 4096) (g : Fin 8192)
    (hn : n.val = t.val / 32 * 1024 + p.val) (hg : g.val = t.val % 8 * 1024 + e.val) :
    ti0 V c t (ix2 p e) = Tarr V c (ix2 n g) := by
  obtain ⟨-, -, e0, e1, -⟩ := pt_facts t
  show V c main_arg4 (((cfg0.win 0).blk t).view.emb (ix2 p e)) = V c main_arg4 (ix2 n g)
  refine congrArg (V c main_arg4) (funext fun a => Fin.ext ?_)
  match a with
  | ⟨0, _⟩ => show win0_0.index t (0 : Fin 2) * 1024 + 1 * p.val = n.val; omega
  | ⟨1, _⟩ => show win0_0.index t (1 : Fin 2) * 1024 + 1 * e.val = g.val; omega

/-- The column tile's block of `T` at (q, e) is `T` at row `1024 · (t / 8 % 4) + q`, edge `1024 · (t % 8) + e`. -/
theorem tj0_apply (c : Dev nD) (t : Fin cfg0.N) (q e : Fin 1024) (n' : Fin 4096) (g : Fin 8192)
    (hn : n'.val = t.val / 8 % 4 * 1024 + q.val) (hg : g.val = t.val % 8 * 1024 + e.val) :
    tj0 V c t (ix2 q e) = Tarr V c (ix2 n' g) := by
  obtain ⟨-, -, -, -, e0, e1, -⟩ := pt_facts t
  show V c main_arg4 (((cfg0.win 1).blk t).view.emb (ix2 q e)) = V c main_arg4 (ix2 n' g)
  refine congrArg (V c main_arg4) (funext fun a => Fin.ext ?_)
  match a with
  | ⟨0, _⟩ => show win0_1.index t (0 : Fin 2) * 1024 + 1 * q.val = n'.val; omega
  | ⟨1, _⟩ => show win0_1.index t (1 : Fin 2) * 1024 + 1 * e.val = g.val; omega

/-- The edge scales' block at (0, e) is the row of scales at edge `1024 · (t % 8) + e`. -/
theorem es0_apply (c : Dev nD) (t : Fin cfg0.N) (e : Fin 1024) (g : Fin 8192) (hg : g.val = t.val % 8 * 1024 + e.val) :
    es0 V c t (ix2 (0 : Fin 1) e) = Earr V c (ix2 (0 : Fin 1) g) := by
  obtain ⟨-, -, -, -, -, -, e0, e1, -⟩ := pt_facts t
  show V c main_v2 (((cfg0.win 2).blk t).view.emb (ix2 (0 : Fin 1) e)) = V c main_v2 (ix2 (0 : Fin 1) g)
  refine congrArg (V c main_v2) (funext fun a => Fin.ext ?_)
  match a with
  | ⟨0, _⟩ => show win0_2.index t (0 : Fin 2) * 1 + 1 * 0 = 0; omega
  | ⟨1, _⟩ => show win0_2.index t (1 : Fin 2) * 1024 + 1 * e.val = g.val; omega

/-- The adjacency's block at (p, q) is the adjacency at row `1024 · (t / 32) + p`, column `1024 · (t / 8 % 4) + q`. -/
theorem aj0_apply (c : Dev nD) (t : Fin cfg0.N) (p q : Fin 1024) (n n' : Fin 4096)
    (hn : n.val = t.val / 32 * 1024 + p.val) (hn' : n'.val = t.val / 8 % 4 * 1024 + q.val) :
    aj0 V c t (ix2 p q) = Aarr V c (ix2 n n') := by
  obtain ⟨-, -, -, -, -, -, -, -, e0, e1, -⟩ := pt_facts t
  show V c main_arg3 (((cfg0.win 3).blk t).view.emb (ix2 p q)) = V c main_arg3 (ix2 n n')
  refine congrArg (V c main_arg3) (funext fun a => Fin.ext ?_)
  match a with
  | ⟨0, _⟩ => show win0_3.index t (0 : Fin 2) * 1024 + 1 * p.val = n.val; omega
  | ⟨1, _⟩ => show win0_3.index t (1 : Fin 2) * 1024 + 1 * q.val = n'.val; omega

/-! ## The accumulator after a point: the sum over the edge tiles so far -/

/-- Edge `g`'s summand for global row `n` and global column `n'`. -/
def edgeTerm (c : Dev nD) (n n' : Fin 4096) (g : Fin 8192) : EReal :=
  (Tarr V c (ix2 n g) * Earr V c (ix2 (0 : Fin 1) g)) * Tarr V c (ix2 n' g)

/-- Edge tile `k`'s share of the sum: its 1024 edges (the edge index read modulo the edge axis's extent, so that the share
    is defined at every natural `k`; for `k` below 8 nothing wraps). -/
def tileSum (c : Dev nD) (n n' : Fin 4096) (k : ℕ) : EReal :=
  ∑ e : Fin 1024, edgeTerm V c n n' ⟨(k * 1024 + e.val) % 8192, Nat.mod_lt _ (by decide)⟩

/-- The scaled block product at point `t` and (p, q) is edge tile `t % 8`'s share for the tile's global row and column. -/
theorem step_sum (c : Dev nD) (t : Fin cfg0.N) (p q : Fin 1024) (n n' : Fin 4096)
    (hn : n.val = t.val / 32 * 1024 + p.val) (hn' : n'.val = t.val / 8 % 4 * 1024 + q.val) :
    ∑ e : Fin 1024, (ti0 V c t (ix2 p e) * es0 V c t (ix2 (0 : Fin 1) e)) * tj0 V c t (ix2 q e) = tileSum V c n n' (t.val % 8) := by
  unfold tileSum edgeTerm
  refine Finset.sum_congr rfl fun e _ => ?_
  have hg : (⟨(t.val % 8 * 1024 + e.val) % 8192, Nat.mod_lt _ (by decide)⟩ : Fin 8192).val = t.val % 8 * 1024 + e.val := by
    show (t.val % 8 * 1024 + e.val) % 8192 = _
    have := e.isLt
    omega
  rw [ti0_apply V c t p e n _ hn hg, tj0_apply V c t q e n' _ hn' hg, es0_apply V c t e _ hg]

/-- After point `t` the accumulator holds, at (p, q), the shares of edge tiles `0 … t % 8` for the global row and column of
    `t`'s output tile: zero plus the first share at the tile's first edge tile, one more share at each later one. -/
theorem acc0_apply (c : Dev nD) : ∀ (m : ℕ) (hm : m < cfg0.N) (p q : Fin 1024) (n n' : Fin 4096),
    n.val = m / 32 * 1024 + p.val → n'.val = m / 8 % 4 * 1024 + q.val →
    acc0 V c m hm (ix2 p q) = ∑ k ∈ Finset.range (m % 8 + 1), tileSum V c n n' k
  | 0, hm, p, q, n, n', hn, hn' => by
    refine (congrFun (acc0_first V c ⟨0, hm⟩ rfl) (ix2 p q)).trans ?_
    refine (pay2_apply (ti0 V c ⟨0, hm⟩) (tj0 V c ⟨0, hm⟩) (es0 V c ⟨0, hm⟩) (k0_pay1 (F := Ideal)) p q).trans ?_
    rw [pay1_apply, zero_add, step_sum V c ⟨0, hm⟩ p q n n' hn hn']
    exact (Finset.sum_range_one _).symm
  | m + 1, hm, p, q, n, n', hn, hn' => by
    by_cases h : (m + 1) % 8 = 0
    · refine (congrFun (acc0_first V c ⟨m + 1, hm⟩ h) (ix2 p q)).trans ?_
      refine (pay2_apply (ti0 V c ⟨m + 1, hm⟩) (tj0 V c ⟨m + 1, hm⟩) (es0 V c ⟨m + 1, hm⟩) (k0_pay1 (F := Ideal)) p q).trans ?_
      rw [pay1_apply, zero_add, step_sum V c ⟨m + 1, hm⟩ p q n n' hn hn']
      show tileSum V c n n' ((m + 1) % 8) = _
      rw [h]
      exact (Finset.sum_range_one _).symm
    · refine (congrFun (acc0_next V c ⟨m + 1, hm⟩ h) (ix2 p q)).trans ?_
      refine (pay2_apply (ti0 V c ⟨m + 1, hm⟩) (tj0 V c ⟨m + 1, hm⟩) (es0 V c ⟨m + 1, hm⟩)
        (acc0 V c m (Nat.lt_of_succ_lt hm)) p q).trans ?_
      rw [step_sum V c ⟨m + 1, hm⟩ p q n n' hn hn',
        acc0_apply c m (Nat.lt_of_succ_lt hm) p q n n' (by omega) (by omega)]
      show _ + tileSum V c n n' ((m + 1) % 8) = _
      rw [show (m + 1) % 8 + 1 = (m % 8 + 1) + 1 by omega, Finset.sum_range_succ _ (m % 8 + 1),
        show m % 8 + 1 = (m + 1) % 8 by omega]

/-- The eight tiles' shares add up to the flat sum over the edge axis: edge `g` is position `g % 1024` of tile `g / 1024`. -/
theorem sum_tiles (c : Dev nD) (n n' : Fin 4096) :
    ∑ k ∈ Finset.range 8, tileSum V c n n' k = ∑ g : Fin 8192, edgeTerm V c n n' g := by
  rw [← Fin.sum_univ_eq_sum_range (fun k => tileSum V c n n' k) 8,
    ← Equiv.sum_comp (finProdFinEquiv (m := 8) (n := 1024)) (edgeTerm V c n n'), Fintype.sum_prod_type]
  refine Finset.sum_congr rfl fun k _ => ?_
  unfold tileSum
  refine Finset.sum_congr rfl fun e _ => congrArg (edgeTerm V c n n') (Fin.ext ?_)
  show (k.val * 1024 + e.val) % 8192 = e.val + 1024 * k.val
  have := k.isLt
  have := e.isLt
  omega

/-! ## The stored tile, and the output array -/

/-- What the region leaves in its output array. -/
abbrev G0 (c : Dev nD) : FVec Ideal SAdj .bf16 := fun i => r0 (Tarr V c) (Earr V c) (Aarr V c) (i 0) (i 1)

/-- The tile stored at an output tile's last edge tile, at (p, q): the region's result at the tile's global row and column. -/
theorem out0_apply (c : Dev nD) (t : Fin cfg0.N) (ht : t.val % 8 = 7) (p q : Fin 1024) (n n' : Fin 4096)
    (hn : n.val = t.val / 32 * 1024 + p.val) (hn' : n'.val = t.val / 8 % 4 * 1024 + q.val) :
    (out0 V c t (ix2 p q) : EReal) = r0 (Tarr V c) (Earr V c) (Aarr V c) n n' := by
  obtain ⟨c0, c1, -⟩ := pt_facts t
  unfold out0
  refine (pay3_apply (grid0.coords t) (acc0 V c t.val t.isLt) (aj0 V c t) p q).trans ?_
  rw [c0, c1, aj0_apply V c t p q n n' hn hn', acc0_apply V c t.val t.isLt p q n n' hn hn',
    show t.val % 8 + 1 = 8 by omega, sum_tiles]
  unfold r0
  have hd : (t.val / 32 * 1024 + p.val = t.val / 8 % 4 * 1024 + q.val) ↔ n = n' := by
    rw [Fin.ext_iff, hn, hn']
  exact congrArg (fun z => Aarr V c (ix2 n n') * (half * z + half)) (if_congr hd rfl rfl)

/-- What a flushing point writes back is its block of the region's result. -/
theorem flushed_eq (c : Dev nD) (t : Fin cfg0.N) (ht : t.val % 8 = 7) :
    (dat0 V c).flushed 4 t = ((cfg0.win 4).blk t).view.read (Elt Ideal) (G0 V c) := by
  show (cfg0.win 4).cut (grid0.coords t) ((dat0 V c).after 4 t) = _
  rw [after0_4]
  obtain ⟨-, -, -, -, -, -, -, -, -, -, e0, e1⟩ := pt_facts t
  funext j
  have hy : (cfg0.win 4).xinj (grid0.coords t) j = ix2 (⟨(j 0).val, (j 0).isLt⟩ : Fin 1024) (⟨(j 1).val, (j 1).isLt⟩ : Fin 1024) :=
    funext fun a => by match a with | ⟨0, _⟩ => rfl | ⟨1, _⟩ => rfl
  show out0 V c t ((cfg0.win 4).xinj (grid0.coords t) j) = G0 V c (((cfg0.win 4).blk t).view.emb j)
  rw [hy]
  refine out0_apply V c t ht _ _ _ _ ?_ ?_
  · show win0_4.index t (0 : Fin 2) * 1024 + 1 * (j 0).val = t.val / 32 * 1024 + (j 0).val; omega
  · show win0_4.index t (1 : Fin 2) * 1024 + 1 * (j 1).val = t.val / 8 % 4 * 1024 + (j 1).val; omega

/-- An index of the output array is in point `t`'s block iff each coordinate is in the block's range on its axis. -/
theorem mem_blk4 (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the output array lies in the block of a flushing point: the last edge tile of the output tile its row
    and column quotients by 1024 name. -/
theorem cover4 (i : S4096x4096.Idx) : ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 128 := N0
  have hlt : ((i 0).val / 1024 * 4 + (i 1).val / 1024) * 8 + 7 < cfg0.N := by rw [hN]; omega
  obtain ⟨-, -, -, -, -, -, -, -, -, -, e0, e1⟩ := pt_facts ⟨_, hlt⟩
  refine ⟨⟨_, hlt⟩, (flush0_4 _).mpr (by show (((i 0).val / 1024 * 4 + (i 1).val / 1024) * 8 + 7) % 8 = 7; omega), ?_⟩
  rw [mem_blk4]
  intro a
  match a with
  | ⟨0, _⟩ =>
    show win0_4.index ⟨_, hlt⟩ (0 : Fin 2) * 1024 ≤ (i 0).val ∧ (i 0).val < win0_4.index ⟨_, hlt⟩ (0 : Fin 2) * 1024 + 1024
    rw [e0]
    show (((i 0).val / 1024 * 4 + (i 1).val / 1024) * 8 + 7) / 32 * 1024 ≤ (i 0).val ∧ (i 0).val < (((i 0).val / 1024 * 4 + (i 1).val / 1024) * 8 + 7) / 32 * 1024 + 1024
    omega
  | ⟨1, _⟩ =>
    show win0_4.index ⟨_, hlt⟩ (1 : Fin 2) * 1024 ≤ (i 1).val ∧ (i 1).val < win0_4.index ⟨_, hlt⟩ (1 : Fin 2) * 1024 + 1024
    rw [e1]
    show (((i 0).val / 1024 * 4 + (i 1).val / 1024) * 8 + 7) / 8 % 4 * 1024 ≤ (i 1).val ∧ (i 1).val < (((i 0).val / 1024 * 4 + (i 1).val / 1024) * 8 + 7) / 8 % 4 * 1024 + 1024
    omega

/-- THE OUTPUT ARRAY after the region: at row `n`, column `n'` the adjacency entry times half of (one on the diagonal, else
    the sum over all edges of the scaled incidence products) plus a half. -/
theorem region0_out (c : Dev nD) :
    (Cert.KernelIdeal.Hand.dat0 (F := Ideal) V c).arrAt 4 cfg0.N
      = fun i => Cert.Spec.r0 (V c main_arg4) (V c main_v2) (V c main_arg3) (i 0) (i 1) :=
  (dat0 V c).arrAt_eq_of_cover 4 (G0 V c) (fun t hf => flushed_eq V c t ((flush0_4 t).mp hf)) cover4

end Cert.KernelIdeal.ValueSide0

end
-- ==== Proof.KI.Value1.lean ====
/-
  The second kernel region's output array, index by index over the extended reals.

  The region runs 8 row bands × 4 column blocks. At a point of band `a`, column block `s`, the body adds to a [512, 512]
  accumulator the product of the [512, 1024] block (rows `512 a …`, columns `1024 s …`) of the combined adjacency with
  the [1024, 512] block (rows `1024 s …`) of the node features, starting from zero at `s = 0`; at `s = 3` it multiplies the
  accumulator by the weight matrix, adds the bias row over the rows, and the band's [512, 512] block of the output is
  written back. Read at an index:
  * a block product into zero is `Σ_k x[p, k] · y[k, q]` over the shared axis (a format change is the identity on the
    extended reals, a shape cast to the same shape is the identity, `0 + x = x`);
  * so after column block `j` of band `a` the accumulator is `Σ_{s ≤ j} Σ_{k < 1024} ca[512 a + p, 1024 s + k] · hv[1024 s + k, q]`
    (induction on `j`), and after the last one the double sum over (block, offset) regroups to the flat sum over the
    4096 nodes (addition on the extended reals is commutative and associative);
  * the stored block at `(p, q)` is `Σ_v acc[p, v] · w[v, q] + br[0, q]`, which is `r1` at row `512 a + p`, column `q`;
  * every index `(n, o)` of the output array lies in the block of band `n / 512`, written back at that band's last point,
    so the array ends holding `r1` everywhere.
-/
import proofs.«121841_j73856257622121_1_alg».proof.Proof.KI.Dat1
import proofs.«121841_j73856257622121_1_alg».proof.Proof.SpecRegions
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic
import Mathlib.Data.Fintype.BigOperators
import Mathlib.Logic.Equiv.Fin.Basic

set_option maxRecDepth 16384

noncomputable section

open scoped BigOperators

namespace Cert.KernelIdeal.ValueSide1

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat)

/-! ## The payloads read at an index

Each product's operand indices, axis by axis, then the product as a sum over its one shared axis. -/

theorem lhs_prod_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_prod_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_prod_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_prod_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The block product into a zero accumulator, at row `p`, column `q`: the sum over the 1024 shared positions. -/
theorem prod_apply (x : FVec Ideal S512x1024 .bf16) (y : FVec Ideal S1024x512 .bf16) (p q : Fin 512) :
    FloatOps.matmul dot_S512x1024_S1024x512_S512x512_1_0_0_1_n_n none x y (constant (F := Ideal) S512x512 .f32 0x00000000#32) (ix2 p q)
      = ∑ k : Fin 1024, x (ix2 p k) * y (ix2 k q) := by
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 p q) ((ValueIdx.contrEquiv1 dot_S512x1024_S1024x512_S512x512_1_0_0_1_n_n 1024 rfl rfl).symm k) = ix2 p k := funext fun a => Fin.ext (by
    match a with
    | ⟨0, _⟩ => exact lhs_prod_0 _ _
    | ⟨1, _⟩ => exact (lhs_prod_1 _ _).trans hk)
  have er : dot_S512x1024_S1024x512_S512x512_1_0_0_1_n_n.rhsIdx (ix2 p q) ((ValueIdx.contrEquiv1 dot_S512x1024_S1024x512_S512x512_1_0_0_1_n_n 1024 rfl rfl).symm k) = ix2 k q := funext fun a => Fin.ext (by
    match a with
    | ⟨0, _⟩ => exact (rhs_prod_0 _ _).trans hk
    | ⟨1, _⟩ => exact rhs_prod_1 _ _)
  rw [el, er]

/-- The accumulator's starting contents: zero everywhere. -/
theorem pay1_apply (j : S512x512.Idx) : (k1_pay1 (F := Ideal)) j = 0 := by
  unfold k1_pay1
  rw [shapeCast_self]
  exact Ideal.ofBits_zero_f32

/-- What a point leaves in the accumulator, at row `p`, column `q`: what it found there plus the block product. -/
theorem pay2_apply (v3 : Vec Ideal S512x1024 .bf16) (v5 : Vec Ideal S1024x512 .f32) (v7 : Vec Ideal S512x512 .f32) (p q : Fin 512) :
    k1_pay2 v3 v5 v7 (ix2 p q) = v7 (ix2 p q) + ∑ k : Fin 1024, v3 (ix2 p k) * v5 (ix2 k q) := by
  unfold k1_pay2
  rw [shapeCast_self, shapeCast_self]
  refine (addf_apply _ _ _).trans ?_
  refine congrArg (v7 (ix2 p q) + ·) ?_
  exact prod_apply v3 (truncf .bf16 v5 bitsLt_bf16_f32) p q

theorem lhs_wprod_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_wprod_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_wprod_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_wprod_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product with the weight matrix into a zero accumulator, at row `p`, column `q`: the sum over the 512 features. -/
theorem wprod_apply (x : FVec Ideal S512x512 .bf16) (y : FVec Ideal S512x512 .bf16) (p q : Fin 512) :
    FloatOps.matmul dot_S512x512_S512x512_S512x512_1_0_0_1_n_n none x y (constant (F := Ideal) S512x512 .f32 0x00000000#32) (ix2 p q)
      = ∑ k : Fin 512, x (ix2 p k) * y (ix2 k q) := by
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_wprod_0 _ _
    | ⟨1, _⟩ => exact (lhs_wprod_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_wprod_0 _ _).trans hk
    | ⟨1, _⟩ => exact rhs_wprod_1 _ _)
  rw [el, er]

/-- What a band's last point stores, at row `p`, column `q`: the accumulator's row against the weight's column, plus the bias. -/
theorem pay3_apply (v16 : Vec Ideal S512x512 .f32) (v18 : Vec Ideal S512x512 .f32) (v21 : Vec Ideal S1x512 .f32) (p q : Fin 512) :
    k1_pay3 v16 v18 v21 (ix2 p q) = (∑ k : Fin 512, v16 (ix2 p k) * v18 (ix2 k q)) + v21 (ix2 (0 : Fin 1) q) := by
  unfold k1_pay3
  rw [shapeCast_self]
  refine (addf_apply _ _ _).trans ?_
  refine congrArg₂ (· + ·) ?_ ?_
  · exact wprod_apply (truncf .bf16 v16 bitsLt_bf16_f32) (truncf .bf16 v18 bitsLt_bf16_f32) p q
  · exact broadcastTo_apply v21 broadcasts_S1x512_S512x512 (ix2 p q) (ix2 (0 : Fin 1) q) (fun a => match a with
      | ⟨0, _⟩ => rfl
      | ⟨1, _⟩ => rfl)

/-! ## The windows' block indices over the grid -/

theorem idx_facts1 : ∀ t : Fin cfg1.N,
    win1_0.index t (0 : Fin 2) = t.val / 4 ∧ win1_0.index t (1 : Fin 2) = t.val % 4
  ∧ win1_1.index t (0 : Fin 2) = t.val % 4 ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = t.val / 4 ∧ win1_4.index t (1 : Fin 2) = 0 :=
  (by decide +kernel : ∀ t : Fin grid1.N, _)

/-! ## The blocks a point reads, as parts of the arrays the region finds -/

section Region

variable (V : (c : Dev nD) → (b : Ref sig .tc) → Buf (Elt Ideal) ((c : Thread nD τ).loc b)) (c : Dev nD)

/-- The four arrays the region reads, as it finds them, at their literal types: the combined adjacency, the node
    features, the weight matrix and the bias row. -/
abbrev arrCA : FVec Ideal SAdj .bf16 := V c main_v3
abbrev arrHV : FVec Ideal SHv .f32 := V c main_arg0
abbrev arrW : FVec Ideal SW .f32 := V c main_arg5
abbrev arrBR : FVec Ideal SBr .f32 := V c main_v4

/-- The combined adjacency's block at point `t` holds the rows of band `t / 4` and the columns of block `t % 4`. -/
theorem ca1_apply (t : Fin cfg1.N) (p : Fin 512) (k : Fin 1024) (r s : Fin 4096)
    (hr : r.val = t.val / 4 * 512 + p.val) (hs : s.val = t.val % 4 * 1024 + k.val) :
    ca1 V c t (ix2 p k) = arrCA V c (ix2 r s) := by
  obtain ⟨e0, e1, -⟩ := idx_facts1 t
  show arrCA V c (((cfg1.win 0).blk t).view.emb (ix2 p k)) = _
  refine congrArg _ (funext fun a => Fin.ext ?_)
  match a with
  | ⟨0, _⟩ => show win1_0.index t (0 : Fin 2) * 512 + 1 * p.val = r.val; omega
  | ⟨1, _⟩ => show win1_0.index t (1 : Fin 2) * 1024 + 1 * k.val = s.val; omega

/-- The node features' block at point `t` holds the rows of block `t % 4`, every column. -/
theorem hv1_apply (t : Fin cfg1.N) (k : Fin 1024) (q : Fin 512) (s : Fin 4096)
    (hs : s.val = t.val % 4 * 1024 + k.val) :
    hv1 V c t (ix2 k q) = arrHV V c (ix2 s q) := by
  obtain ⟨-, -, e2, e3, -⟩ := idx_facts1 t
  show arrHV V c (((cfg1.win 1).blk t).view.emb (ix2 k q)) = _
  refine congrArg _ (funext fun a => Fin.ext ?_)
  match a with
  | ⟨0, _⟩ => show win1_1.index t (0 : Fin 2) * 1024 + 1 * k.val = s.val; omega
  | ⟨1, _⟩ => show win1_1.index t (1 : Fin 2) * 512 + 1 * q.val = q.val; omega

/-- The weight's block is the whole matrix at every point. -/
theorem wt1_apply (t : Fin cfg1.N) (k q : Fin 512) :
    wt1 V c t (ix2 k q) = arrW V c (ix2 k q) := by
  obtain ⟨-, -, -, -, e4, e5, -⟩ := idx_facts1 t
  show arrW V c (((cfg1.win 2).blk t).view.emb (ix2 k q)) = _
  refine congrArg _ (funext fun a => Fin.ext ?_)
  match a with
  | ⟨0, _⟩ => show win1_2.index t (0 : Fin 2) * 512 + 1 * k.val = k.val; omega
  | ⟨1, _⟩ => show win1_2.index t (1 : Fin 2) * 512 + 1 * q.val = q.val; omega

/-- The bias's block is the whole row at every point. -/
theorem bs1_apply (t : Fin cfg1.N) (q : Fin 512) :
    bs1 V c t (ix2 (0 : Fin 1) q) = arrBR V c (ix2 (0 : Fin 1) q) := by
  obtain ⟨-, -, -, -, -, -, e6, e7, -⟩ := idx_facts1 t
  show arrBR V c (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * q.val = q.val; omega

end Region

/-! ## Regrouping a sum over 4096 positions into 4 blocks of 1024 -/

theorem sum_blocks {M : Type*} [AddCommMonoid M] (f : Fin 4096 → M) :
    ∑ s : Fin 4, ∑ k : Fin 1024, f ⟨s.val * 1024 + k.val, by omega⟩ = ∑ n, f n := by
  rw [← Fintype.sum_prod_type']
  refine Fintype.sum_equiv (finProdFinEquiv (m := 4) (n := 1024)) _ _ fun x => ?_
  refine congrArg f (Fin.ext ?_)
  show x.1.val * 1024 + x.2.val = x.2.val + 1024 * x.1.val
  omega

/-! ## The accumulator, point by point -/

section Acc

variable (V : (c : Dev nD) → (b : Ref sig .tc) → Buf (Elt Ideal) ((c : Thread nD τ).loc b)) (c : Dev nD)

/-- Point `t`'s block product at row `p`, column `q`. -/
def bp (t : Fin cfg1.N) (p q : Fin 512) : EReal := ∑ k : Fin 1024, ca1 V c t (ix2 p k) * hv1 V c t (ix2 k q)

/-- The same by the point's position, zero past the grid. -/
def bpN (n : ℕ) (p q : Fin 512) : EReal := if h : n < cfg1.N then bp V c ⟨n, h⟩ p q else 0

/-- At a band's first column block the accumulator is the block product. -/
theorem acc1_first_apply (t : Fin cfg1.N) (h : t.val % 4 = 0) (p q : Fin 512) :
    acc1 V c t.val t.isLt (ix2 p q) = bp V c t p q := by
  rw [acc1_first V c t h]
  refine (pay2_apply (ca1 V c t) (hv1 V c t) (k1_pay1 (F := Ideal)) p q).trans ?_
  rw [pay1_apply, zero_add]
  rfl

/-- At any other column block it is what the point before left plus the block product. -/
theorem acc1_succ_apply (n : ℕ) (hn : n + 1 < cfg1.N) (h : ¬ (n + 1) % 4 = 0) (p q : Fin 512) :
    acc1 V c (n + 1) hn (ix2 p q) = acc1 V c n (Nat.lt_of_succ_lt hn) (ix2 p q) + bp V c ⟨n + 1, hn⟩ p q := by
  have e : acc1 V c (n + 1) hn
      = k1_pay2 (ca1 V c ⟨n + 1, hn⟩) (hv1 V c ⟨n + 1, hn⟩) (acc1 V c n (Nat.lt_of_succ_lt hn)) := if_neg h
  rw [e]
  exact pay2_apply (ca1 V c ⟨n + 1, hn⟩) (hv1 V c ⟨n + 1, hn⟩) (acc1 V c n (Nat.lt_of_succ_lt hn)) p q

theorem acc1_congr (n m : ℕ) (e : n = m) (hn : n < cfg1.N) (hm : m < cfg1.N) : acc1 V c n hn = acc1 V c m hm := by
  subst e; rfl

/-- Within band `a`, after column block `j` the accumulator is the sum of the block products of column blocks `0 … j`. -/
theorem acc1_band (a : ℕ) : ∀ (j : ℕ) (hj : j < 4) (h : 4 * a + j < cfg1.N) (p q : Fin 512),
    acc1 V c (4 * a + j) h (ix2 p q) = ∑ s ∈ Finset.range (j + 1), bpN V c (4 * a + s) p q
  | 0, _, h, p, q => by
    rw [Finset.sum_range_one]
    refine (acc1_first_apply V c ⟨4 * a + 0, h⟩ (by show (4 * a + 0) % 4 = 0; omega) p q).trans ?_
    unfold bpN
    rw [dif_pos h]
  | j + 1, hj, h, p, q => by
    rw [Finset.sum_range_succ, ← acc1_band a j (by omega) (Nat.lt_of_succ_lt h) p q]
    refine (acc1_succ_apply V c (4 * a + j) h (by omega) p q).trans ?_
    unfold bpN
    rw [dif_pos h]
    rfl

end Acc

/-! ## The accumulator where a band ends, in the arrays -/

section Last

variable (V : (c : Dev nD) → (b : Ref sig .tc) → Buf (Elt Ideal) ((c : Thread nD τ).loc b)) (c : Dev nD)

/-- The block product of band `a`, column block `s`, in the arrays: row `r` of the combined adjacency against column `q` of
    the node features over the positions `1024 s … 1024 s + 1023`. -/
theorem bp_eq (a : ℕ) (s : Fin 4) (h : 4 * a + s.val < cfg1.N) (p q : Fin 512) (r : Fin 4096) (hr : r.val = a * 512 + p.val) :
    bp V c ⟨4 * a + s.val, h⟩ p q
      = ∑ k : Fin 1024, arrCA V c (ix2 r (⟨s.val * 1024 + k.val, by omega⟩ : Fin 4096))
          * arrHV V c (ix2 (⟨s.val * 1024 + k.val, by omega⟩ : Fin 4096) q) := by
  unfold bp
  refine Finset.sum_congr rfl fun k _ => ?_
  rw [ca1_apply V c ⟨4 * a + s.val, h⟩ p k r ⟨s.val * 1024 + k.val, by omega⟩
        (by show r.val = (4 * a + s.val) / 4 * 512 + p.val; omega)
        (by show s.val * 1024 + k.val = (4 * a + s.val) % 4 * 1024 + k.val; omega),
      hv1_apply V c ⟨4 * a + s.val, h⟩ k q ⟨s.val * 1024 + k.val, by omega⟩
        (by show s.val * 1024 + k.val = (4 * a + s.val) % 4 * 1024 + k.val; omega)]

/-- After a band's last column block the accumulator holds, at row `p` and column `k`, the band's row of the combined
    adjacency against column `k` of the node features, over all 4096 nodes. -/
theorem acc1_last (t : Fin cfg1.N) (ht : t.val % 4 = 3) (p k : Fin 512) (r : Fin 4096) (hr : r.val = t.val / 4 * 512 + p.val) :
    acc1 V c t.val t.isLt (ix2 p k) = ∑ n' : Fin 4096, arrCA V c (ix2 r n') * arrHV V c (ix2 n' k) := by
  have hN : cfg1.N = 32 := N_1
  have hlt : t.val < cfg1.N := t.isLt
  have e : t.val = 4 * (t.val / 4) + 3 := by omega
  have h3 : 4 * (t.val / 4) + 3 < cfg1.N := by omega
  rw [acc1_congr V c _ _ e t.isLt h3, acc1_band V c (t.val / 4) 3 (by omega) h3 p k, Finset.sum_range,
    ← sum_blocks (fun n' : Fin 4096 => arrCA V c (ix2 r n') * arrHV V c (ix2 n' k))]
  refine Finset.sum_congr rfl fun s _ => ?_
  have hs : 4 * (t.val / 4) + s.val < cfg1.N := by omega
  unfold bpN
  rw [dif_pos hs]
  exact bp_eq V c (t.val / 4) s hs p k r hr

end Last

/-! ## From the stored blocks to the output array -/

section Array

variable (V : (c : Dev nD) → (b : Ref sig .tc) → Buf (Elt Ideal) ((c : Thread nD τ).loc b)) (c : Dev nD)

/-- The output array as one function of the arrays the region reads. -/
abbrev outG : Buf (Elt Ideal) ((cfg1.win 4).arr.view.loc (c.tc : Thread nD τ)) :=
  fun i => r1 (arrCA V c) (arrHV V c) (arrW V c) (arrBR V c) (i 0) (i 1)

/-- What a band's last point writes back is the band's block of that function. -/
theorem flushed4_eq (t : Fin cfg1.N) (hf : (cfg1.win 4).flush t = true) :
    (dat1 V c).flushed 4 t = ((cfg1.win 4).blk t).view.read (Elt Ideal) (outG V c) := by
  have ht : t.val % 4 = 3 := (flush1_4 t).mp hf
  have hN : cfg1.N = 32 := N_1
  have hlt : t.val < cfg1.N := t.isLt
  obtain ⟨-, -, -, -, -, -, -, -, e8, e9⟩ := idx_facts1 t
  show (cfg1.win 4).cut (grid1.coords t) ((dat1 V c).after 4 t) = _
  rw [after1_4]
  funext y
  obtain ⟨p, q, rfl⟩ : ∃ (p q : Fin 512), y = ix2 p q := ⟨y 0, y 1, eq_ix2 y⟩
  have hemb : ((cfg1.win 4).blk t).view.emb (ix2 p q) = (ix2 (⟨t.val / 4 * 512 + p.val, by omega⟩ : Fin 4096) q : S4096x512.Idx) :=
    funext fun a => Fin.ext (by
      match a with
      | ⟨0, _⟩ => show win1_4.index t (0 : Fin 2) * 512 + 1 * p.val = t.val / 4 * 512 + p.val; omega
      | ⟨1, _⟩ => show win1_4.index t (1 : Fin 2) * 512 + 1 * q.val = q.val; omega)
  show out1 V c t (ix2 p q) = outG V c (((cfg1.win 4).blk t).view.emb (ix2 p q))
  rw [hemb]
  show out1 V c t (ix2 p q) = r1 (arrCA V c) (arrHV V c) (arrW V c) (arrBR V c) (⟨t.val / 4 * 512 + p.val, by omega⟩ : Fin 4096) q
  unfold out1 r1
  refine (pay3_apply (acc1 V c t.val t.isLt) (wt1 V c t) (bs1 V c t) p q).trans ?_
  refine congrArg₂ (· + ·) (Finset.sum_congr rfl fun k _ => ?_) (bs1_apply V c t q)
  rw [acc1_last V c t ht p k ⟨t.val / 4 * 512 + p.val, by omega⟩ rfl, wt1_apply V c t k q]

/-- An index of the output array is in point `t`'s block iff each coordinate is in the block's range on its axis. -/
theorem mem_blk4 (t : Fin cfg1.N) (i : S4096x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v5).slice (win1_4.rect t)).set ↔ _
  rw [View.set_slice_whole, Rect.mem_set_unit]
  exact Iff.rfl

/-- Every index of the output array lies in the block written back at the last point of its row's band. -/
theorem cover4 (i : S4096x512.Idx) :
    ∃ t : Fin cfg1.N, (cfg1.win 4).flush t = true ∧ i ∈ ((cfg1.win 4).blk t).view.set := by
  have hN : cfg1.N = 32 := N_1
  have hi0 : (i 0).val < 4096 := (i 0).isLt
  have hi1 : (i 1).val < 512 := (i 1).isLt
  have hb : 4 * ((i 0).val / 512) + 3 < cfg1.N := by omega
  refine ⟨⟨4 * ((i 0).val / 512) + 3, hb⟩, (flush1_4 _).mpr (by show (4 * ((i 0).val / 512) + 3) % 4 = 3; omega), ?_⟩
  rw [mem_blk4]
  obtain ⟨-, -, -, -, -, -, -, -, e8, e9⟩ := idx_facts1 ⟨4 * ((i 0).val / 512) + 3, hb⟩
  have e8' : win1_4.index ⟨4 * ((i 0).val / 512) + 3, hb⟩ (0 : Fin 2) = (4 * ((i 0).val / 512) + 3) / 4 := e8
  intro a
  match a with
  | ⟨0, _⟩ =>
    show win1_4.index ⟨4 * ((i 0).val / 512) + 3, hb⟩ (0 : Fin 2) * 512 ≤ (i 0).val
      ∧ (i 0).val < win1_4.index ⟨4 * ((i 0).val / 512) + 3, hb⟩ (0 : Fin 2) * 512 + 512
    omega
  | ⟨1, _⟩ =>
    show win1_4.index ⟨4 * ((i 0).val / 512) + 3, hb⟩ (1 : Fin 2) * 512 ≤ (i 1).val
      ∧ (i 1).val < win1_4.index ⟨4 * ((i 0).val / 512) + 3, hb⟩ (1 : Fin 2) * 512 + 512
    omega

end Array

/-- THE SECOND REGION'S OUTPUT ARRAY after the run: at node `n`, output feature `o`, the combined adjacency's row `n`
    against the node features, against the weight's column `o`, plus the bias. -/
theorem region1_out (V : (c : Dev nD) → (b : Ref sig .tc) → Buf (Elt Ideal) ((c : Thread nD τ).loc b)) (c : Dev nD) :
    (Cert.KernelIdeal.Hand.dat1 (F := Ideal) V c).arrAt 4 cfg1.N = fun i => Cert.Spec.r1 (V c main_v3) (V c main_arg0) (V c main_arg5) (V c main_v4) (i 0) (i 1) :=
  (dat1 V c).arrAt_eq_of_cover 4 (outG V c) (fun t hf => flushed4_eq V c t hf) (fun i => cover4 i)

end Cert.KernelIdeal.ValueSide1

end
-- ==== Proof.KI.HostValues.lean ====
/-
  What the host operations around the two kernel regions leave in the arrays the regions read, index by index over the
  extended reals.

  Before the first region the program transposes the edge projection `p` [1, 128] to a column [128, 1], contracts
  the edge features `He` [8192, 128] with that column over the feature axis, giving a column [8192, 1] whose entry `e`
  is `Σ_d He[e, d] · p[0, d]`, and reshapes the column to a row [1, 8192]: the row of edge scales, `esc`.
  Between the regions it reshapes the bias `b` [512] to a row [1, 512].

  Each operation is read at an index by a lemma of its own: the transpose swaps the two coordinates; the contraction is
  the sum over its one contracted axis, re-indexed by that axis's coordinate; a reshape between [n, 1], [1, n] and [n]
  keeps the row-major position, which is the coordinate on the axis of extent `n`.
-/
import proofs.«121841_j73856257622121_1_alg».proof.Proof.Gen.KernelIdeal.Launch
import proofs.«121841_j73856257622121_1_alg».proof.Proof.Gen.KernelIdeal.Regions
import proofs.«121841_j73856257622121_1_alg».proof.Proof.SpecRegions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ValueSide

open Cert.KernelIdeal Cert.KernelIdeal.Gen Idealize.ShloMosaic Idealize.ShloMosaic.TcCoe Idealize.ShloMosaic.ValueIdx Idealize.SL.Sem

variable {F : FTy → Type} [FloatOps F]

/-! ## The host operations' terms -/

/-- The projection as a column: `p` transposed. -/
def pCol (x6 : (⟨S1x128, .f32⟩ : BufTy).Contents (Elt F)) : (⟨S128x1, .f32⟩ : BufTy).Contents (Elt F) :=
  transpose S128x1 [1, 0] x6 transposes_S1x128_S128x1_1_0

/-- The edge scales as a column: `He` contracted with the projection's column over the feature axis. -/
def escCol (x1 : (⟨S8192x128, .f32⟩ : BufTy).Contents (Elt F)) (x6 : (⟨S1x128, .f32⟩ : BufTy).Contents (Elt F)) :
    (⟨S8192x1, .f32⟩ : BufTy).Contents (Elt F) :=
  Host.dotGeneral dot_S8192x128_S128x1_S8192x1_1_0_0_1_n_n none x1 (pCol (F := F) x6)

/-- The edge scales as a row: the column reshaped. -/
def escRow (x1 : (⟨S8192x128, .f32⟩ : BufTy).Contents (Elt F)) (x6 : (⟨S1x128, .f32⟩ : BufTy).Contents (Elt F)) :
    (⟨S1x8192, .f32⟩ : BufTy).Contents (Elt F) :=
  shapeCast _ (escCol (F := F) x1 x6) shapeCasts_S8192x1_S1x8192

/-- The bias as a row: the bias reshaped. -/
def biasRow (x7 : (⟨S512, .f32⟩ : BufTy).Contents (Elt F)) : (⟨S1x512, .f32⟩ : BufTy).Contents (Elt F) :=
  shapeCast _ x7 shapeCasts_S512_S1x512

/-- After the first stretch of host operations the edge-scale array holds `escRow` of the edge features and the
    projection as they were before it. -/
theorem after_hostOps0_v2 (W : Valuation τ sig (Elt F)) :
    StableHlo.after (hostOps0 (F := F)) W main_v2 = escRow (F := F) (W main_arg1) (W main_arg6) := by
  dsimp only [hostOps0]
  after_results
  rfl

/-- After the second stretch of host operations the bias-row array holds `biasRow` of the bias as it was before it. -/
theorem after_hostOps1_v4 (W : Valuation τ sig (Elt F)) :
    StableHlo.after (hostOps1 (F := F)) W main_v4 = biasRow (F := F) (W main_arg7) := by
  dsimp only [hostOps1]
  after_results
  rfl

/-! ## The terms read at an index -/

/-- The column's entry `d` is the projection's entry `d`: a transpose swaps the coordinates. -/
theorem pCol_apply (x6 : (⟨S1x128, .f32⟩ : BufTy).Contents (Elt F)) (d : Fin 128) :
    pCol (F := F) x6 (ix2 d (0 : Fin 1)) = x6 (ix2 (0 : Fin 1) d) := by
  unfold pCol
  exact transpose_apply [1, 0] x6 transposes_S1x128_S128x1_1_0 (ix2 d (0 : Fin 1)) (ix2 (0 : Fin 1) d) (fun b => match b with
    | ⟨0, _⟩ => rfl
    | ⟨1, _⟩ => rfl)

/-- The left operand's row coordinate is the result's row coordinate. -/
theorem lhs_esc_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide),
    dif_pos (show (0 : Fin S8192x128.rank) ∈ dot_S8192x128_S128x1_S8192x1_1_0_0_1_n_n.lhsNonContracting by decide)]
  rfl
/-- The left operand's column coordinate is the contracted coordinate. -/
theorem lhs_esc_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
/-- The right operand's row coordinate is the contracted coordinate. -/
theorem rhs_esc_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
/-- The right operand's column coordinate is the result's column coordinate. -/
theorem rhs_esc_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide),
    dif_pos (show (1 : Fin S128x1.rank) ∈ dot_S8192x128_S128x1_S8192x1_1_0_0_1_n_n.rhsNonContracting by decide)]
  rfl

/-- The contraction at row `e`, for any right operand `y`: the sum over the feature axis of `He[e, d] · y[d, 0]`. -/
theorem dot_esc_apply (x1 : (⟨S8192x128, .f32⟩ : BufTy).Contents (Elt Ideal)) (y : (⟨S128x1, .f32⟩ : BufTy).Contents (Elt Ideal))
    (e : Fin 8192) :
    Host.dotGeneral (F := Ideal) (φ₁ := .f32) (φ₂ := .f32) dot_S8192x128_S128x1_S8192x1_1_0_0_1_n_n none x1 y (ix2 e (0 : Fin 1))
      = ∑ d : Fin 128, x1 (ix2 e d) * y (ix2 d (0 : Fin 1)) := by
  simp only [Host.dotGeneral]
  rw [Ideal.dotGeneral_apply, ← Equiv.sum_comp (contrEquiv1 dot_S8192x128_S128x1_S8192x1_1_0_0_1_n_n 128 rfl rfl).symm]
  refine Finset.sum_congr rfl fun d _ => ?_
  have hd := contrEquiv1_symm_val dot_S8192x128_S128x1_S8192x1_1_0_0_1_n_n 128 rfl rfl d
  have el : dot_S8192x128_S128x1_S8192x1_1_0_0_1_n_n.lhsIdx (ix2 e (0 : Fin 1))
      ((contrEquiv1 dot_S8192x128_S128x1_S8192x1_1_0_0_1_n_n 128 rfl rfl).symm d) = ix2 e d := funext fun a => Fin.ext (by
    match a with
    | ⟨0, _⟩ => exact lhs_esc_0 _ _
    | ⟨1, _⟩ => exact (lhs_esc_1 _ _).trans hd)
  have er : dot_S8192x128_S128x1_S8192x1_1_0_0_1_n_n.rhsIdx (ix2 e (0 : Fin 1))
      ((contrEquiv1 dot_S8192x128_S128x1_S8192x1_1_0_0_1_n_n 128 rfl rfl).symm d) = ix2 d (0 : Fin 1) := funext fun a => Fin.ext (by
    match a with
    | ⟨0, _⟩ => exact (rhs_esc_0 _ _).trans hd
    | ⟨1, _⟩ => exact rhs_esc_1 _ _)
  rw [el, er]

/-- The column's entry `e` is the edge's features against the projection. -/
theorem escCol_apply (x1 : (⟨S8192x128, .f32⟩ : BufTy).Contents (Elt Ideal)) (x6 : (⟨S1x128, .f32⟩ : BufTy).Contents (Elt Ideal))
    (e : Fin 8192) :
    escCol (F := Ideal) x1 x6 (ix2 e (0 : Fin 1)) = ∑ d : Fin 128, x1 (ix2 e d) * x6 (ix2 (0 : Fin 1) d) := by
  unfold escCol
  rw [dot_esc_apply]
  exact Finset.sum_congr rfl fun d _ => by rw [pCol_apply]

/-- The row's entry `e` is the column's entry `e`: both sit at row-major position `e`. -/
theorem escRow_apply (x1 : (⟨S8192x128, .f32⟩ : BufTy).Contents (Elt F)) (x6 : (⟨S1x128, .f32⟩ : BufTy).Contents (Elt F))
    (e : Fin 8192) :
    escRow (F := F) x1 x6 (ix2 (0 : Fin 1) e) = escCol (F := F) x1 x6 (ix2 e (0 : Fin 1)) := by
  unfold escRow
  generalize escCol (F := F) x1 x6 = y
  exact shapeCast_apply y shapeCasts_S8192x1_S1x8192 (ix2 (0 : Fin 1) e) (ix2 e (0 : Fin 1))
    (by rewrite [Shape.rowMajor_val_two, Shape.rowMajor_val_two]; show e.val * 1 + 0 = 0 * 8192 + e.val; omega)

/-- The bias row's entry `o` is the bias's entry `o`: both sit at row-major position `o`. -/
theorem biasRow_apply (x7 : (⟨S512, .f32⟩ : BufTy).Contents (Elt F)) (o : Fin 512) :
    biasRow (F := F) x7 (ix2 (0 : Fin 1) o) = x7 (ix1 o) := by
  unfold biasRow
  exact shapeCast_apply x7 shapeCasts_S512_S1x512 (ix2 (0 : Fin 1) o) (ix1 o)
    (by rewrite [Shape.rowMajor_val_two, Shape.rowMajor_val_one]; show o.val = 0 * 512 + o.val; omega)

/-! ## What the regions read -/

/-- After the first stretch of host operations the edge-scale row holds `esc` of the edge features and the projection. -/
theorem es_row (W : Valuation τ sig (Elt Ideal)) (e : Fin 8192) :
    (StableHlo.after hostOps0 W main_v2) (ix2 (0 : Fin 1) e) = Cert.Spec.esc (W main_arg1) (W main_arg6) e := by
  rw [after_hostOps0_v2, escRow_apply, escCol_apply]
  rfl

/-- After the second stretch of host operations the bias row holds the bias. -/
theorem bias_row (W : Valuation τ sig (Elt Ideal)) (o : Fin 512) :
    (StableHlo.after hostOps1 W main_v4) (ix2 (0 : Fin 1) o) = (W main_arg7) (ix1 o) := by
  rw [after_hostOps1_v4, biasRow_apply]

end Cert.KernelIdeal.ValueSide

end
-- ==== Proof.KI.KValue.lean ====
/-
  What the idealized kernel program leaves in its result array, at the ideal instance: the second region's output over
  the first region's, the edge-scale row and the bias row read through the host operations that lay them out, is the
  layer's output in the kernel's arrangement (`Spec.Gker`) of the launch arrays.
-/
import proofs.«121841_j73856257622121_1_alg».proof.Proof.KI.Frame
import proofs.«121841_j73856257622121_1_alg».proof.Proof.SpecRegions
import proofs.«121841_j73856257622121_1_alg».proof.Proof.KI.Value0
import proofs.«121841_j73856257622121_1_alg».proof.Proof.KI.Value1
import proofs.«121841_j73856257622121_1_alg».proof.Proof.KI.HostValues

set_option maxRecDepth 16384

noncomputable section

namespace Cert.KernelIdeal.ValueSide

open Cert.KernelIdeal Cert.KernelIdeal.Gen Cert.KernelIdeal.Hand Cert.Spec
open Cert.KernelIdeal.ValueSide0 (region0_out)
open Cert.KernelIdeal.ValueSide1 (region1_out)
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The edge-scale row the first region reads holds `esc` of the launch arrays. -/
theorem es_launch (c : Dev nD) (e : Fin 8192) :
    (Hand.V1 (F := Ideal) m c main_v2) (ix2 (0 : Fin 1) e)
      = esc (m ((c : Thread nD τ).loc main_arg1)) (m ((c : Thread nD τ).loc main_arg6)) e :=
  es_row (W0 m c) e

/-- The bias row the second region reads holds the launch bias. -/
theorem bias_launch (c : Dev nD) (o : Fin 512) :
    (Hand.V3 (F := Ideal) m c main_v4) (ix2 (0 : Fin 1) o) = (m ((c : Thread nD τ).loc main_arg7)) (ix1 o) :=
  (bias_row (W2 m c) o).trans (congrFun ((W2_of_ne m c main_arg7 (by decide)).trans ((W1_of m c main_arg7 (by decide)).trans rfl)) (ix1 o))

/-- The combined adjacency the second region reads is what the first region left, over the launch arrays. -/
theorem ca_launch (c : Dev nD) :
    Hand.V3 (F := Ideal) m c main_v3 = fun j => r0 (m ((c : Thread nD τ).loc main_arg4)) (Hand.V1 m c main_v2) (m ((c : Thread nD τ).loc main_arg3)) (j 0) (j 1) :=
  (W3_of m c main_v3 (by decide)).trans <| (W2_out m c).trans <| (region0_out (Hand.V1 m) c).trans <| by
    rw [show Hand.V1 m c main_arg4 = m ((c : Thread nD τ).loc main_arg4) from (W1_of m c main_arg4 (by decide)).trans rfl,
      show Hand.V1 m c main_arg3 = m ((c : Thread nD τ).loc main_arg3) from (W1_of m c main_arg3 (by decide)).trans rfl]

/-- THE RESULT ARRAY at the last boundary is the kernel's arrangement of the layer's output. -/
theorem out_eq (c : Dev nD) :
    W4 (F := Ideal) m c main_v5 = Gker (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) (m ((c : Thread nD τ).loc main_arg7)) := by
  rw [W4_out, region1_out (Hand.V3 m) c, ca_launch m c,
    show Hand.V3 m c main_arg0 = m ((c : Thread nD τ).loc main_arg0) from (W3_of m c main_arg0 (by decide)).trans ((W2_of_ne m c main_arg0 (by decide)).trans ((W1_of m c main_arg0 (by decide)).trans rfl)),
    show Hand.V3 m c main_arg5 = m ((c : Thread nD τ).loc main_arg5) from (W3_of m c main_arg5 (by decide)).trans ((W2_of_ne m c main_arg5 (by decide)).trans ((W1_of m c main_arg5 (by decide)).trans rfl))]
  funext i
  exact r1_r0_eq_gker _ _ _ _ _ _ _ _ _ (es_launch m c) (bias_launch m c) (i 0) (i 1)

/-- THE KERNEL'S RUN at the ideal instance: every weakly fair execution terminates with the result array at `Gker` of
    the launch arrays and every argument as launched. -/
theorem kernel_run : θ_run defs (onTc (τ := τ) (main (F := Ideal))) ⟨m, fun _ => 0, ρ⟩ (fun r => ∀ c : Dev nD,
      r.2.mem ((c.tc : Thread nD τ).loc main_v5) = Gker (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans (out_eq m c),
     (h c _ (mem_uc main_arg1 (by decide))).trans (W4_kept m c main_arg1 (by decide) (by decide) (by decide) (by decide)),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_all m ρ)

end Cert.KernelIdeal.ValueSide

end
-- ==== Proof.RefValue.lean ====
/-
  The reference's side of the graph-convolution layer, read index by index against the specification.

  The reference computes the edge scales `esc e = Σ_d He[e, d] · p[0, d]`, the product `(T · diag(esc)) · Tᵀ`, sets that
  product's diagonal to the word `1.0` by a scatter at the index pairs `(i, i)`, multiplies the outcome elementwise by
  the adjacency, and carries the product and the bare adjacency separately through `· Hv · W`; the two paths are
  weighted by the word `0.5`, added, and the bias is added to every row.

  The one step that is not a pointwise, layout or contraction operation is the scatter. It is a left fold over its 4096
  updates, each writing the same constant at the element its index pair names. Such a fold leaves the constant exactly
  where some update lands and the operand elsewhere (`scatter_const_apply`), whatever the order and whether or not
  places repeat. The index pairs are built from `iota` with the wrap-around of negative indices
  (`i < 0 ? i + 4096 : i`), which does nothing to a number below 4096, so update `k` lands at `(k, k)`
  (`resultIdx_diag`) and the scattered matrix is `m1` (`v23_read`). Every other stage is read at an index by the
  stage's own equation, and the result is `Gref` (`ref_result`).
-/
import proofs.«121841_j73856257622121_1_alg».proof.Proof.Gen.ReferenceIdeal.Read
import proofs.«121841_j73856257622121_1_alg».proof.Proof.Spec
import Idealize.ShloMosaic.Lib.Pipeline.Value
import Idealize.ShloMosaic.Lib.ValueIdx

noncomputable section

open scoped BigOperators

namespace Cert.RefSide

open Idealize.ShloMosaic Idealize.ShloMosaic.ValueIdx
open Cert.ReferenceIdeal Cert.ReferenceIdeal.Gen Cert.ReferenceIdeal.Read

open Classical in
/-- A left fold of steps that each write one constant `c` at the place `R n` names (or nowhere): an element of the result
    is `c` where some step's place is that element, and the starting value elsewhere. -/
theorem foldl_const_apply {ι κ α : Type} (R : κ → Option ι) (c : α) (F : (ι → α) → κ → (ι → α))
    (hF : ∀ r n i', F r n i' = if R n = some i' then c else r i') (l : List κ) (x : ι → α) (i' : ι) :
    l.foldl F x i' = if ∃ n ∈ l, R n = some i' then c else x i' := by
  induction l generalizing x with
  | nil => simp
  | cons a l ih =>
    rw [List.foldl_cons, ih, hF]
    by_cases h : R a = some i'
    · simp [h]
    · simp [h]

open Classical in
/-- A scatter whose body returns the update and whose updates are all one constant `c`: an element of the result is `c`
    where some update's result index is that element, and the operand's element elsewhere. -/
theorem scatter_const_apply {s si u : Shape} {w : Nat} {α : Type} (d : ScatterDims s si u) (x : s.Idx → α)
    (idx : IVec si w) (upd : u.Idx → α) (c : α) (hc : ∀ j, upd j = c) (i' : s.Idx) :
    Host.scatter d (fun _ b => b) x idx upd i' = if ∃ j : u.Idx, d.resultIdx? j idx = some i' then c else x i' := by
  unfold Host.scatter
  refine (foldl_const_apply (fun n => d.resultIdx? (u.rowMajor.symm n) idx) c _ (fun r n i' => ?_) _ x i').trans ?_
  · dsimp only
    cases hR : d.resultIdx? (u.rowMajor.symm n) idx with
    | none => simp
    | some i =>
      simp only [hc, Option.some.injEq]
      by_cases h : i' = i
      · subst h; simp
      · have h' : ¬ i = i' := fun e => h e.symm
        simp [h, h']
  · congr 1
    apply propext
    constructor
    · rintro ⟨n, _, hn⟩; exact ⟨_, hn⟩
    · rintro ⟨j, hj⟩
      exact ⟨u.rowMajor j, List.mem_finRange _, by rw [Equiv.symm_apply_apply]; exact hj⟩

/-- A number below 4096, as a 32-bit word read signed, is itself. -/
theorem toInt_ofNat_lt (k : Fin 4096) : (BitVec.ofNat 32 k.val).toInt = (k.val : Int) := by
  have hk := k.isLt
  rw [BitVec.toInt_eq_toNat_cond, BitVec.toNat_ofNat]
  have hm : k.val % 2 ^ 32 = k.val := Nat.mod_eq_of_lt (by omega)
  rw [hm, if_pos (by omega)]

/-- The wrap-around of a negative index (`i < 0 ? i + 4096 : i`) leaves a number below 4096 as it is. -/
theorem select_wrap (k : Fin 4096) :
    Scalar.select (IntOp.cmpi .slt (BitVec.ofNat 32 k.val) 0#32) (IntOp.addi (BitVec.ofNat 32 k.val) 4096#32)
      (BitVec.ofNat 32 k.val) = BitVec.ofNat 32 k.val := by
  have h : IntOp.cmpi .slt (BitVec.ofNat 32 k.val) 0#32 = 0#1 := by
    have hs : (BitVec.ofNat 32 k.val).slt 0#32 = false := by
      simp [BitVec.slt, toInt_ofNat_lt]
    simp [IntOp.cmpi, hs]
  rw [h, select_zero]

/-- Entry `k` of the first index column is the word `k`. -/
theorem v13_read (k : Fin 4096) : val_main_v13 (F := Ideal) (ix1 k) = BitVec.ofNat 32 k.val := by
  rw [val_main_v13_apply, val_main_v10_apply, val_main_v12_apply, val_main_v8_apply, val_main_v9_apply,
    val_main_v11_apply, val_main_c_apply, val_main_c_0_apply]
  exact select_wrap k

/-- Entry `k` of the second index column is the word `k`. -/
theorem v18_read (k : Fin 4096) : val_main_v18 (F := Ideal) (ix1 k) = BitVec.ofNat 32 k.val := by
  rw [val_main_v18_apply, val_main_v15_apply, val_main_v17_apply, val_main_v8_apply, val_main_v14_apply,
    val_main_v16_apply, val_main_c_1_apply, val_main_c_2_apply]
  exact select_wrap k

/-- Row `k` of the scatter indices is the pair `(k, k)`. -/
theorem v21_read (k : Fin 4096) (c : Fin 2) : val_main_v21 (F := Ideal) (ix2 k c) = BitVec.ofNat 32 k.val := by
  have e19 : idx_main_v19 (ix2 k (0 : Fin 1)) = ix1 k := funext fun a => Fin.ext (by match a with | ⟨0, _⟩ => rfl)
  have e20 : idx_main_v20 (ix2 k (0 : Fin 1)) = ix1 k := funext fun a => Fin.ext (by match a with | ⟨0, _⟩ => rfl)
  unfold val_main_v21
  match c with
  | ⟨0, _⟩ =>
    rw [concatenate_pair_apply_left (1 : Fin S4096x2.rank) (val_main_v19 (F := Ideal)) (val_main_v20 (F := Ideal))
      concatenates_S4096x1_S4096x1_S4096x2_d1 _ rfl (ix2 k (0 : Fin 1))
      (fun b => by match b with | ⟨0, _⟩ => rfl | ⟨1, _⟩ => rfl)]
    rw [val_main_v19_apply, e19, v13_read]
  | ⟨1, _⟩ =>
    rw [concatenate_pair_apply_right (1 : Fin S4096x2.rank) (val_main_v19 (F := Ideal)) (val_main_v20 (F := Ideal))
      concatenates_S4096x1_S4096x1_S4096x2_d1 _ rfl rfl (ix2 k (0 : Fin 1))
      (fun b hb => by match b with | ⟨0, _⟩ => rfl | ⟨1, _⟩ => exact absurd rfl hb) rfl]
    rw [val_main_v20_apply, e20, v18_read]

/-- The scatter indices' entry that update `k` reads for component `c` of its start index is entry `(k, c)`. -/
theorem siIdx_read (k : Fin 4096) (c : Fin scatter_S4096x4096_S4096x2_S4096_n_01_01_1.scatterDimsToOperandDims.length) :
    scatter_S4096x4096_S4096x2_S4096_n_01_01_1.siIdx (ix1 k) c = ix2 k (⟨c.val, c.isLt⟩ : Fin 2) :=
  funext fun b => Fin.ext (by match b with | ⟨0, _⟩ => rfl | ⟨1, _⟩ => rfl)

/-- Update `k`'s window starts at `k` on both axes of the operand. -/
theorem start_read (k : Fin 4096) (a : Fin 2) :
    scatter_S4096x4096_S4096x2_S4096_n_01_01_1.start (ix1 k) (val_main_v21 (F := Ideal)) a = (k.val : Int) := by
  have ha : ∀ b : Fin 2, b ∈ scatter_S4096x4096_S4096x2_S4096_n_01_01_1.scatterDimsToOperandDims := by decide
  unfold ScatterDims.start
  rw [dif_pos (ha a), siIdx_read, v21_read, toInt_ofNat_lt]

/-- Both axes of the operand are inserted: the window coordinate is zero. -/
theorem window_read (k : Fin 4096) (a : Fin 2) :
    scatter_S4096x4096_S4096x2_S4096_n_01_01_1.window (ix1 k) a = 0 := by
  have ha : ∀ b : Fin 2, ¬ b ∈ scatter_S4096x4096_S4096x2_S4096_n_01_01_1.sKept := by decide
  unfold ScatterDims.window
  rw [dif_neg (ha a)]

/-- Update `k` of the diagonal scatter lands on the diagonal element `(k, k)`. -/
theorem resultIdx_diag (k : Fin 4096) :
    scatter_S4096x4096_S4096x2_S4096_n_01_01_1.resultIdx? (ix1 k) (val_main_v21 (F := Ideal)) = some (ix2 k k) := by
  have hk := k.isLt
  unfold ScatterDims.resultIdx?
  rw [dif_pos (fun a => by
    rw [start_read, window_read]
    match a with
    | ⟨0, _⟩ => exact ⟨by omega, by show (k.val : Int) + (0 : Nat) < (4096 : Nat); omega⟩
    | ⟨1, _⟩ => exact ⟨by omega, by show (k.val : Int) + (0 : Nat) < (4096 : Nat); omega⟩)]
  congr 1
  funext a
  apply Fin.ext
  show ((scatter_S4096x4096_S4096x2_S4096_n_01_01_1.start (ix1 k) (val_main_v21 (F := Ideal)) a
    + (scatter_S4096x4096_S4096x2_S4096_n_01_01_1.window (ix1 k) a : Nat)).toNat) = (ix2 k k a).val
  rw [start_read, window_read]
  match a with
  | ⟨0, _⟩ => show ((k.val : Int) + (0 : Nat)).toNat = k.val; omega
  | ⟨1, _⟩ => show ((k.val : Int) + (0 : Nat)).toNat = k.val; omega

/-- Every row of the broadcast edge-scale array is the edge scale: `Σ_d He[e, d] · p[0, d]`. -/
theorem v4_read (x1 : (⟨S8192x128, .f32⟩ : BufTy).Contents (Elt Ideal)) (x6 : (⟨S1x128, .f32⟩ : BufTy).Contents (Elt Ideal)) (n : Fin 4096) (e : Fin 8192) :
    val_main_v4 (F := Ideal) x1 x6 (ix2 n e) = Cert.Spec.esc x1 x6 e := by
  rw [val_main_v4_apply, val_main_v3_apply, val_main_v2_apply, val_main_v1_apply]
  unfold Cert.Spec.esc
  refine Finset.sum_congr rfl fun k _ => ?_
  have hl : lidx_main_v1 (idx_main_v2 (idx_main_v3 (idx_main_v4 (ix2 n e)))) k = ix2 e k :=
    funext fun a => Fin.ext (by match a with | ⟨0, _⟩ => exact Nat.div_one _ | ⟨1, _⟩ => rfl)
  have hr : idx_main_v0 (ridx_main_v1 (idx_main_v2 (idx_main_v3 (idx_main_v4 (ix2 n e)))) k) = ix2 (0 : Fin 1) k :=
    funext fun a => Fin.ext (by match a with | ⟨0, _⟩ => rfl | ⟨1, _⟩ => rfl)
  rw [val_main_v0_apply, hl, hr]

/-- The product `(T · diag(esc)) · Tᵀ` at `(n, n')`. -/
theorem v7_read (x1 : (⟨S8192x128, .f32⟩ : BufTy).Contents (Elt Ideal)) (x4 : (⟨S4096x8192, .f32⟩ : BufTy).Contents (Elt Ideal)) (x6 : (⟨S1x128, .f32⟩ : BufTy).Contents (Elt Ideal)) (n n' : Fin 4096) :
    val_main_v7 (F := Ideal) x1 x4 x6 (ix2 n n')
      = ∑ e : Fin 8192, (x4 (ix2 n e) * Cert.Spec.esc x1 x6 e) * x4 (ix2 n' e) := by
  rw [val_main_v7_apply]
  refine Finset.sum_congr rfl fun e _ => ?_
  have hl : lidx_main_v7 (ix2 n n') e = ix2 n e := funext fun a => Fin.ext (by match a with | ⟨0, _⟩ => rfl | ⟨1, _⟩ => rfl)
  have hr : idx_main_v6 (ridx_main_v7 (ix2 n n') e) = ix2 n' e := funext fun a => Fin.ext (by match a with | ⟨0, _⟩ => rfl | ⟨1, _⟩ => rfl)
  rw [val_main_v5_apply, val_main_v6_apply, hl, hr, v4_read]
  rfl

/-- Every update of the diagonal scatter is the word `1.0`. -/
theorem v22_read (j : S4096.Idx) : val_main_v22 (F := Ideal) j = Cert.Spec.one := by
  rw [val_main_v22_apply, val_main_cst_apply]
  rfl

/-- The scattered matrix is `m1`: `one` on the diagonal, the product off it. -/
theorem v23_read (x1 : (⟨S8192x128, .f32⟩ : BufTy).Contents (Elt Ideal)) (x4 : (⟨S4096x8192, .f32⟩ : BufTy).Contents (Elt Ideal)) (x6 : (⟨S1x128, .f32⟩ : BufTy).Contents (Elt Ideal)) (n n' : Fin 4096) :
    val_main_v23 (F := Ideal) x1 x4 x6 (ix2 n n') = Cert.Spec.m1 x1 x4 x6 n n' := by
  unfold val_main_v23 Cert.Spec.m1
  rw [scatter_const_apply _ _ _ _ Cert.Spec.one v22_read]
  by_cases h : n = n'
  · subst h
    rw [if_pos ⟨ix1 n, resultIdx_diag n⟩, if_pos rfl]
  · rw [if_neg, if_neg h, v7_read]
    rintro ⟨j, hj⟩
    obtain ⟨k, rfl⟩ : ∃ k : Fin 4096, j = ix1 k := ⟨j 0, eq_ix1 j⟩
    rw [resultIdx_diag] at hj
    have hh := Option.some.inj hj
    have h0 : k = n := congrFun hh 0
    have h1 : k = n' := congrFun hh 1
    exact h (h0.symm.trans h1)

/-- The first propagation path's node mixing: `(m1 ∘ adj) · Hv` at `(n, v)`. -/
theorem v25_read (x0 : (⟨S4096x512, .f32⟩ : BufTy).Contents (Elt Ideal)) (x1 : (⟨S8192x128, .f32⟩ : BufTy).Contents (Elt Ideal)) (x3 : (⟨S4096x4096, .f32⟩ : BufTy).Contents (Elt Ideal)) (x4 : (⟨S4096x8192, .f32⟩ : BufTy).Contents (Elt Ideal)) (x6 : (⟨S1x128, .f32⟩ : BufTy).Contents (Elt Ideal)) (n : Fin 4096) (v : Fin 512) :
    val_main_v25 (F := Ideal) x0 x1 x3 x4 x6 (ix2 n v)
      = ∑ n' : Fin 4096, (Cert.Spec.m1 x1 x4 x6 n n' * x3 (ix2 n n')) * x0 (ix2 n' v) := by
  rw [val_main_v25_apply]
  refine Finset.sum_congr rfl fun n' _ => ?_
  have hl : lidx_main_v25 (ix2 n v) n' = ix2 n n' := funext fun a => Fin.ext (by match a with | ⟨0, _⟩ => rfl | ⟨1, _⟩ => rfl)
  have hr : ridx_main_v25 (ix2 n v) n' = ix2 n' v := funext fun a => Fin.ext (by match a with | ⟨0, _⟩ => rfl | ⟨1, _⟩ => rfl)
  rw [hl, hr, val_main_v24_apply, v23_read]
  rfl

/-- The first path against the weight, at `(n, o)`. -/
theorem v26_read (x0 : (⟨S4096x512, .f32⟩ : BufTy).Contents (Elt Ideal)) (x1 : (⟨S8192x128, .f32⟩ : BufTy).Contents (Elt Ideal)) (x3 : (⟨S4096x4096, .f32⟩ : BufTy).Contents (Elt Ideal)) (x4 : (⟨S4096x8192, .f32⟩ : BufTy).Contents (Elt Ideal)) (x5 : (⟨S512x512, .f32⟩ : BufTy).Contents (Elt Ideal)) (x6 : (⟨S1x128, .f32⟩ : BufTy).Contents (Elt Ideal)) (n : Fin 4096) (o : Fin 512) :
    val_main_v26 (F := Ideal) x0 x1 x3 x4 x5 x6 (ix2 n o)
      = ∑ v : Fin 512, (∑ n' : Fin 4096, (Cert.Spec.m1 x1 x4 x6 n n' * x3 (ix2 n n')) * x0 (ix2 n' v)) * x5 (ix2 v o) := by
  rw [val_main_v26_apply]
  refine Finset.sum_congr rfl fun v _ => ?_
  have hl : lidx_main_v26 (ix2 n o) v = ix2 n v := funext fun a => Fin.ext (by match a with | ⟨0, _⟩ => rfl | ⟨1, _⟩ => rfl)
  have hr : ridx_main_v26 (ix2 n o) v = ix2 v o := funext fun a => Fin.ext (by match a with | ⟨0, _⟩ => rfl | ⟨1, _⟩ => rfl)
  rw [hl, hr, v25_read]

/-- The second path's node mixing: `adj · Hv` at `(n, v)`. -/
theorem v27_read (x0 : (⟨S4096x512, .f32⟩ : BufTy).Contents (Elt Ideal)) (x3 : (⟨S4096x4096, .f32⟩ : BufTy).Contents (Elt Ideal)) (n : Fin 4096) (v : Fin 512) :
    val_main_v27 (F := Ideal) x0 x3 (ix2 n v) = ∑ n' : Fin 4096, x3 (ix2 n n') * x0 (ix2 n' v) := by
  rw [val_main_v27_apply]
  refine Finset.sum_congr rfl fun n' _ => ?_
  have hl : lidx_main_v27 (ix2 n v) n' = ix2 n n' := funext fun a => Fin.ext (by match a with | ⟨0, _⟩ => rfl | ⟨1, _⟩ => rfl)
  have hr : ridx_main_v27 (ix2 n v) n' = ix2 n' v := funext fun a => Fin.ext (by match a with | ⟨0, _⟩ => rfl | ⟨1, _⟩ => rfl)
  rw [hl, hr]

/-- The second path against the weight, at `(n, o)`. -/
theorem v28_read (x0 : (⟨S4096x512, .f32⟩ : BufTy).Contents (Elt Ideal)) (x3 : (⟨S4096x4096, .f32⟩ : BufTy).Contents (Elt Ideal)) (x5 : (⟨S512x512, .f32⟩ : BufTy).Contents (Elt Ideal)) (n : Fin 4096) (o : Fin 512) :
    val_main_v28 (F := Ideal) x0 x3 x5 (ix2 n o)
      = ∑ v : Fin 512, (∑ n' : Fin 4096, x3 (ix2 n n') * x0 (ix2 n' v)) * x5 (ix2 v o) := by
  rw [val_main_v28_apply]
  refine Finset.sum_congr rfl fun v _ => ?_
  have hl : lidx_main_v28 (ix2 n o) v = ix2 n v := funext fun a => Fin.ext (by match a with | ⟨0, _⟩ => rfl | ⟨1, _⟩ => rfl)
  have hr : ridx_main_v28 (ix2 n o) v = ix2 v o := funext fun a => Fin.ext (by match a with | ⟨0, _⟩ => rfl | ⟨1, _⟩ => rfl)
  rw [hl, hr, v27_read]

/-- The first path's weight is the word `0.5` everywhere. -/
theorem v29_read (i : S4096x512.Idx) : val_main_v29 (F := Ideal) i = Cert.Spec.half := by
  rw [val_main_v29_apply, val_main_cst_3_apply]
  rfl

/-- The second path's weight is the word `0.5` everywhere. -/
theorem v31_read (i : S4096x512.Idx) : val_main_v31 (F := Ideal) i = Cert.Spec.half := by
  rw [val_main_v31_apply, val_main_cst_4_apply]
  rfl

/-- The bias broadcast down the rows reads the bias at the output feature. -/
theorem v35_read (x7 : (⟨S512, .f32⟩ : BufTy).Contents (Elt Ideal)) (n : Fin 4096) (o : Fin 512) : val_main_v35 (F := Ideal) x7 (ix2 n o) = x7 (ix1 o) := by
  have hi : idx_main_v34 (idx_main_v35 (ix2 n o)) = ix1 o := funext fun a => Fin.ext (by match a with | ⟨0, _⟩ => rfl)
  rw [val_main_v35_apply, val_main_v34_apply, hi]

/-- The reference's result array is the specification's `Gref`: the two propagation paths computed apart, each
    against the weight, averaged with the word `0.5`, plus the bias. -/
theorem ref_result (x0 : (⟨S4096x512, .f32⟩ : BufTy).Contents (Elt Ideal)) (x1 : (⟨S8192x128, .f32⟩ : BufTy).Contents (Elt Ideal)) (x3 : (⟨S4096x4096, .f32⟩ : BufTy).Contents (Elt Ideal)) (x4 : (⟨S4096x8192, .f32⟩ : BufTy).Contents (Elt Ideal)) (x5 : (⟨S512x512, .f32⟩ : BufTy).Contents (Elt Ideal)) (x6 : (⟨S1x128, .f32⟩ : BufTy).Contents (Elt Ideal)) (x7 : (⟨S512, .f32⟩ : BufTy).Contents (Elt Ideal)) :
    Cert.ReferenceIdeal.Read.val_main_v36 (F := Ideal) x0 x1 x3 x4 x5 x6 x7 = Cert.Spec.Gref x0 x1 x3 x4 x5 x6 x7 := by
  funext i
  obtain ⟨n, o, rfl⟩ : ∃ (n : Fin 4096) (o : Fin 512), i = ix2 n o := ⟨i 0, i 1, eq_ix2 i⟩
  rw [val_main_v36_apply, val_main_v33_apply, val_main_v30_apply, val_main_v32_apply, v26_read, v28_read, v29_read,
    v31_read, v35_read]
  rfl

end Cert.RefSide

end
-- ==== Proof.Algebra.lean ====
/-
  The kernel's arrangement of the graph-convolution layer equals the reference's, index by index.

  On the extended reals multiplication does not distribute over addition once an infinity is present, so the
  argument goes through the real numbers. Every entry of every argument array is the coercion of a real; hence so
  are the edge scales, the matrix `m1`, and every sum on either side (coercion commutes with finite sums and with
  products). The constants `one` and `half` are coercions of reals too. Between reals the two arrangements agree by
  distributivity:
    Σ_v (Σ_n' (a n' · (h · M n' + h)) · H n' v) · W v + b
      = (Σ_v (Σ_n' (M n' · a n') · H n' v) · W v) · h + (Σ_v (Σ_n' a n' · H n' v) · W v) · h + b.
-/
import proofs.«121841_j73856257622121_1_alg».proof.Proof.Spec
import Mathlib.Data.EReal.Basic
import Mathlib.Algebra.BigOperators.Ring.Finset
import Mathlib.Tactic.Ring
import Mathlib.Tactic.Choose

noncomputable section

open scoped BigOperators

namespace Cert.Spec

open Idealize.ShloMosaic Idealize.ShloMosaic.ValueIdx

/-! ### Coercion from the reals commutes with finite sums -/

/-- The coercion `ℝ → EReal` is additive, so it commutes with a finite sum. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_coe_mul {ι : Type*} [Fintype ι] (x y : ι → EReal) (f g : ι → ℝ)
    (hx : ∀ i, x i = (f i : EReal)) (hy : ∀ i, y i = (g i : EReal)) :
    ∑ i, x i * y i = ((∑ i, f i * g i : ℝ) : EReal) := by
  rw [coe_finsum]
  exact Finset.sum_congr rfl fun i _ => by rw [hx, hy, EReal.coe_mul]

/-! ### The identity between real numbers, over abstract finite index types -/

/-- Distributivity, under the inner sum: the folded matrix splits into its two paths. -/
theorem real_inner {ι : Type*} [Fintype ι] (a M x : ι → ℝ) (h : ℝ) :
    ∑ i, (a i * (h * M i + h)) * x i = (∑ i, (M i * a i) * x i) * h + (∑ i, a i * x i) * h := by
  rw [Finset.sum_mul, Finset.sum_mul, ← Finset.sum_add_distrib]
  exact Finset.sum_congr rfl fun i _ => by ring

/-- The two arrangements of the layer agree between real numbers. -/
theorem real_layer {ι κ : Type*} [Fintype ι] [Fintype κ] (a M : ι → ℝ) (H : ι → κ → ℝ) (W : κ → ℝ) (h b : ℝ) :
    (∑ v, (∑ i, (a i * (h * M i + h)) * H i v) * W v) + b
      = ((∑ v, (∑ i, (M i * a i) * H i v) * W v) * h + (∑ v, (∑ i, a i * H i v) * W v) * h) + b := by
  congr 1
  rw [Finset.sum_mul, Finset.sum_mul, ← Finset.sum_add_distrib]
  refine Finset.sum_congr rfl fun v _ => ?_
  rw [real_inner]
  ring

/-! ### The two constants are real -/

/-- The word `1.0` denotes a real number. -/
theorem one_real : ∃ r : ℝ, one = (r : EReal) :=
  ⟨1, by unfold one; simp [Ideal.ofBits, Ideal.ieee, -EReal.coe_mul]; norm_num⟩

/-- The word `0.5` denotes a real number. -/
theorem half_real : ∃ r : ℝ, half = (r : EReal) :=
  ⟨1 / 2, by unfold half; simp [Ideal.ofBits, Ideal.ieee, -EReal.coe_mul]; norm_num⟩

/-! ### Real counterparts of the specification, and the coercions onto them -/

/-- The edge scale, between reals. -/
def rEsc (He : SHe.Idx → ℝ) (p : SP.Idx → ℝ) (e : Fin 8192) : ℝ :=
  ∑ d : Fin 128, He (ix2 e d) * p (ix2 (0 : Fin 1) d)

/-- `T · diag(esc) · Tᵀ` with its diagonal set to `r1`, between reals. -/
def rM1 (r1 : ℝ) (He : SHe.Idx → ℝ) (T : ST.Idx → ℝ) (p : SP.Idx → ℝ) (n n' : Fin 4096) : ℝ :=
  if n = n' then r1 else ∑ e : Fin 8192, (T (ix2 n e) * rEsc He p e) * T (ix2 n' e)

/-- With real entries the edge scale is the coercion of the real edge scale. -/
theorem esc_coe (He : FVec Ideal SHe .f32) (p : FVec Ideal SP .f32) (rHe : SHe.Idx → ℝ) (rp : SP.Idx → ℝ)
    (hHe : ∀ i, He i = (rHe i : EReal)) (hp : ∀ i, p i = (rp i : EReal)) (e : Fin 8192) :
    esc He p e = (rEsc rHe rp e : EReal) := by
  unfold esc rEsc
  exact sum_coe_mul _ _ _ _ (fun d => hHe (ix2 e d)) (fun d => hp (ix2 (0 : Fin 1) d))

/-- With real entries `m1` is the coercion of its real counterpart. -/
theorem m1_coe (He : FVec Ideal SHe .f32) (T : FVec Ideal ST .f32) (p : FVec Ideal SP .f32)
    (rHe : SHe.Idx → ℝ) (rT : ST.Idx → ℝ) (rp : SP.Idx → ℝ) (r1 : ℝ)
    (hHe : ∀ i, He i = (rHe i : EReal)) (hT : ∀ i, T i = (rT i : EReal)) (hp : ∀ i, p i = (rp i : EReal))
    (h1 : one = (r1 : EReal)) (n n' : Fin 4096) :
    m1 He T p n n' = (rM1 r1 rHe rT rp n n' : EReal) := by
  unfold m1 rM1
  by_cases hn : n = n'
  · rw [if_pos hn, if_pos hn, h1]
  · rw [if_neg hn, if_neg hn]
    refine sum_coe_mul _ _ _ _ (fun e => ?_) (fun e => hT (ix2 n' e))
    rw [hT, esc_coe He p rHe rp hHe hp, EReal.coe_mul]

/-- With real entries the kernel's arrangement is the coercion of a real expression. -/
theorem gker_coe (Hv : FVec Ideal SHv .f32) (He : FVec Ideal SHe .f32) (adj : FVec Ideal SAdj .f32)
    (T : FVec Ideal ST .f32) (W : FVec Ideal SW .f32) (p : FVec Ideal SP .f32) (b : FVec Ideal SB .f32)
    (rHv : SHv.Idx → ℝ) (rHe : SHe.Idx → ℝ) (radj : SAdj.Idx → ℝ) (rT : ST.Idx → ℝ) (rW : SW.Idx → ℝ)
    (rp : SP.Idx → ℝ) (rb : SB.Idx → ℝ) (r1 h : ℝ)
    (hHv : ∀ i, Hv i = (rHv i : EReal)) (hHe : ∀ i, He i = (rHe i : EReal)) (hadj : ∀ i, adj i = (radj i : EReal))
    (hT : ∀ i, T i = (rT i : EReal)) (hW : ∀ i, W i = (rW i : EReal)) (hp : ∀ i, p i = (rp i : EReal))
    (hb : ∀ i, b i = (rb i : EReal)) (h1 : one = (r1 : EReal)) (hh : half = (h : EReal))
    (n : Fin 4096) (o : Fin 512) :
    gker Hv He adj T W p b n o
      = (((∑ v : Fin 512, (∑ n' : Fin 4096,
            (radj (ix2 n n') * (h * rM1 r1 rHe rT rp n n' + h)) * rHv (ix2 n' v)) * rW (ix2 v o))
          + rb (ix1 o) : ℝ) : EReal) := by
  unfold gker comb
  rw [EReal.coe_add, hb]
  congr 1
  refine sum_coe_mul _ _ _ _ (fun v => ?_) (fun v => hW (ix2 v o))
  refine sum_coe_mul _ _ _ _ (fun n' => ?_) (fun n' => hHv (ix2 n' v))
  rw [hadj, hh, m1_coe He T p rHe rT rp r1 hHe hT hp h1, ← EReal.coe_mul, ← EReal.coe_add, ← EReal.coe_mul]

/-- With real entries the reference's arrangement is the coercion of a real expression. -/
theorem gref_coe (Hv : FVec Ideal SHv .f32) (He : FVec Ideal SHe .f32) (adj : FVec Ideal SAdj .f32)
    (T : FVec Ideal ST .f32) (W : FVec Ideal SW .f32) (p : FVec Ideal SP .f32) (b : FVec Ideal SB .f32)
    (rHv : SHv.Idx → ℝ) (rHe : SHe.Idx → ℝ) (radj : SAdj.Idx → ℝ) (rT : ST.Idx → ℝ) (rW : SW.Idx → ℝ)
    (rp : SP.Idx → ℝ) (rb : SB.Idx → ℝ) (r1 h : ℝ)
    (hHv : ∀ i, Hv i = (rHv i : EReal)) (hHe : ∀ i, He i = (rHe i : EReal)) (hadj : ∀ i, adj i = (radj i : EReal))
    (hT : ∀ i, T i = (rT i : EReal)) (hW : ∀ i, W i = (rW i : EReal)) (hp : ∀ i, p i = (rp i : EReal))
    (hb : ∀ i, b i = (rb i : EReal)) (h1 : one = (r1 : EReal)) (hh : half = (h : EReal))
    (n : Fin 4096) (o : Fin 512) :
    gref Hv He adj T W p b n o
      = ((((∑ v : Fin 512, (∑ n' : Fin 4096,
              (rM1 r1 rHe rT rp n n' * radj (ix2 n n')) * rHv (ix2 n' v)) * rW (ix2 v o)) * h
            + (∑ v : Fin 512, (∑ n' : Fin 4096, radj (ix2 n n') * rHv (ix2 n' v)) * rW (ix2 v o)) * h)
          + rb (ix1 o) : ℝ) : EReal) := by
  unfold gref
  rw [EReal.coe_add, EReal.coe_add, EReal.coe_mul, EReal.coe_mul, hb, hh]
  congr 2
  · congr 1
    refine sum_coe_mul _ _ _ _ (fun v => ?_) (fun v => hW (ix2 v o))
    refine sum_coe_mul _ _ _ _ (fun n' => ?_) (fun n' => hHv (ix2 n' v))
    rw [hadj, m1_coe He T p rHe rT rp r1 hHe hT hp h1, ← EReal.coe_mul]
  · congr 1
    refine sum_coe_mul _ _ _ _ (fun v => ?_) (fun v => hW (ix2 v o))
    exact sum_coe_mul _ _ _ _ (fun n' => hadj (ix2 n n')) (fun n' => hHv (ix2 n' v))

/-! ### The two arrangements agree -/

/-- The kernel's folded arrangement and the reference's two-path arrangement are the same array, every entry of
    every argument being a real number. -/
theorem Gker_eq_Gref (Hv : FVec Ideal SHv .f32) (He : FVec Ideal SHe .f32) (adj : FVec Ideal SAdj .f32) (T : FVec Ideal ST .f32) (W : FVec Ideal SW .f32) (p : FVec Ideal SP .f32) (b : FVec Ideal SB .f32)
    (hHv : ∀ i, ∃ r : ℝ, Hv i = (r : EReal)) (hHe : ∀ i, ∃ r : ℝ, He i = (r : EReal)) (hadj : ∀ i, ∃ r : ℝ, adj i = (r : EReal)) (hT : ∀ i, ∃ r : ℝ, T i = (r : EReal)) (hW : ∀ i, ∃ r : ℝ, W i = (r : EReal)) (hp : ∀ i, ∃ r : ℝ, p i = (r : EReal)) (hb : ∀ i, ∃ r : ℝ, b i = (r : EReal)) :
    Gker Hv He adj T W p b = Gref Hv He adj T W p b := by
  choose rHv hrHv using hHv
  choose rHe hrHe using hHe
  choose radj hradj using hadj
  choose rT hrT using hT
  choose rW hrW using hW
  choose rp hrp using hp
  choose rb hrb using hb
  obtain ⟨r1, h1⟩ := one_real
  obtain ⟨h, hh⟩ := half_real
  funext i
  have hk := gker_coe Hv He adj T W p b rHv rHe radj rT rW rp rb r1 h hrHv hrHe hradj hrT hrW hrp hrb h1 hh
    (i 0) (i 1)
  have hr := gref_coe Hv He adj T W p b rHv rHe radj rT rW rp rb r1 h hrHv hrHe hradj hrT hrW hrp hrb h1 hh
    (i 0) (i 1)
  have hreal := real_layer (fun n' : Fin 4096 => radj (ix2 (i 0) n'))
    (fun n' : Fin 4096 => rM1 r1 rHe rT rp (i 0) n') (fun (n' : Fin 4096) (v : Fin 512) => rHv (ix2 n' v))
    (fun v : Fin 512 => rW (ix2 v (i 1))) h (rb (ix1 (i 1)))
  exact hk.trans ((congrArg (fun x : ℝ => (x : EReal)) hreal).trans hr.symm)

end Cert.Spec

end
-- ==== Proof.Finite.lean ====
import proofs.«121841_j73856257622121_1_alg».proof.Pre_finite_inputs
import Idealize.ShloMosaic.Lib.ReduceAll
import Idealize.ShloMosaic.Lib.ValueIdx
import Idealize.ShloMosaic.PureOps.Ideal
import Mathlib.Data.EReal.Basic

/-!
# Finite inputs are real

The precondition is the conjunction, over the eight float inputs, of `all (|x| < +∞)`: for each input the
absolute value is compared (strictly below) with the broadcast of the word `0x7F800000`, the one-bit array is
folded by `and` to a scalar, and the eight scalars are and-ed together. At the extended reals the word
`0x7F800000` denotes `⊤`, `|x|` is `max x (-x)`, and `max x (-x) < ⊤` excludes both `x = ⊤` and `x = ⊥`; what
is left of `[-∞, +∞]` is a real number. So if the precondition holds, every entry of every input is a real.
-/

noncomputable section

namespace Cert.FiniteInputs

open Idealize.ShloMosaic Idealize.ShloMosaic.ValueIdx
open Cert.Pre_finite_inputs

/-- The scalar shape has exactly one index. -/
instance subsingleton_scalar_idx : Subsingleton S_.Idx := ⟨fun a b => funext fun d => d.elim0⟩

/-- The word `0x7F800000` (sign 0, exponent all ones, fraction 0) denotes `+∞`. -/
theorem ofBits_pos_inf : Ideal.ofBits .f32 0x7F800000#32 = (⊤ : EReal) := by
  simp [Ideal.ofBits, Ideal.ieee]

/-- An extended real whose absolute value `max x (-x)` is strictly below `⊤` is a real number:
    `x = ⊤` gives `max ⊤ ⊥ = ⊤`, and `x = ⊥` gives `max ⊥ ⊤ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the one-bit word of `|x| < +∞` being 1 says `x` is real. -/
theorem real_of_cmp (x : Ideal .f32)
    (h : FloatOps.cmpf (F := Ideal) (φ := .f32) .olt (FloatOps.hostAbsf x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_pos_inf] at h'
  refine real_of_abs_lt_top x ?_
  by_contra hn
  simp [Ideal.cmp, hn] at h'

/-- One input, any shape: if the fold by `and` of `|x| < +∞` over all of `x` is 1 then every entry of `x` is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) :=
  real_of_cmp (x i) (Host.reduce_andi_all _ _ hr hu ix0 e i)

/-- The precondition at the extended reals gives: every entry of every input (the third, which no program reads,
    is left out) is a real number. The precondition's value at the scalar index is the and of eight one-bit
    words, one per input; each is 1, and each is that input's fold of `|x| < +∞`. -/
theorem real_of_pre [Cert.Pre_finite_inputs.Facts]
    (a0 : FVec Ideal Cert.Pre_finite_inputs.S4096x512 .f32) (a1 : FVec Ideal Cert.Pre_finite_inputs.S8192x128 .f32)
    (a2 : FVec Ideal Cert.Pre_finite_inputs.S8192x8192 .f32) (a3 : FVec Ideal Cert.Pre_finite_inputs.S4096x4096 .f32)
    (a4 : FVec Ideal Cert.Pre_finite_inputs.S4096x8192 .f32) (a5 : FVec Ideal Cert.Pre_finite_inputs.S512x512 .f32)
    (a6 : FVec Ideal Cert.Pre_finite_inputs.S1x128 .f32) (a7 : FVec Ideal Cert.Pre_finite_inputs.S512 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have h0 := congrFun h ix0
  dsimp only [fn, fn_part1, fn_part2, andi] at h0
  simp only [IntOp.andi_eq_one] at h0
  obtain ⟨⟨⟨⟨⟨⟨⟨e0, e1⟩, _⟩, e3⟩, e4⟩, e5⟩, e6⟩, e7⟩ := h0
  exact ⟨real_of_all a0 _ _ _ e0, real_of_all a1 _ _ _ e1, real_of_all a3 _ _ _ e3, real_of_all a4 _ _ _ e4,
    real_of_all a5 _ _ _ e5, real_of_all a6 _ _ _ e6, real_of_all a7 _ _ _ e7⟩

end Cert.FiniteInputs

end
-- ==== Proof.lean ====
/-
  The certificate of the graph-convolution layer: a two-region Pallas program against its jnp reference, over the
  extended reals.

  The kernel folds the reference's two propagation paths into one matrix before the big products,
  `adj · (½ · M1 + ½)` with `M1 = T · diag(H_e pᵀ) · Tᵀ` and its diagonal set to one, then computes
  `(combined @ H_v) @ W + b`; the reference computes `((M1 · adj) @ H_v @ W) · ½ + (adj @ H_v @ W) · ½ + b`. The two
  agree by linearity of the sums, which on the extended reals holds where every entry is a real number: the
  precondition, every float input finite, is what the algebraic claim uses.

  * The three frames. Each kernel program's run is the launch of its two regions over the thread state "every unscoped
    buffer at the boundary's contents" (the accumulator each region keeps in scratch memory carried from grid point to
    grid point by the region's invariant; the incidence matrix, which the first region reads through two windows, held
    by halves of its share); no host operation and no region writes an argument. The reference is a host program: its
    run with the results dropped.
  * `preserves`: the ideal pass rewrote nothing, so the claim is `True`.
  * `algebraic`: at the ideal instance the kernel's result array is `Spec.Gker` of the arguments (the second region's
    output over the first's, each a grid accumulation regrouped into one flat sum), the reference's is `Spec.Gref`
    (its operations read one at a time, the diagonal scatter by hand), and `Gker = Gref` on finite inputs.
-/
import proofs.«121841_j73856257622121_1_alg».proof.Defs
import proofs.«121841_j73856257622121_1_alg».proof.Proof.Gen.Kernel
import proofs.«121841_j73856257622121_1_alg».proof.Proof.Gen.KernelIdeal
import proofs.«121841_j73856257622121_1_alg».proof.Proof.Gen.ReferenceIdeal
import proofs.«121841_j73856257622121_1_alg».proof.Proof.Gen.Pre_finite_inputs
import proofs.«121841_j73856257622121_1_alg».proof.Proof.Gen.ReferenceIdeal.Run
import proofs.«121841_j73856257622121_1_alg».proof.Proof.Gen.ReferenceIdeal.Read
import proofs.«121841_j73856257622121_1_alg».proof.Proof.K.Frame
import proofs.«121841_j73856257622121_1_alg».proof.Proof.KI.Frame
import proofs.«121841_j73856257622121_1_alg».proof.Proof.KI.KValue
import proofs.«121841_j73856257622121_1_alg».proof.Proof.RefValue
import proofs.«121841_j73856257622121_1_alg».proof.Proof.Algebra
import proofs.«121841_j73856257622121_1_alg».proof.Proof.Finite
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel program runs and leaves its arguments unchanged. -/
theorem frame_k : Cert.frame_Kernel := fun m ρ _ => Cert.Kernel.Hand.frame m ρ

/-- The idealized kernel program runs and leaves its arguments unchanged. -/
theorem frame_ki : Cert.frame_KernelIdeal := fun m ρ _ => Cert.KernelIdeal.Hand.frame m ρ

/-- The reference is a host program: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- At the ideal instance the kernel's result is `Gker` of the arguments, the reference's `Gref`, and on finite inputs
    the two are one function; the second result is an argument, returned as it came. -/
theorem algebraic : Cert.algebraic_KernelIdeal_ReferenceIdeal := by
  intro m ρ m' ρ' hpre hagree
  refine ⟨_, fun c => m ((c.tc : Thread Cert.KernelIdeal.nD Cert.KernelIdeal.τ).loc Cert.KernelIdeal.main_arg1),
    Cert.KernelIdeal.ValueSide.kernel_run m ρ, ?_⟩
  refine (θ_run Cert.ReferenceIdeal.defs _ _).mono (fun _ h c => ⟨(h c).1.trans ?_, (h c).2.1.trans (hagree c).2.1, (h c).2.2⟩)
    (Cert.ReferenceIdeal.Value.run (F := Ideal) m' ρ')
  obtain ⟨h0, h1, h3, h4, h5, h6, h7⟩ := Cert.FiniteInputs.real_of_pre _ _ _ _ _ _ _ _ (hpre c)
  rw [Cert.ReferenceIdeal.Read.val_main_v36_eq, Cert.RefSide.ref_result,
    (hagree c).1, (hagree c).2.1, (hagree c).2.2.2.1, (hagree c).2.2.2.2.1, (hagree c).2.2.2.2.2.1, (hagree c).2.2.2.2.2.2.1, (hagree c).2.2.2.2.2.2.2]
  exact (Cert.Spec.Gker_eq_Gref _ _ _ _ _ _ _ h0 h1 h3 h4 h5 h6 h7).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
